-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x512 : Shape := ⟨2, ![262144, 512]⟩
abbrev S262144 : Shape := ⟨1, ![262144]⟩
abbrev S8x512 : Shape := ⟨2, ![8, 512]⟩
abbrev S_ : Shape := ⟨0, ![]⟩

class Facts : Prop where
  bcast_S_S262144x512 : S_.BroadcastsInDim S262144x512 (![] : Fin 0 → Fin S262144x512.rank)
  reducesTo_S262144x512_S_d0_1 : S262144x512.ReducesTo [0, 1] S_
  h_S_ : 0 < S_.numel
  bcast_S_S8x512 : S_.BroadcastsInDim S8x512 (![] : Fin 0 → Fin S8x512.rank)
  reducesTo_S8x512_S_d0_1 : S8x512.ReducesTo [0, 1] S_
  bcast_S_S262144 : S_.BroadcastsInDim S262144 (![] : Fin 0 → Fin S262144.rank)
  reducesTo_S262144_S_d0 : S262144.ReducesTo [0] S_

variable [Facts]

def fn_part1 {F : FTy → Type} [FloatOps F] (main_arg1 : IVec S262144 32) (main_v13 : IVec S_ 1) (main_v15 : IVec S262144 1) (main_c_5 : IVec S_ 1) : IVec S_ 1 :=
  let main_v16 : IVec S_ 1 := (fun x v => Host.reduce IntOp.andi x v reducesTo_S262144_S_d0 h_S_) main_v15 main_c_5
  let main_v17 : IVec S_ 1 := andi main_v13 main_v16
  let main_c_6 : IVec S_ 32 := constantI S_ 32 8#32
  let main_v18 : IVec S262144 32 := broadcastInDim S262144 ![] bcast_S_S262144 main_c_6
  let main_v19 : IVec S262144 1 := cmpi .slt main_arg1 main_v18
  let main_c_7 : IVec S_ 1 := constantI S_ 1 1#1
  let main_v20 : IVec S_ 1 := (fun x v => Host.reduce IntOp.andi x v reducesTo_S262144_S_d0 h_S_) main_v19 main_c_7
  let main_v21 : IVec S_ 1 := andi main_v17 main_v20
  main_v21

def fn {F : FTy → Type} [FloatOps F] (main_arg0 : FVec F S262144x512 .f32) (main_arg1 : IVec S262144 32) (main_arg2 : FVec F S8x512 .f32) (main_arg3 : FVec F S8x512 .f32) : IVec S_ 1 :=
  let main_v0 : FVec F S262144x512 .f32 := Host.absf main_arg0
  let main_cst : FVec F S_ .f32 := constant S_ .f32 0x7F800000#32
  let main_v1 : FVec F S262144x512 .f32 := broadcastInDim S262144x512 ![] bcast_S_S262144x512 main_cst
  let main_v2 : IVec S262144x512 1 := cmpf .olt main_v0 main_v1
  let main_c : IVec S_ 1 := constantI S_ 1 1#1
  let main_v3 : IVec S_ 1 := (fun x v => Host.reduce IntOp.andi x v reducesTo_S262144x512_S_d0_1 h_S_) main_v2 main_c
  let main_v4 : FVec F S8x512 .f32 := Host.absf main_arg2
  let main_cst_0 : FVec F S_ .f32 := constant S_ .f32 0x7F800000#32
  let main_v5 : FVec F S8x512 .f32 := broadcastInDim S8x512 ![] bcast_S_S8x512 main_cst_0
  let main_v6 : IVec S8x512 1 := cmpf .olt main_v4 main_v5
  let main_c_1 : IVec S_ 1 := constantI S_ 1 1#1
  let main_v7 : IVec S_ 1 := (fun x v => Host.reduce IntOp.andi x v reducesTo_S8x512_S_d0_1 h_S_) main_v6 main_c_1
  let main_v8 : IVec S_ 1 := andi main_v3 main_v7
  let main_v9 : FVec F S8x512 .f32 := Host.absf main_arg3
  let main_cst_2 : FVec F S_ .f32 := constant S_ .f32 0x7F800000#32
  let main_v10 : FVec F S8x512 .f32 := broadcastInDim S8x512 ![] bcast_S_S8x512 main_cst_2
  let main_v11 : IVec S8x512 1 := cmpf .olt main_v9 main_v10
  let main_c_3 : IVec S_ 1 := constantI S_ 1 1#1
  let main_v12 : IVec S_ 1 := (fun x v => Host.reduce IntOp.andi x v reducesTo_S8x512_S_d0_1 h_S_) main_v11 main_c_3
  let main_v13 : IVec S_ 1 := andi main_v8 main_v12
  let main_c_4 : IVec S_ 32 := constantI S_ 32 0#32
  let main_v14 : IVec S262144 32 := broadcastInDim S262144 ![] bcast_S_S262144 main_c_4
  let main_v15 : IVec S262144 1 := cmpi .sge main_arg1 main_v14
  let main_c_5 : IVec S_ 1 := constantI S_ 1 1#1
  fn_part1 (F := F) main_arg1 main_v13 main_v15 main_c_5
-- ==== Kernel.lean ====
abbrev S262144x512 : Shape := ⟨2, ![262144, 512]⟩
abbrev S262144 : Shape := ⟨1, ![262144]⟩
abbrev S8x512 : Shape := ⟨2, ![8, 512]⟩
abbrev S262144x1 : Shape := ⟨2, ![262144, 1]⟩
abbrev S2x8x512 : Shape := ⟨3, ![2, 8, 512]⟩
abbrev S2x8x128 : Shape := ⟨3, ![2, 8, 128]⟩
abbrev S2048x512 : Shape := ⟨2, ![2048, 512]⟩
abbrev S2048x1 : Shape := ⟨2, ![2048, 1]⟩
abbrev S1x8x512 : Shape := ⟨3, ![1, 8, 512]⟩
abbrev S1x8x128 : Shape := ⟨3, ![1, 8, 128]⟩
abbrev S8x128 : Shape := ⟨2, ![8, 128]⟩
abbrev S2048x8 : Shape := ⟨2, ![2048, 8]⟩
abbrev S8 : Shape := ⟨1, ![8]⟩
abbrev S8x1 : Shape := ⟨2, ![8, 1]⟩
abbrev S_ : Shape := ⟨0, ![]⟩

abbrev nBuf : Space → Nat
  | .hbm => 63
  | .vmem => 18
  | .smem => 0
  | _ => 0

abbrev bufTy : (tb : Table) → Fin (tcTables nBuf tb) → BufTy
  | .hbm, ⟨0, _⟩ => ⟨S262144x512, .f32⟩
  | .hbm, ⟨1, _⟩ => ⟨S262144, .i32⟩
  | .hbm, ⟨2, _⟩ => ⟨S8x512, .f32⟩
  | .hbm, ⟨3, _⟩ => ⟨S8x512, .f32⟩
  | .hbm, ⟨4, _⟩ => ⟨S262144x1, .i32⟩
  | .hbm, ⟨5, _⟩ => ⟨S2x8x512, .f32⟩
  | .hbm, ⟨6, _⟩ => ⟨S2x8x512, .f32⟩
  | .hbm, ⟨7, _⟩ => ⟨S2x8x128, .f32⟩
  | .hbm, ⟨8, _⟩ => ⟨S_, .f32⟩
  | .hbm, ⟨9, _⟩ => ⟨S8x512, .f32⟩
  | .hbm, ⟨10, _⟩ => ⟨S_, .f32⟩
  | .hbm, ⟨11, _⟩ => ⟨S8x512, .f32⟩
  | .hbm, ⟨12, _⟩ => ⟨S_, .f32⟩
  | .hbm, ⟨13, _⟩ => ⟨S8x128, .f32⟩
  | .hbm, ⟨14, _⟩ => ⟨S8x1, .f32⟩
  | .hbm, ⟨15, _⟩ => ⟨S8, .f32⟩
  | .hbm, ⟨16, _⟩ => ⟨S_, .f32⟩
  | .hbm, ⟨17, _⟩ => ⟨S8, .f32⟩
  | .hbm, ⟨18, _⟩ => ⟨S8, .f32⟩
  | .hbm, ⟨19, _⟩ => ⟨S8x1, .f32⟩
  | .hbm, ⟨20, _⟩ => ⟨S8x512, .f32⟩
  | .hbm, ⟨21, _⟩ => ⟨S8x512, .f32⟩
  | .hbm, ⟨22, _⟩ => ⟨S8x512, .f32⟩
  | .hbm, ⟨23, _⟩ => ⟨S8x512, .f32⟩
  | .hbm, ⟨24, _⟩ => ⟨S8x512, .f32⟩
  | .hbm, ⟨25, _⟩ => ⟨S8x512, .f32⟩
  | .hbm, ⟨26, _⟩ => ⟨S_, .f32⟩
  | .hbm, ⟨27, _⟩ => ⟨S8, .f32⟩
  | .hbm, ⟨28, _⟩ => ⟨S8, .i1⟩
  | .hbm, ⟨29, _⟩ => ⟨S8x1, .i1⟩
  | .hbm, ⟨30, _⟩ => ⟨S_, .f32⟩
  | .hbm, ⟨31, _⟩ => ⟨S_, .f32⟩
  | .hbm, ⟨32, _⟩ => ⟨S8x512, .i1⟩
  | .hbm, ⟨33, _⟩ => ⟨S8x512, .f32⟩
  | .hbm, ⟨34, _⟩ => ⟨S8x512, .f32⟩
  | .hbm, ⟨35, _⟩ => ⟨S_, .f32⟩
  | .hbm, ⟨36, _⟩ => ⟨S_, .f32⟩
  | .hbm, ⟨37, _⟩ => ⟨S8x512, .i1⟩
  | .hbm, ⟨38, _⟩ => ⟨S8x512, .f32⟩
  | .hbm, ⟨39, _⟩ => ⟨S8x512, .f32⟩
  | .hbm, ⟨40, _⟩ => ⟨S_, .f32⟩
  | .hbm, ⟨41, _⟩ => ⟨S8x512, .f32⟩
  | .hbm, ⟨42, _⟩ => ⟨S8x512, .f32⟩
  | .hbm, ⟨43, _⟩ => ⟨S8x512, .f32⟩
  | .hbm, ⟨44, _⟩ => ⟨S8x512, .f32⟩
  | .hbm, ⟨45, _⟩ => ⟨S8x512, .f32⟩
  | .hbm, ⟨46, _⟩ => ⟨S8x512, .f32⟩
  | .hbm, ⟨47, _⟩ => ⟨S8x512, .f32⟩
  | .hbm, ⟨48, _⟩ => ⟨S_, .f32⟩
  | .hbm, ⟨49, _⟩ => ⟨S8, .f32⟩
  | .hbm, ⟨50, _⟩ => ⟨S8, .i1⟩
  | .hbm, ⟨51, _⟩ => ⟨S8x1, .i1⟩
  | .hbm, ⟨52, _⟩ => ⟨S_, .f32⟩
  | .hbm, ⟨53, _⟩ => ⟨S_, .f32⟩
  | .hbm, ⟨54, _⟩ => ⟨S8x512, .i1⟩
  | .hbm, ⟨55, _⟩ => ⟨S8x512, .f32⟩
  | .hbm, ⟨56, _⟩ => ⟨S8x512, .f32⟩
  | .hbm, ⟨57, _⟩ => ⟨S_, .f32⟩
  | .hbm, ⟨58, _⟩ => ⟨S_, .f32⟩
  | .hbm, ⟨59, _⟩ => ⟨S8x512, .i1⟩
  | .hbm, ⟨60, _⟩ => ⟨S8x512, .f32⟩
  | .hbm, ⟨61, _⟩ => ⟨S8x512, .f32⟩
  | .hbm, ⟨62, _⟩ => ⟨S262144x512, .f32⟩
  | .local _ .vmem, ⟨0, _⟩ => ⟨S2048x512, .f32⟩
  | .local _ .vmem, ⟨1, _⟩ => ⟨S2048x512, .f32⟩
  | .local _ .vmem, ⟨2, _⟩ => ⟨S2048x1, .i32⟩
  | .local _ .vmem, ⟨3, _⟩ => ⟨S2048x1, .i32⟩
  | .local _ .vmem, ⟨4, _⟩ => ⟨S1x8x512, .f32⟩
  | .local _ .vmem, ⟨5, _⟩ => ⟨S1x8x512, .f32⟩
  | .local _ .vmem, ⟨6, _⟩ => ⟨S1x8x512, .f32⟩
  | .local _ .vmem, ⟨7, _⟩ => ⟨S1x8x512, .f32⟩
  | .local _ .vmem, ⟨8, _⟩ => ⟨S1x8x128, .f32⟩
  | .local _ .vmem, ⟨9, _⟩ => ⟨S1x8x128, .f32⟩
  | .local _ .vmem, ⟨10, _⟩ => ⟨S2048x512, .f32⟩
  | .local _ .vmem, ⟨11, _⟩ => ⟨S2048x512, .f32⟩
  | .local _ .vmem, ⟨12, _⟩ => ⟨S2048x1, .i32⟩
  | .local _ .vmem, ⟨13, _⟩ => ⟨S2048x1, .i32⟩
  | .local _ .vmem, ⟨14, _⟩ => ⟨S8x512, .f32⟩
  | .local _ .vmem, ⟨15, _⟩ => ⟨S8x512, .f32⟩
  | .local _ .vmem, ⟨16, _⟩ => ⟨S2048x512, .f32⟩
  | .local _ .vmem, ⟨17, _⟩ => ⟨S2048x512, .f32⟩
  | _, _ => ⟨S262144x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_cst : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v19 : Ref sig .tc := ⟨.hbm, 34, rfl⟩
abbrev main_cst_5 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v20 : Ref sig .tc := ⟨.hbm, 39, rfl⟩
abbrev main_cst_6 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_7 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_8 : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_v31 : Ref sig .tc := ⟨.hbm, 56, rfl⟩
abbrev main_cst_9 : Ref sig .tc := ⟨.hbm, 57, rfl⟩
abbrev main_call3_v0 : Ref sig .tc := ⟨.hbm, 58, rfl⟩
abbrev main_call3_v1 : Ref sig .tc := ⟨.hbm, 59, rfl⟩
abbrev main_call3_v2 : Ref sig .tc := ⟨.hbm, 60, rfl⟩
abbrev main_v32 : Ref sig .tc := ⟨.hbm, 61, rfl⟩
abbrev main_v33 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨2, ![2, 64], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S8x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S8x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2048x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  shapeCasts_S262144_S262144x1 : S262144.ShapeCasts S262144x1
  inb_S1x8x512_S1x8x512_0_0_0 : ∀ a, (![0, 0, 0] : Fin 3 → Nat) a + S1x8x512.size a ≤ S1x8x512.size a
  h_S1x8x512 : 0 < S1x8x512.numel
  shapeCasts_S1x8x512_S8x512 : S1x8x512.ShapeCasts S8x512
  shapeCasts_S8x512_S1x8x512 : S8x512.ShapeCasts S1x8x512
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  inb_S2048x512_S2048x512_0_0 : ∀ a, (![0, 0] : Fin 2 → Nat) a + S2048x512.size a ≤ S2048x512.size a
  h_S2048x512 : 0 < S2048x512.numel
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  iota_S2048x8_d1_w32 : S2048x8.Iotas .tc 32 [1]
  broadcasts_S2048x1_S2048x8 : S2048x1.Broadcasts S2048x8
  natLt_1_32 : 1 < 32
  reduces_S2048x8_S8 : S2048x8.Reduces [0] S8
  shapeCasts_S8_S8x1 : S8.ShapeCasts S8x1
  shapeCasts_S8x1_S8x1 : S8x1.ShapeCasts S8x1
  broadcasts_S8x1_S8x128 : S8x1.Broadcasts S8x128
  reducesTo_S2x8x512_S8x512_d0 : S2x8x512.ReducesTo [0] S8x512
  h_S_ : 0 < S_.numel
  reducesTo_S2x8x128_S8x128_d0 : S2x8x128.ReducesTo [0] S8x128
  slices_S8x128_S8x1_0_0 : S8x128.Slices ![0, 0] S8x1
  shapeCasts_S8x1_S8 : S8x1.ShapeCasts S8
  bcast_S_S8 : S_.BroadcastsInDim S8 (![] : Fin 0 → Fin S8.rank)
  bcast_S8_S8x1_0 : S8.BroadcastsInDim S8x1 (![0] : Fin 1 → Fin S8x1.rank)
  bcast_S8x1_S8x512_0_1 : S8x1.BroadcastsInDim S8x512 (![0, 1] : Fin 2 → Fin S8x512.rank)
  bcast_S_S8x512 : S_.BroadcastsInDim S8x512 (![] : Fin 0 → Fin S8x512.rank)
  inb_S8x512_S8x512_0_0 : ∀ a, (![0, 0] : Fin 2 → Nat) a + S8x512.size a ≤ S8x512.size a
  h_S8x512 : 0 < S8x512.numel
  shapeCasts_S8x512_S8x512 : S8x512.ShapeCasts S8x512
  dot_S2048x8_S2048x512_S8x512_0_0_1_1_n_n_wf : DotDims.WF S2048x8 S2048x512 S8x512 [0] [0] [1] [1] [] []
  dot_S2048x8_S8x512_S2048x512_1_0_0_1_n_n_wf : DotDims.WF S2048x8 S8x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S262144x512.size a
  hwx0_0 : ∀ i : grid0.Coords, EltTy.bits .f32 = 32 ∨ (Rect.block (s := S262144x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S262144x1.size a
  hwx0_1 : ∀ i : grid0.Coords, EltTy.bits .i32 = 32 ∨ (Rect.block (s := S262144x1) S2048x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x512.size a ≤ S2x8x512.size a
  hwx0_2 : ∀ i : grid0.Coords, EltTy.bits .f32 = 32 ∨ (Rect.block (s := S2x8x512) S1x8x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x512.size a ≤ S2x8x512.size a
  hwx0_3 : ∀ i : grid0.Coords, EltTy.bits .f32 = 32 ∨ (Rect.block (s := S2x8x512) S1x8x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x128.size a ≤ S2x8x128.size a
  hwx0_4 : ∀ i : grid0.Coords, EltTy.bits .f32 = 32 ∨ (Rect.block (s := S2x8x128) S1x8x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x512.size a ≤ S262144x512.size a
  hwx1_0 : ∀ i : grid1.Coords, EltTy.bits .f32 = 32 ∨ (Rect.block (s := S262144x512) S2048x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1.size a ≤ S262144x1.size a
  hwx1_1 : ∀ i : grid1.Coords, EltTy.bits .i32 = 32 ∨ (Rect.block (s := S262144x1) S2048x1.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8x512.size a ≤ S8x512.size a
  hwx1_2 : ∀ i : grid1.Coords, EltTy.bits .f32 = 32 ∨ (Rect.block (s := S8x512) S8x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S8x512.size a ≤ S8x512.size a
  hwx1_3 : ∀ i : grid1.Coords, EltTy.bits .f32 = 32 ∨ (Rect.block (s := S8x512) S8x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2048x512.size a ≤ S262144x512.size a
  hwx1_4 : ∀ i : grid1.Coords, EltTy.bits .f32 = 32 ∨ (Rect.block (s := S262144x512) S2048x512.size (cc1_transform_4 i) (hinb1_4 i)).WholeWords (EltTy.packing .f32)

variable [Facts₀]

def dot_S2048x8_S2048x512_S8x512_0_0_1_1_n_n : DotDims S2048x8 S2048x512 S8x512 where
  lhsContracting := [0]
  rhsContracting := [0]
  lhsNonContracting := [1]
  rhsNonContracting := [1]
  lhsBatch := []
  rhsBatch := []
  wf := dot_S2048x8_S2048x512_S8x512_0_0_1_1_n_n_wf
def dot_S2048x8_S8x512_S2048x512_1_0_0_1_n_n : DotDims S2048x8 S8x512 S2048x512 where
  lhsContracting := [1]
  rhsContracting := [0]
  lhsNonContracting := [0]
  rhsNonContracting := [1]
  lhsBatch := []
  rhsBatch := []
  wf := dot_S2048x8_S8x512_S2048x512_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x8x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x8x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_2) S1x8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S2048x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S2048x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v31) S8x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v32) S8x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v33) S2048x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S262144x512 : Shape := ⟨2, ![262144, 512]⟩
abbrev S262144 : Shape := ⟨1, ![262144]⟩
abbrev S8x512 : Shape := ⟨2, ![8, 512]⟩
abbrev S_ : Shape := ⟨0, ![]⟩
abbrev S8 : Shape := ⟨1, ![8]⟩
abbrev S262144x1 : Shape := ⟨2, ![262144, 1]⟩
abbrev S8x1 : Shape := ⟨2, ![8, 1]⟩

abbrev nBuf : Space → Nat
  | .hbm => 105
  | .vmem => 0
  | .smem => 0
  | _ => 0

abbrev bufTy : (tb : Table) → Fin (tcTables nBuf tb) → BufTy
  | .hbm, ⟨0, _⟩ => ⟨S262144x512, .f32⟩
  | .hbm, ⟨1, _⟩ => ⟨S262144, .i32⟩
  | .hbm, ⟨2, _⟩ => ⟨S8x512, .f32⟩
  | .hbm, ⟨3, _⟩ => ⟨S8x512, .f32⟩
  | .hbm, ⟨4, _⟩ => ⟨S_, .f32⟩
  | .hbm, ⟨5, _⟩ => ⟨S262144, .f32⟩
  | .hbm, ⟨6, _⟩ => ⟨S_, .f32⟩
  | .hbm, ⟨7, _⟩ => ⟨S8, .f32⟩
  | .hbm, ⟨8, _⟩ => ⟨S262144x1, .i32⟩
  | .hbm, ⟨9, _⟩ => ⟨S8, .f32⟩
  | .hbm, ⟨10, _⟩ => ⟨S_, .f32⟩
  | .hbm, ⟨11, _⟩ => ⟨S8x512, .f32⟩
  | .hbm, ⟨12, _⟩ => ⟨S262144x1, .i32⟩
  | .hbm, ⟨13, _⟩ => ⟨S8x512, .f32⟩
  | .hbm, ⟨14, _⟩ => ⟨S262144x512, .f32⟩
  | .hbm, ⟨15, _⟩ => ⟨S_, .f32⟩
  | .hbm, ⟨16, _⟩ => ⟨S8x512, .f32⟩
  | .hbm, ⟨17, _⟩ => ⟨S262144x1, .i32⟩
  | .hbm, ⟨18, _⟩ => ⟨S8x512, .f32⟩
  | .hbm, ⟨19, _⟩ => ⟨S_, .f32⟩
  | .hbm, ⟨20, _⟩ => ⟨S8, .f32⟩
  | .hbm, ⟨21, _⟩ => ⟨S8, .f32⟩
  | .hbm, ⟨22, _⟩ => ⟨S8x1, .f32⟩
  | .hbm, ⟨23, _⟩ => ⟨S8x512, .f32⟩
  | .hbm, ⟨24, _⟩ => ⟨S8x512, .f32⟩
  | .hbm, ⟨25, _⟩ => ⟨S8x512, .f32⟩
  | .hbm, ⟨26, _⟩ => ⟨S8x512, .f32⟩
  | .hbm, ⟨27, _⟩ => ⟨S8x512, .f32⟩
  | .hbm, ⟨28, _⟩ => ⟨S8x512, .f32⟩
  | .hbm, ⟨29, _⟩ => ⟨S_, .f32⟩
  | .hbm, ⟨30, _⟩ => ⟨S8, .f32⟩
  | .hbm, ⟨31, _⟩ => ⟨S8, .i1⟩
  | .hbm, ⟨32, _⟩ => ⟨S8x1, .i1⟩
  | .hbm, ⟨33, _⟩ => ⟨S_, .f32⟩
  | .hbm, ⟨34, _⟩ => ⟨S_, .f32⟩
  | .hbm, ⟨35, _⟩ => ⟨S8x512, .i1⟩
  | .hbm, ⟨36, _⟩ => ⟨S8x512, .f32⟩
  | .hbm, ⟨37, _⟩ => ⟨S8x512, .f32⟩
  | .hbm, ⟨38, _⟩ => ⟨S_, .f32⟩
  | .hbm, ⟨39, _⟩ => ⟨S_, .f32⟩
  | .hbm, ⟨40, _⟩ => ⟨S8x512, .i1⟩
  | .hbm, ⟨41, _⟩ => ⟨S8x512, .f32⟩
  | .hbm, ⟨42, _⟩ => ⟨S8x512, .f32⟩
  | .hbm, ⟨43, _⟩ => ⟨S_, .f32⟩
  | .hbm, ⟨44, _⟩ => ⟨S8x512, .f32⟩
  | .hbm, ⟨45, _⟩ => ⟨S8x512, .f32⟩
  | .hbm, ⟨46, _⟩ => ⟨S8x512, .f32⟩
  | .hbm, ⟨47, _⟩ => ⟨S_, .i32⟩
  | .hbm, ⟨48, _⟩ => ⟨S262144, .i32⟩
  | .hbm, ⟨49, _⟩ => ⟨S262144, .i1⟩
  | .hbm, ⟨50, _⟩ => ⟨S_, .i32⟩
  | .hbm, ⟨51, _⟩ => ⟨S262144, .i32⟩
  | .hbm, ⟨52, _⟩ => ⟨S262144, .i32⟩
  | .hbm, ⟨53, _⟩ => ⟨S262144, .i32⟩
  | .hbm, ⟨54, _⟩ => ⟨S262144x1, .i32⟩
  | .hbm, ⟨55, _⟩ => ⟨S262144x512, .f32⟩
  | .hbm, ⟨56, _⟩ => ⟨S_, .i32⟩
  | .hbm, ⟨57, _⟩ => ⟨S262144, .i32⟩
  | .hbm, ⟨58, _⟩ => ⟨S262144, .i1⟩
  | .hbm, ⟨59, _⟩ => ⟨S_, .i32⟩
  | .hbm, ⟨60, _⟩ => ⟨S262144, .i32⟩
  | .hbm, ⟨61, _⟩ => ⟨S262144, .i32⟩
  | .hbm, ⟨62, _⟩ => ⟨S262144, .i32⟩
  | .hbm, ⟨63, _⟩ => ⟨S262144x1, .i32⟩
  | .hbm, ⟨64, _⟩ => ⟨S262144x512, .f32⟩
  | .hbm, ⟨65, _⟩ => ⟨S262144x512, .f32⟩
  | .hbm, ⟨66, _⟩ => ⟨S262144x512, .f32⟩
  | .hbm, ⟨67, _⟩ => ⟨S_, .i32⟩
  | .hbm, ⟨68, _⟩ => ⟨S262144, .i32⟩
  | .hbm, ⟨69, _⟩ => ⟨S262144, .i1⟩
  | .hbm, ⟨70, _⟩ => ⟨S_, .i32⟩
  | .hbm, ⟨71, _⟩ => ⟨S262144, .i32⟩
  | .hbm, ⟨72, _⟩ => ⟨S262144, .i32⟩
  | .hbm, ⟨73, _⟩ => ⟨S262144, .i32⟩
  | .hbm, ⟨74, _⟩ => ⟨S262144x1, .i32⟩
  | .hbm, ⟨75, _⟩ => ⟨S262144x512, .f32⟩
  | .hbm, ⟨76, _⟩ => ⟨S262144x512, .f32⟩
  | .hbm, ⟨77, _⟩ => ⟨S_, .i32⟩
  | .hbm, ⟨78, _⟩ => ⟨S262144, .i32⟩
  | .hbm, ⟨79, _⟩ => ⟨S262144, .i1⟩
  | .hbm, ⟨80, _⟩ => ⟨S_, .i32⟩
  | .hbm, ⟨81, _⟩ => ⟨S262144, .i32⟩
  | .hbm, ⟨82, _⟩ => ⟨S262144, .i32⟩
  | .hbm, ⟨83, _⟩ => ⟨S262144, .i32⟩
  | .hbm, ⟨84, _⟩ => ⟨S262144x1, .i32⟩
  | .hbm, ⟨85, _⟩ => ⟨S262144x512, .f32⟩
  | .hbm, ⟨86, _⟩ => ⟨S262144x512, .f32⟩
  | .hbm, ⟨87, _⟩ => ⟨S_, .i32⟩
  | .hbm, ⟨88, _⟩ => ⟨S262144, .i32⟩
  | .hbm, ⟨89, _⟩ => ⟨S262144, .i1⟩
  | .hbm, ⟨90, _⟩ => ⟨S_, .i32⟩
  | .hbm, ⟨91, _⟩ => ⟨S262144, .i32⟩
  | .hbm, ⟨92, _⟩ => ⟨S262144, .i32⟩
  | .hbm, ⟨93, _⟩ => ⟨S262144, .i32⟩
  | .hbm, ⟨94, _⟩ => ⟨S262144x1, .i32⟩
  | .hbm, ⟨95, _⟩ => ⟨S262144, .f32⟩
  | .hbm, ⟨96, _⟩ => ⟨S_, .f32⟩
  | .hbm, ⟨97, _⟩ => ⟨S262144, .f32⟩
  | .hbm, ⟨98, _⟩ => ⟨S262144, .i1⟩
  | .hbm, ⟨99, _⟩ => ⟨S262144x1, .i1⟩
  | .hbm, ⟨100, _⟩ => ⟨S_, .f32⟩
  | .hbm, ⟨101, _⟩ => ⟨S_, .f32⟩
  | .hbm, ⟨102, _⟩ => ⟨S262144x512, .i1⟩
  | .hbm, ⟨103, _⟩ => ⟨S262144x512, .f32⟩
  | .hbm, ⟨104, _⟩ => ⟨S262144x512, .f32⟩
  | _, _ => ⟨S262144x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v23 : Ref sig .tc := ⟨.hbm, 37, rfl⟩
abbrev main_cst_6 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v24 : Ref sig .tc := ⟨.hbm, 42, rfl⟩
abbrev main_cst_7 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c : Ref sig .tc := ⟨.hbm, 47, rfl⟩
abbrev main_v28 : Ref sig .tc := ⟨.hbm, 48, rfl⟩
abbrev main_v29 : Ref sig .tc := ⟨.hbm, 49, rfl⟩
abbrev main_c_8 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_c_9 : Ref sig .tc := ⟨.hbm, 56, rfl⟩
abbrev main_v35 : Ref sig .tc := ⟨.hbm, 57, rfl⟩
abbrev main_v36 : Ref sig .tc := ⟨.hbm, 58, rfl⟩
abbrev main_c_10 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_c_11 : Ref sig .tc := ⟨.hbm, 67, rfl⟩
abbrev main_v44 : Ref sig .tc := ⟨.hbm, 68, rfl⟩
abbrev main_v45 : Ref sig .tc := ⟨.hbm, 69, rfl⟩
abbrev main_c_12 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_c_13 : Ref sig .tc := ⟨.hbm, 77, rfl⟩
abbrev main_v52 : Ref sig .tc := ⟨.hbm, 78, rfl⟩
abbrev main_v53 : Ref sig .tc := ⟨.hbm, 79, rfl⟩
abbrev main_c_14 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_c_15 : Ref sig .tc := ⟨.hbm, 87, rfl⟩
abbrev main_v60 : Ref sig .tc := ⟨.hbm, 88, rfl⟩
abbrev main_v61 : Ref sig .tc := ⟨.hbm, 89, rfl⟩
abbrev main_c_16 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_17 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_18 : Ref sig .tc := ⟨.hbm, 100, rfl⟩
abbrev main_call2_v0 : Ref sig .tc := ⟨.hbm, 101, rfl⟩
abbrev main_call2_v1 : Ref sig .tc := ⟨.hbm, 102, rfl⟩
abbrev main_call2_v2 : Ref sig .tc := ⟨.hbm, 103, rfl⟩
abbrev main_v70 : Ref sig .tc := ⟨.hbm, 104, rfl⟩

abbrev nD : Nat := 1
abbrev τ : Topo := Topo.v7x

variable {F : FTy → Type} [FloatOps F]

class Facts₀ : Prop where
  bcast_S_S262144 : S_.BroadcastsInDim S262144 (![] : Fin 0 → Fin S262144.rank)
  bcast_S_S8 : S_.BroadcastsInDim S8 (![] : Fin 0 → Fin S8.rank)
  bcast_S262144_S262144x1_0 : S262144.BroadcastsInDim S262144x1 (![0] : Fin 1 → Fin S262144x1.rank)
  bcast_S_S8x512 : S_.BroadcastsInDim S8x512 (![] : Fin 0 → Fin S8x512.rank)
  bcast_S8_S8x1_0 : S8.BroadcastsInDim S8x1 (![0] : Fin 1 → Fin S8x1.rank)
  bcast_S8x1_S8x512_0_1 : S8x1.BroadcastsInDim S8x512 (![0, 1] : Fin 2 → Fin S8x512.rank)
  bcast_S262144x1_S262144x512_0_1 : S262144x1.BroadcastsInDim S262144x512 (![0, 1] : Fin 2 → Fin S262144x512.rank)
  bcast_S_S262144x512 : S_.BroadcastsInDim S262144x512 (![] : Fin 0 → Fin S262144x512.rank)
  scatter_S8_S262144x1_S262144_n_0_0_1_wf : ScatterDims.WF S8 S262144x1 S262144 [] [0] [0] 1
  scatter_S8x512_S262144x1_S262144x512_1_0_0_1_wf : ScatterDims.WF S8x512 S262144x1 S262144x512 [1] [0] [0] 1
  gather_S8x512_S262144x1_S262144x512_1_0_n_n_0_1_1512_wf : GatherDims.WF S8x512 S262144x1 S262144x512 [1] [0] [] [0] [] 1 ![1, 512]
  gather_S8_S262144x1_S262144_n_0_n_n_0_1_1_wf : GatherDims.WF S8 S262144x1 S262144 [] [0] [] [0] [] 1 ![1]

variable [Facts₀]

def scatter_S8_S262144x1_S262144_n_0_0_1 : ScatterDims S8 S262144x1 S262144 where
  updateWindowDims := []
  insertedWindowDims := [0]
  scatterDimsToOperandDims := [0]
  indexVectorDim := 1
  wf := scatter_S8_S262144x1_S262144_n_0_0_1_wf
def scatter_S8x512_S262144x1_S262144x512_1_0_0_1 : ScatterDims S8x512 S262144x1 S262144x512 where
  updateWindowDims := [1]
  insertedWindowDims := [0]
  scatterDimsToOperandDims := [0]
  indexVectorDim := 1
  wf := scatter_S8x512_S262144x1_S262144x512_1_0_0_1_wf
def gather_S8x512_S262144x1_S262144x512_1_0_n_n_0_1_1512 : GatherDims S8x512 S262144x1 S262144x512 where
  offsetDims := [1]
  collapsedSliceDims := [0]
  operandBatchingDims := []
  startIndicesBatchingDims := []
  startIndexMap := [0]
  indexVectorDim := 1
  sliceSizes := ![1, 512]
  wf := gather_S8x512_S262144x1_S262144x512_1_0_n_n_0_1_1512_wf
def gather_S8_S262144x1_S262144_n_0_n_n_0_1_1 : GatherDims S8 S262144x1 S262144 where
  offsetDims := []
  collapsedSliceDims := [0]
  operandBatchingDims := []
  startIndicesBatchingDims := []
  startIndexMap := [0]
  indexVectorDim := 1
  sliceSizes := ![1]
  wf := gather_S8_S262144x1_S262144_n_0_n_n_0_1_1_wf

class Facts : Prop extends Facts₀ where

variable [Facts]
-- ==== Proof.KSpec.lean ====
/-
  What the two kernel regions leave in their result arrays, as functions of the arrays they read.

  The statistics region runs on a grid of 2 × 64 points; point (c, s) reads rows
  `(64·c + s)·2048 … +2047` of the row-major data. For each half `c` it leaves, per domain `d`
  (and feature `f`), the sum over the half's rows whose label word is `d` of the entry, of its square,
  and of 1 (the last replicated along 128 lanes).

  The normalising region leaves `x · (Σ_d [label = d] · scale[d, f]) + Σ_d [label = d] · bias[d, f]`.
-/
import Idealize.ShloMosaic.PureOps.Ideal
import Idealize.ShloMosaic.Lib.ValueIdx

noncomputable section

open scoped BigOperators

namespace Cert.KSpec

open Idealize.ShloMosaic Idealize.ShloMosaic.ValueIdx

/-- 1 where the label word is the domain's number, else 0. -/
def hot (w : BitVec 32) (d : Fin 8) : EReal := if w = BitVec.ofNat 32 d.val then 1 else 0

/-- The row that point (c, s) of the statistics grid reads at offset `r`. -/
def rowOf (c : Fin 2) (s : Fin 64) (r : Fin 2048) : Fin 262144 :=
  ⟨(c.val * 64 + s.val) * 2048 + r.val, by have := c.isLt; have := s.isLt; have := r.isLt; omega⟩

/-- Per half, domain and feature: the sum of the entries of the half's rows labelled with the domain. -/
def partSum (X : (⟨2, ![262144, 512]⟩ : Shape).Idx → EReal) (Y : (⟨2, ![262144, 1]⟩ : Shape).Idx → BitVec 32) :
    (⟨3, ![2, 8, 512]⟩ : Shape).Idx → EReal :=
  fun i => ∑ s : Fin 64, ∑ r : Fin 2048,
    hot (Y (ix2 (rowOf (i 0) s r) (0 : Fin 1))) (i 1) * X (ix2 (rowOf (i 0) s r) (i 2))

/-- The same of the squares. -/
def partSumSq (X : (⟨2, ![262144, 512]⟩ : Shape).Idx → EReal) (Y : (⟨2, ![262144, 1]⟩ : Shape).Idx → BitVec 32) :
    (⟨3, ![2, 8, 512]⟩ : Shape).Idx → EReal :=
  fun i => ∑ s : Fin 64, ∑ r : Fin 2048,
    hot (Y (ix2 (rowOf (i 0) s r) (0 : Fin 1))) (i 1)
      * (X (ix2 (rowOf (i 0) s r) (i 2)) * X (ix2 (rowOf (i 0) s r) (i 2)))

/-- Per half and domain: how many of the half's rows carry the domain's label (the same on every lane). -/
def partCnt (Y : (⟨2, ![262144, 1]⟩ : Shape).Idx → BitVec 32) : (⟨3, ![2, 8, 128]⟩ : Shape).Idx → EReal :=
  fun i => ∑ s : Fin 64, ∑ r : Fin 2048, hot (Y (ix2 (rowOf (i 0) s r) (0 : Fin 1))) (i 1)

/-- The normalising region's result. -/
def normOut (X : (⟨2, ![262144, 512]⟩ : Shape).Idx → EReal) (Y : (⟨2, ![262144, 1]⟩ : Shape).Idx → BitVec 32)
    (Sc Bi : (⟨2, ![8, 512]⟩ : Shape).Idx → EReal) : (⟨2, ![262144, 512]⟩ : Shape).Idx → EReal :=
  fun i => X i * (∑ d : Fin 8, hot (Y (ix2 (i 0) (0 : Fin 1))) d * Sc (ix2 d (i 1)))
    + ∑ d : Fin 8, hot (Y (ix2 (i 0) (0 : Fin 1))) d * Bi (ix2 d (i 1))

/-- The host's sum of the two halves. -/
def hSum (P : (⟨3, ![2, 8, 512]⟩ : Shape).Idx → EReal) (d : Fin 8) (f : Fin 512) : EReal :=
  P (ix3 (0 : Fin 2) d f) + P (ix3 (1 : Fin 2) d f)

/-- The host's sum of the two halves' counts, read on lane 0. -/
def hCnt (C : (⟨3, ![2, 8, 128]⟩ : Shape).Idx → EReal) (d : Fin 8) : EReal :=
  C (ix3 (0 : Fin 2) d (0 : Fin 128)) + C (ix3 (1 : Fin 2) d (0 : Fin 128))

end Cert.KSpec

end
-- ==== Proof.StatsValue.lean ====
/-
  What the statistics region leaves in its first two result arrays.

  The region's grid has 2 × 64 points; point t = 64·q + s reads the 2048 rows (64·q + s)·2048 … + 2047 of the data
  and of the label column. From the labels it builds the indicator matrix hot[r, d] = [label word of row r = d]
  (a comparison with the lane number, widened and converted: 1 or 0), and it adds to two [1, 8, 512] blocks the
  products hotᵀ · x and hotᵀ · (x · x): at (d, f) the sum over the point's rows of hot[r, d] · x[r, f], and of
  hot[r, d] · x[r, f]². Both blocks are zeroed at the first point of each run of 64 and written back at its last,
  to block q of the [2, 8, 512] result. So after the region, entry (q, d, f) of the first result is the sum over
  s < 64 and r < 2048 of hot · x at row (64·q + s)·2048 + r, and of the second the same sum of hot · x².

  The order of the argument: what each case of the body leaves in a block is the update's term of the blocks read
  (`sumA` … `sqB`); that term at an index is the accumulator's entry plus a sum over the 2048 rows (`pay7_apply`:
  the contraction over its one axis, the indicator entry by a case split on the comparison's bit); a block that is
  reset at the multiples of 64 and stepped elsewhere is the sum of its run's addends (`fold_eq`); a block's entry
  is the whole array's entry at block index × block size + the coordinate inside the block (`xblk_apply`,
  `yblk_apply`); the last point of a run writes back the whole run's sum, which is its block of the per-half sums
  (`sums_flushed`, `sq_flushed`); and the two last points' blocks cover the result (`sums_cover`, `sq_cover`).
  The squares go the same road, because their update is the sums' update of the data block squared entry by entry.
-/
import proofs.«403173_j9320079033284_2_alg».proof.Proof.Gen.KernelIdeal.Frame
import proofs.«403173_j9320079033284_2_alg».proof.Proof.KSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Stats

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

namespace SumBlocks

/-! ## What each case of the body leaves in the two blocks, for any float values -/

section Pieces
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- Away from the start of a run the sums' block, holding `o2`, is left at the update of `o2` by the data block `x`
    and the label block `y`: the body's one store covers the block, and its loads read the whole buffers. -/
theorem sumB (c : Dev nD) (i : grid0.Coords) (a2 : Memref sig .tc .vmem S2048x512 .f32) (h2 : a2.IsWhole)
    (a3 : Memref sig .tc .vmem S2048x1 .i32) (h3 : a3.IsWhole) (a4 : Memref sig .tc .vmem S1x8x512 .f32) (h4 : a4.IsWhole)
    (a5 : Memref sig .tc .vmem S1x8x512 .f32) (h5 : a5.IsWhole) (a6 : Memref sig .tc .vmem S1x8x128 .f32) (h6 : a6.IsWhole)
    (hc : ¬cond0_0 i) (x : Vec F S2048x512 .f32) (y : Vec F S2048x1 .i32)
    (o2 o3 : Vec F S1x8x512 .f32) (o4 : Vec F S1x8x128 .f32) :
    out0_B_2 c i a2 h2 a3 h3 a4 h4 a5 h5 a6 h6 hc x y o2 o3 o4 = k0_pay7 x y o2 := by
  unfold out0_B_2
  rw [View.read_writes_eq_canon _ _ _ (cover0_B_2 c i a2 h2 a3 h3 a4 h4 a5 h5 a6 h6 hc x y o2 o3 o4)]
  unfold kernelRun0_B
  dsimp only
  sl_unfold_words
  rw [View.canon_unit_zero hz3]
  simp only [View.readAt_eq_ld, h2.read_unread, h3.read_unread, h4.read_unread,
    View.ld_unit_zero (S := S2048x512) hz2, View.ld_unit_zero (S := S2048x1) hz2, View.ld_unit_zero (S := S1x8x512) hz3]

/-- At the start of a run the body first stores the zero block, then reads it back and stores its update: the later
    store covers the block, and what it read is the zero block. -/
theorem sumA (c : Dev nD) (i : grid0.Coords) (a2 : Memref sig .tc .vmem S2048x512 .f32) (h2 : a2.IsWhole)
    (a3 : Memref sig .tc .vmem S2048x1 .i32) (h3 : a3.IsWhole) (a4 : Memref sig .tc .vmem S1x8x512 .f32) (h4 : a4.IsWhole)
    (a5 : Memref sig .tc .vmem S1x8x512 .f32) (h5 : a5.IsWhole) (a6 : Memref sig .tc .vmem S1x8x128 .f32) (h6 : a6.IsWhole)
    (hc : cond0_0 i) (x : Vec F S2048x512 .f32) (y : Vec F S2048x1 .i32) :
    out0_A_2 c i a2 h2 a3 h3 a4 h4 a5 h5 a6 h6 hc x y = k0_pay7 x y (k0_pay2 (F := F)) := by
  unfold out0_A_2
  rw [View.read_writes_eq_canon _ _ _ (cover0_A_2 c i a2 h2 a3 h3 a4 h4 a5 h5 a6 h6 hc x y)]
  unfold kernelRun0_A
  dsimp only
  sl_unfold_words
  rw [View.canon_cons_unit_zero (S := S1x8x512) hz3, View.readCov_unit_zero (S := S1x8x512) _ hz3]
  simp only [View.readAt_eq_ld, h2.read_unread, h3.read_unread,
    View.ld_unit_zero (S := S2048x512) hz2, View.ld_unit_zero (S := S2048x1) hz2]

/-- The squares' block away from the start of a run: the update of `o3`. -/
theorem sqB (c : Dev nD) (i : grid0.Coords) (a2 : Memref sig .tc .vmem S2048x512 .f32) (h2 : a2.IsWhole)
    (a3 : Memref sig .tc .vmem S2048x1 .i32) (h3 : a3.IsWhole) (a4 : Memref sig .tc .vmem S1x8x512 .f32) (h4 : a4.IsWhole)
    (a5 : Memref sig .tc .vmem S1x8x512 .f32) (h5 : a5.IsWhole) (a6 : Memref sig .tc .vmem S1x8x128 .f32) (h6 : a6.IsWhole)
    (hc : ¬cond0_0 i) (x : Vec F S2048x512 .f32) (y : Vec F S2048x1 .i32)
    (o2 o3 : Vec F S1x8x512 .f32) (o4 : Vec F S1x8x128 .f32) :
    out0_B_3 c i a2 h2 a3 h3 a4 h4 a5 h5 a6 h6 hc x y o2 o3 o4 = k0_pay8 x y o3 := by
  unfold out0_B_3
  rw [View.read_writes_eq_canon _ _ _ (cover0_B_3 c i a2 h2 a3 h3 a4 h4 a5 h5 a6 h6 hc x y o2 o3 o4)]
  unfold kernelRun0_B
  dsimp only
  sl_unfold_words
  rw [View.canon_unit_zero hz3]
  simp only [View.readAt_eq_ld, h2.read_unread, h3.read_unread, h5.read_unread,
    View.ld_unit_zero (S := S2048x512) hz2, View.ld_unit_zero (S := S2048x1) hz2, View.ld_unit_zero (S := S1x8x512) hz3]

/-- The squares' block at the start of a run: the update of the zero block. -/
theorem sqA (c : Dev nD) (i : grid0.Coords) (a2 : Memref sig .tc .vmem S2048x512 .f32) (h2 : a2.IsWhole)
    (a3 : Memref sig .tc .vmem S2048x1 .i32) (h3 : a3.IsWhole) (a4 : Memref sig .tc .vmem S1x8x512 .f32) (h4 : a4.IsWhole)
    (a5 : Memref sig .tc .vmem S1x8x512 .f32) (h5 : a5.IsWhole) (a6 : Memref sig .tc .vmem S1x8x128 .f32) (h6 : a6.IsWhole)
    (hc : cond0_0 i) (x : Vec F S2048x512 .f32) (y : Vec F S2048x1 .i32) :
    out0_A_3 c i a2 h2 a3 h3 a4 h4 a5 h5 a6 h6 hc x y = k0_pay8 x y (k0_pay3 (F := F)) := by
  unfold out0_A_3
  rw [View.read_writes_eq_canon _ _ _ (cover0_A_3 c i a2 h2 a3 h3 a4 h4 a5 h5 a6 h6 hc x y)]
  unfold kernelRun0_A
  dsimp only
  sl_unfold_words
  rw [View.canon_cons_unit_zero (S := S1x8x512) hz3, View.readCov_unit_zero (S := S1x8x512) _ hz3]
  simp only [View.readAt_eq_ld, h2.read_unread, h3.read_unread,
    View.ld_unit_zero (S := S2048x512) hz2, View.ld_unit_zero (S := S2048x1) hz2]

end Pieces

/-! ## The update at an index, over the extended reals -/

/-! The product hotᵀ · x contracts axis 0 of both operands: at result index (d, f) and contraction position k the left
    operand is read at (k, d) and the right one at (k, f). -/
theorem lhs_dot_0 (j : S8x512.Idx) (k : dot_S2048x8_S2048x512_S8x512_0_0_1_1_n_n.contr.Idx) :
    (dot_S2048x8_S2048x512_S8x512_0_0_1_1_n_n.lhsIdx j k 0 : ℕ) = k ⟨0, by decide⟩ :=
  dot_S2048x8_S2048x512_S8x512_0_0_1_1_n_n.lhsIdx_val_of_single rfl j k
theorem lhs_dot_1 (j : S8x512.Idx) (k : dot_S2048x8_S2048x512_S8x512_0_0_1_1_n_n.contr.Idx) :
    (dot_S2048x8_S2048x512_S8x512_0_0_1_1_n_n.lhsIdx j k 1 : ℕ) = j 0 := by
  simp [DotDims.lhsIdx, dot_S2048x8_S2048x512_S8x512_0_0_1_1_n_n]; rfl
theorem rhs_dot_0 (j : S8x512.Idx) (k : dot_S2048x8_S2048x512_S8x512_0_0_1_1_n_n.contr.Idx) :
    (dot_S2048x8_S2048x512_S8x512_0_0_1_1_n_n.rhsIdx j k 0 : ℕ) = k ⟨0, by decide⟩ :=
  dot_S2048x8_S2048x512_S8x512_0_0_1_1_n_n.rhsIdx_val_of_single rfl j k
theorem rhs_dot_1 (j : S8x512.Idx) (k : dot_S2048x8_S2048x512_S8x512_0_0_1_1_n_n.contr.Idx) :
    (dot_S2048x8_S2048x512_S8x512_0_0_1_1_n_n.rhsIdx j k 1 : ℕ) = j 1 := by
  simp [DotDims.rhsIdx, dot_S2048x8_S2048x512_S8x512_0_0_1_1_n_n]; rfl

/-- The comparison's bit, widened to a word and converted, is the indicator of "the word is the domain's number":
    the bit is 1 exactly when the two words are equal, and the words 1 and 0 convert to the reals 1 and 0. -/
theorem onehot_word (w : BitVec 32) (d : Fin 8) :
    (FloatOps.sitofp (F := Ideal) .f32 ((IntOp.cmpi .eq w (BitVec.ofNat 32 d.val)).setWidth 32) : EReal) = Cert.KSpec.hot w d := by
  unfold Cert.KSpec.hot
  show (((BitVec.setWidth 32 (BitVec.ofBool (w == BitVec.ofNat 32 d.val))).toInt : ℝ) : EReal) = _
  by_cases h : w = BitVec.ofNat 32 d.val
  · rw [if_pos h, beq_iff_eq.mpr h]
    show ((((1#32 : BitVec 32).toInt : ℤ) : ℝ) : EReal) = 1
    rw [show (1#32 : BitVec 32).toInt = 1 from by decide]; simp
  · rw [if_neg h, beq_eq_false_iff_ne.mpr h]
    show ((((0#32 : BitVec 32).toInt : ℤ) : ℝ) : EReal) = 0
    rw [show (0#32 : BitVec 32).toInt = 0 from by decide]; simp

/-- The indicator matrix at (row r, domain d): the label column broadcast along the 8 lanes reads row r's label word,
    the lane numbering reads d. -/
theorem onehot_apply (y : Vec Ideal S2048x1 .i32) (r : Fin 2048) (d : Fin 8) :
    k0_pay5 (F := Ideal) y (ix2 r d) = Cert.KSpec.hot (y (ix2 r (0 : Fin 1))) d := by
  unfold k0_pay5
  refine Eq.trans ?_ (onehot_word (y (ix2 r (0 : Fin 1))) d)
  show FloatOps.sitofp (F := Ideal) .f32 ((IntOp.cmpi .eq (broadcastTo S2048x8 (shapeCast S2048x1 y shapeCasts_S2048x1_S2048x1) broadcasts_S2048x1_S2048x8 (ix2 r d))
      (iota .tc S2048x8 32 [1] iota_S2048x8_d1_w32 (ix2 r d))).setWidth 32) = _
  have e1 : broadcastTo S2048x8 (shapeCast S2048x1 y shapeCasts_S2048x1_S2048x1) broadcasts_S2048x1_S2048x8 (ix2 r d) = y (ix2 r (0 : Fin 1)) := by
    refine (broadcastTo_apply _ broadcasts_S2048x1_S2048x8 (ix2 r d) (ix2 r (0 : Fin 1)) fun a => ?_).trans ?_
    · match a with
      | ⟨0, _⟩ => rfl
      | ⟨1, _⟩ => rfl
    · rw [shapeCast_self]
  have e2 : iota .tc S2048x8 32 [1] iota_S2048x8_d1_w32 (ix2 r d) = BitVec.ofNat 32 d.val :=
    iota_single_apply .tc S2048x8 32 1 iota_S2048x8_d1_w32 (ix2 r d)
  rw [e1, e2]

/-- THE UPDATE AT (d, f): the accumulator's entry plus the sum over the block's 2048 rows of the indicator of the row's
    label times the row's entry — the product into the zero accumulator is the bare sum over the contraction, which is
    re-indexed by its one coordinate. -/
theorem pay7_apply (x : Vec Ideal S2048x512 .f32) (y : Vec Ideal S2048x1 .i32) (acc : Vec Ideal S1x8x512 .f32)
    (d : Fin 8) (f : Fin 512) :
    k0_pay7 (F := Ideal) x y acc (ix3 (0 : Fin 1) d f)
      = acc (ix3 (0 : Fin 1) d f) + ∑ r : Fin 2048, Cert.KSpec.hot (y (ix2 r (0 : Fin 1))) d * x (ix2 r f) := by
  unfold k0_pay7
  refine (shapeCast_ab_1ab_apply _ shapeCasts_S8x512_S1x8x512 (0 : Fin 1) d f).trans ?_
  refine (addf_apply _ _ (ix2 d f)).trans ?_
  refine congrArg₂ (· + ·) (shapeCast_1ab_ab_apply acc shapeCasts_S1x8x512_S8x512 d f) ?_
  refine (Ideal.matmul_constant_zero_apply dot_S2048x8_S2048x512_S8x512_0_0_1_1_n_n (some .fp32) (k0_pay5 (F := Ideal) y) x (ix2 d f)).trans ?_
  rw [← Equiv.sum_comp (contrEquiv1 dot_S2048x8_S2048x512_S8x512_0_0_1_1_n_n 2048 rfl rfl).symm]
  refine Finset.sum_congr rfl fun r _ => ?_
  have el : dot_S2048x8_S2048x512_S8x512_0_0_1_1_n_n.lhsIdx (ix2 d f) ((contrEquiv1 dot_S2048x8_S2048x512_S8x512_0_0_1_1_n_n 2048 rfl rfl).symm r) = ix2 r d := by
    funext a
    refine Fin.ext ?_
    match a with
    | ⟨0, _⟩ => exact (lhs_dot_0 _ _).trans (contrEquiv1_symm_val _ 2048 rfl rfl r)
    | ⟨1, _⟩ => exact lhs_dot_1 _ _
  have er : dot_S2048x8_S2048x512_S8x512_0_0_1_1_n_n.rhsIdx (ix2 d f) ((contrEquiv1 dot_S2048x8_S2048x512_S8x512_0_0_1_1_n_n 2048 rfl rfl).symm r) = ix2 r f := by
    funext a
    refine Fin.ext ?_
    match a with
    | ⟨0, _⟩ => exact (rhs_dot_0 _ _).trans (contrEquiv1_symm_val _ 2048 rfl rfl r)
    | ⟨1, _⟩ => exact rhs_dot_1 _ _
  rw [el, er, onehot_apply]

/-- The block the reset stores is zero everywhere. -/
theorem zero_apply (d : Fin 8) (f : Fin 512) : k0_pay2 (F := Ideal) (ix3 (0 : Fin 1) d f) = 0 := by
  unfold k0_pay2
  refine (shapeCast_ab_1ab_apply _ shapeCasts_S8x512_S1x8x512 (0 : Fin 1) d f).trans ?_
  exact Ideal.ofBits_zero_f32

/-- The squares' update is the sums' update of the data block squared entry by entry, and its reset stores the same
    zero block. -/
theorem pay8_eq (x : Vec Ideal S2048x512 .f32) (y : Vec Ideal S2048x1 .i32) (acc : Vec Ideal S1x8x512 .f32) :
    k0_pay8 (F := Ideal) x y acc = k0_pay7 (F := Ideal) (mulf (F := Ideal) (s := S2048x512) (φ := .f32) x x) y acc := rfl
theorem pay3_eq : k0_pay3 (F := Ideal) = k0_pay2 (F := Ideal) := rfl

/-! ## A run of 64 points: the block is the sum of the run's addends -/

/-- What grid point `n` adds at (domain d, feature f): over the point's 2048 rows, the indicator of the row's label word
    times the row's entry of the point's data block `Z n`; 0 past the grid. -/
def addend (Z : Fin cfg0.N → Vec Ideal S2048x512 .f32) (Y : Fin cfg0.N → Vec Ideal S2048x1 .i32) (n : ℕ) (p : Fin 8 × Fin 512) : EReal :=
  if h : n < cfg0.N then ∑ r : Fin 2048, Cert.KSpec.hot (Y ⟨n, h⟩ (ix2 r (0 : Fin 1))) p.1 * Z ⟨n, h⟩ (ix2 r p.2) else 0

theorem addend_of_lt (Z : Fin cfg0.N → Vec Ideal S2048x512 .f32) (Y : Fin cfg0.N → Vec Ideal S2048x1 .i32) (n : ℕ) (h : n < cfg0.N)
    (d : Fin 8) (f : Fin 512) :
    addend Z Y n (d, f) = ∑ r : Fin 2048, Cert.KSpec.hot (Y ⟨n, h⟩ (ix2 r (0 : Fin 1))) d * Z ⟨n, h⟩ (ix2 r f) := by
  unfold addend; rw [dif_pos h]

/-- A block that is the update of the zero block at the points ≡ 0 (mod 64), and the update of what the point before
    left at every other point, holds after point t, at (d, f), the sum of the addends of the points 64·⌊t/64⌋ … t:
    the reset contributes 0 + its addend, every later step adds its own. -/
theorem fold_eq (W : (n : ℕ) → n < cfg0.N → Vec Ideal S1x8x512 .f32)
    (Z : Fin cfg0.N → Vec Ideal S2048x512 .f32) (Y : Fin cfg0.N → Vec Ideal S2048x1 .i32)
    (hA : ∀ (n : ℕ) (h : n < cfg0.N), n % 64 = 0 → W n h = k0_pay7 (F := Ideal) (Z ⟨n, h⟩) (Y ⟨n, h⟩) (k0_pay2 (F := Ideal)))
    (hB : ∀ (n : ℕ) (h : n + 1 < cfg0.N), ¬(n + 1) % 64 = 0 →
      W (n + 1) h = k0_pay7 (F := Ideal) (Z ⟨n + 1, h⟩) (Y ⟨n + 1, h⟩) (W n (Nat.lt_of_succ_lt h)))
    (t : ℕ) (ht : t < cfg0.N) (d : Fin 8) (f : Fin 512) :
    W t ht (ix3 (0 : Fin 1) d f) = ∑ s ∈ Finset.range (t % 64 + 1), addend Z Y (64 * (t / 64) + s) (d, f) := by
  have h' : 64 * (t / 64) + t % 64 < cfg0.N := by rw [Nat.div_add_mod]; exact ht
  have e := Pipeline.eq_accAt_of_mod (N := cfg0.N) (α := Fin 8 × Fin 512 → EReal)
    (fun n h p => W n h (ix3 (0 : Fin 1) p.1 p.2)) 64
    (fun n _ p => 0 + addend Z Y n p) (fun n _ acc p => acc p + addend Z Y n p)
    (fun n h hm => funext fun p => by
      show W n h (ix3 (0 : Fin 1) p.1 p.2) = 0 + addend Z Y n (p.1, p.2)
      rw [hA n h hm, pay7_apply, zero_apply, addend_of_lt Z Y n h])
    (fun n h hm => funext fun p => by
      show W (n + 1) h (ix3 (0 : Fin 1) p.1 p.2) = W n _ (ix3 (0 : Fin 1) p.1 p.2) + addend Z Y (n + 1) (p.1, p.2)
      rw [hB n h hm, pay7_apply, addend_of_lt Z Y (n + 1) h])
    (by decide) t ht h'
  refine (congrFun e (d, f)).trans ?_
  refine (Pipeline.accAt_add_apply (N := cfg0.N) (ι := Fin 8 × Fin 512) (β := EReal) _ _ (fun _ => 0) (addend Z Y) (64 * (t / 64)) 63
    (fun _ _ => rfl) (fun _ _ _ _ _ _ => rfl) (t % 64) (by omega) h' (d, f)).trans ?_
  exact zero_add _

/-! ## The blocks a point reads, as entries of the whole arrays -/

/-- The data block and the label block a grid point reads, and the data block squared entry by entry. -/
abbrev xblk (c : Dev nD) (t : Fin cfg0.N) : Vec Ideal S2048x512 .f32 := iblk0 V c 0 t
abbrev yblk (c : Dev nD) (t : Fin cfg0.N) : Vec Ideal S2048x1 .i32 := iblk0 V c 1 t
abbrev x2blk (c : Dev nD) (t : Fin cfg0.N) : Vec Ideal S2048x512 .f32 :=
  mulf (F := Ideal) (s := S2048x512) (φ := .f32) (xblk V c t) (xblk V c t)

/-- The whole data array and the whole label column, as the region finds them. -/
abbrev xarr (c : Dev nD) : (⟨2, ![262144, 512]⟩ : Shape).Idx → EReal := V c main_arg0
abbrev yarr (c : Dev nD) : (⟨2, ![262144, 1]⟩ : Shape).Idx → BitVec 32 := V c main_v0

/-- The index maps over the grid: point t reads row block t of the data and of the labels, and its two result
    blocks are block ⌊t/64⌋ of the [2, 8, 512] arrays. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 3) = t.val / 64 ∧ win0_2.index t (1 : Fin 3) = 0 ∧ win0_2.index t (2 : Fin 3) = 0
    ∧ win0_3.index t (0 : Fin 3) = t.val / 64 ∧ win0_3.index t (1 : Fin 3) = 0 ∧ win0_3.index t (2 : Fin 3) = 0 :=
  (by decide +kernel : ∀ t : Fin grid0.N, _)

theorem row_lt (t : Fin cfg0.N) (r : Fin 2048) : t.val * 2048 + r.val < 262144 := by
  have hN : t.val < 128 := lt_of_lt_of_eq t.isLt (show cfg0.N = 128 from N_0)
  have := r.isLt
  omega

/-- Entry (r, f) of point t's data block is entry (2048·t + r, f) of the data. -/
theorem xblk_apply (c : Dev nD) (t : Fin cfg0.N) (r : Fin 2048) (f : Fin 512) :
    xblk V c t (ix2 r f) = V c main_arg0 (ix2 ⟨t.val * 2048 + r.val, row_lt t r⟩ f) := by
  obtain ⟨e0, e1, -⟩ := idx_facts t
  show V c main_arg0 (((cfg0.win 0).blk t).view.emb (ix2 r f)) = V c main_arg0 _
  refine congrArg (V c main_arg0) (funext fun a => Fin.ext ?_)
  match a with
  | ⟨0, _⟩ => show win0_0.index t (0 : Fin 2) * 2048 + 1 * r.val = t.val * 2048 + r.val; rw [e0]; omega
  | ⟨1, _⟩ => show win0_0.index t (1 : Fin 2) * 512 + 1 * f.val = f.val; rw [e1]; omega

/-- Entry r of point t's label block is the label word of row 2048·t + r. -/
theorem yblk_apply (c : Dev nD) (t : Fin cfg0.N) (r : Fin 2048) :
    yblk V c t (ix2 r (0 : Fin 1)) = V c main_v0 (ix2 ⟨t.val * 2048 + r.val, row_lt t r⟩ (0 : Fin 1)) := by
  obtain ⟨-, -, e0, e1, -⟩ := idx_facts t
  show V c main_v0 (((cfg0.win 1).blk t).view.emb (ix2 r (0 : Fin 1))) = V c main_v0 _
  refine congrArg (V c main_v0) (funext fun a => Fin.ext ?_)
  match a with
  | ⟨0, _⟩ => show win0_1.index t (0 : Fin 2) * 2048 + 1 * r.val = t.val * 2048 + r.val; rw [e0]; omega
  | ⟨1, _⟩ => show win0_1.index t (1 : Fin 2) * 1 + 1 * 0 = 0; rw [e1]

theorem half_lt (t : Fin cfg0.N) : t.val / 64 < 2 := by
  have hN : t.val < 128 := lt_of_lt_of_eq t.isLt (show cfg0.N = 128 from N_0)
  omega

theorem last_lt (q : Fin 2) : 64 * q.val + 63 < cfg0.N := by
  rw [show cfg0.N = 128 from N_0]; have := q.isLt; omega

/-- The addend of point 64·q + s, read off the whole arrays: its rows are (64·q + s)·2048 … + 2047, whatever function
    `g` of the data's entry the point's block `Z` holds (the entry itself for the sums, its square for the squares). -/
theorem addend_rows (c : Dev nD) (Z : Fin cfg0.N → Vec Ideal S2048x512 .f32) (g : EReal → EReal)
    (hZ : ∀ (t : Fin cfg0.N) (r : Fin 2048) (f : Fin 512), Z t (ix2 r f) = g (xblk V c t (ix2 r f)))
    (q : Fin 2) (s : Fin 64) (d : Fin 8) (f : Fin 512) :
    addend Z (yblk V c) (64 * q.val + s.val) (d, f)
      = ∑ r : Fin 2048, Cert.KSpec.hot (yarr V c (ix2 (Cert.KSpec.rowOf q s r) (0 : Fin 1))) d
          * g (xarr V c (ix2 (Cert.KSpec.rowOf q s r) f)) := by
  have hlt : 64 * q.val + s.val < cfg0.N := by
    rw [show cfg0.N = 128 from N_0]; have := q.isLt; have := s.isLt; omega
  rw [addend_of_lt Z (yblk V c) _ hlt]
  refine Finset.sum_congr rfl fun r _ => ?_
  have hrow : (⟨(64 * q.val + s.val) * 2048 + r.val, row_lt ⟨64 * q.val + s.val, hlt⟩ r⟩ : Fin 262144) = Cert.KSpec.rowOf q s r :=
    Fin.ext (by show (64 * q.val + s.val) * 2048 + r.val = (q.val * 64 + s.val) * 2048 + r.val; omega)
  rw [hZ, xblk_apply, yblk_apply]
  show Cert.KSpec.hot (yarr V c (ix2 ⟨(64 * q.val + s.val) * 2048 + r.val, _⟩ (0 : Fin 1))) d
      * g (xarr V c (ix2 ⟨(64 * q.val + s.val) * 2048 + r.val, _⟩ f)) = _
  rw [hrow]

/-! ## The sums -/

/-- At a point that opens a run of 64 the sums' block is the update of the zero block … -/
theorem sums_reset (c : Dev nD) (n : ℕ) (h : n < cfg0.N) (hm : n % 64 = 0) :
    (outsAt0 V c n h).1 = k0_pay7 (F := Ideal) (xblk V c ⟨n, h⟩) (yblk V c ⟨n, h⟩) (k0_pay2 (F := Ideal)) := by
  rw [outsAt0_A V c ⟨n, h⟩ hm]
  dsimp only
  exact sumA (F := Ideal) c (grid0.coords ⟨n, h⟩) (ms0_0 ⟨n, h⟩) (hs0_0 ⟨n, h⟩) (ms0_1 ⟨n, h⟩) (hs0_1 ⟨n, h⟩)
    (ms0_2 ⟨n, h⟩) (hs0_2 ⟨n, h⟩) (ms0_3 ⟨n, h⟩) (hs0_3 ⟨n, h⟩) (ms0_4 ⟨n, h⟩) (hs0_4 ⟨n, h⟩)
    ((hcond0_0 ⟨n, h⟩).mpr hm) (iblk0 V c 0 ⟨n, h⟩) (iblk0 V c 1 ⟨n, h⟩)

/-- … and at every other point the update of what the point before left. -/
theorem sums_step (c : Dev nD) (n : ℕ) (h : n + 1 < cfg0.N) (hm : ¬(n + 1) % 64 = 0) :
    (outsAt0 V c (n + 1) h).1
      = k0_pay7 (F := Ideal) (xblk V c ⟨n + 1, h⟩) (yblk V c ⟨n + 1, h⟩) (outsAt0 V c n (Nat.lt_of_succ_lt h)).1 := by
  rw [outsAt0_B V c ⟨n + 1, h⟩ hm]
  dsimp only
  exact sumB (F := Ideal) c (grid0.coords ⟨n + 1, h⟩) (ms0_0 ⟨n + 1, h⟩) (hs0_0 ⟨n + 1, h⟩) (ms0_1 ⟨n + 1, h⟩) (hs0_1 ⟨n + 1, h⟩)
    (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩)
    (fun hc => hm ((hcond0_0 ⟨n + 1, h⟩).mp hc)) (iblk0 V c 0 ⟨n + 1, h⟩) (iblk0 V c 1 ⟨n + 1, h⟩)
    (outsAt0 V c n (Nat.lt_of_succ_lt h)).1 (outsAt0 V c n (Nat.lt_of_succ_lt h)).2.1 (outsAt0 V c n (Nat.lt_of_succ_lt h)).2.2

/-- So after point t the sums' block holds, at (d, f), the addends of t's run up to t. -/
theorem sums_at (c : Dev nD) (t : Fin cfg0.N) (d : Fin 8) (f : Fin 512) :
    (outsAt0 V c t.val t.isLt).1 (ix3 (0 : Fin 1) d f)
      = ∑ s ∈ Finset.range (t.val % 64 + 1), addend (xblk V c) (yblk V c) (64 * (t.val / 64) + s) (d, f) :=
  fold_eq (fun n h => (outsAt0 V c n h).1) (xblk V c) (yblk V c) (sums_reset V c) (sums_step V c) t.val t.isLt d f

/-- WHAT A POINT WRITES BACK: at the last point of a run of 64 the sums' block is the run's whole sum; entry (0, d, f) of
    the block is entry (⌊t/64⌋, d, f) of the result, and there the per-half sum is the same double sum over the run's
    64 points and their 2048 rows. -/
theorem sums_flushed (c : Dev nD) (t : Fin cfg0.N) (hf : (cfg0.win 2).flush t = true) :
    (dat0 V c).flushed 2 t
      = ((cfg0.win 2).blk t).view.read (Elt Ideal) (Cert.KSpec.partSum (V c main_arg0) (V c main_v0)) := by
  have h63 : t.val % 64 = 63 := (flush0_2 t).mp hf
  obtain ⟨-, -, -, -, e0, e1, e2, -⟩ := idx_facts t
  show (cfg0.win 2).cut (grid0.coords t) ((dat0 V c).after 2 t) = _
  rw [after0_2]
  refine funext fun (j : S1x8x512.Idx) => ?_
  obtain ⟨u, d, f, rfl⟩ : ∃ (u : Fin 1) (d : Fin 8) (f : Fin 512), j = ix3 u d f := ⟨j 0, j 1, j 2, eq_ix3 j⟩
  obtain rfl : u = 0 := Subsingleton.elim _ _
  have hi : ((cfg0.win 2).blk t).view.emb (ix3 (0 : Fin 1) d f) = ix3 (⟨t.val / 64, half_lt t⟩ : Fin 2) d f := by
    funext a; refine Fin.ext ?_
    match a with
    | ⟨0, _⟩ => show win0_2.index t (0 : Fin 3) * 1 + 1 * 0 = t.val / 64; rw [e0]; omega
    | ⟨1, _⟩ => show win0_2.index t (1 : Fin 3) * 8 + 1 * d.val = d.val; rw [e1]; omega
    | ⟨2, _⟩ => show win0_2.index t (2 : Fin 3) * 512 + 1 * f.val = f.val; rw [e2]; omega
  show (outsAt0 V c t.val t.isLt).1 (ix3 (0 : Fin 1) d f)
    = Cert.KSpec.partSum (V c main_arg0) (V c main_v0) (((cfg0.win 2).blk t).view.emb (ix3 (0 : Fin 1) d f))
  rw [hi, sums_at, h63, Finset.sum_range]
  show _ = ∑ s : Fin 64, ∑ r : Fin 2048,
      Cert.KSpec.hot (yarr V c (ix2 (Cert.KSpec.rowOf ⟨t.val / 64, half_lt t⟩ s r) (0 : Fin 1))) d
        * xarr V c (ix2 (Cert.KSpec.rowOf ⟨t.val / 64, half_lt t⟩ s r) f)
  exact Finset.sum_congr rfl fun s _ =>
    addend_rows V c (xblk V c) (fun v => v) (fun _ _ _ => rfl) ⟨t.val / 64, half_lt t⟩ s d f

/-- An index of the result is in point t's block iff each coordinate is in the block's range on its axis. -/
theorem sums_mem_blk (t : Fin cfg0.N) (i : S2x8x512.Idx) :
    i ∈ ((cfg0.win 2).blk t).view.set
      ↔ ∀ a : Fin 3, win0_2.index t a * S1x8x512.size a ≤ (i a).val ∧ (i a).val < win0_2.index t a * S1x8x512.size a + S1x8x512.size a := by
  show i ∈ ((View.whole main_v1_0).slice (win0_2.rect t)).set ↔ _
  rw [View.set_slice_whole, Rect.mem_set_unit]
  exact Iff.rfl

/-- Every index (q, d, f) of the result lies in the block that the last point of half q's run, 64·q + 63, writes back. -/
theorem sums_cover (i : S2x8x512.Idx) :
    ∃ t : Fin cfg0.N, (cfg0.win 2).flush t = true ∧ i ∈ ((cfg0.win 2).blk t).view.set := by
  have h0 : (i 0).val < 2 := (i 0).isLt
  have h1 : (i 1).val < 8 := (i 1).isLt
  have h2 : (i 2).val < 512 := (i 2).isLt
  refine ⟨⟨64 * (i 0).val + 63, last_lt ⟨(i 0).val, h0⟩⟩, (flush0_2 _).mpr (by show (64 * (i 0).val + 63) % 64 = 63; omega), ?_⟩
  obtain ⟨-, -, -, -, e0, e1, e2, -⟩ := idx_facts ⟨64 * (i 0).val + 63, last_lt ⟨(i 0).val, h0⟩⟩
  rw [sums_mem_blk]
  intro a
  match a with
  | ⟨0, _⟩ =>
    show win0_2.index _ (0 : Fin 3) * 1 ≤ (i 0).val ∧ (i 0).val < win0_2.index _ (0 : Fin 3) * 1 + 1
    rw [e0]; show (64 * (i 0).val + 63) / 64 * 1 ≤ (i 0).val ∧ (i 0).val < (64 * (i 0).val + 63) / 64 * 1 + 1; omega
  | ⟨1, _⟩ =>
    show win0_2.index _ (1 : Fin 3) * 8 ≤ (i 1).val ∧ (i 1).val < win0_2.index _ (1 : Fin 3) * 8 + 8
    rw [e1]; omega
  | ⟨2, _⟩ =>
    show win0_2.index _ (2 : Fin 3) * 512 ≤ (i 2).val ∧ (i 2).val < win0_2.index _ (2 : Fin 3) * 512 + 512
    rw [e2]; omega

/-! ## The sums of squares: the same road, over the data block squared entry by entry -/

theorem sq_reset (c : Dev nD) (n : ℕ) (h : n < cfg0.N) (hm : n % 64 = 0) :
    (outsAt0 V c n h).2.1 = k0_pay7 (F := Ideal) (x2blk V c ⟨n, h⟩) (yblk V c ⟨n, h⟩) (k0_pay2 (F := Ideal)) := by
  rw [outsAt0_A V c ⟨n, h⟩ hm]
  dsimp only
  refine (sqA (F := Ideal) c (grid0.coords ⟨n, h⟩) (ms0_0 ⟨n, h⟩) (hs0_0 ⟨n, h⟩) (ms0_1 ⟨n, h⟩) (hs0_1 ⟨n, h⟩)
    (ms0_2 ⟨n, h⟩) (hs0_2 ⟨n, h⟩) (ms0_3 ⟨n, h⟩) (hs0_3 ⟨n, h⟩) (ms0_4 ⟨n, h⟩) (hs0_4 ⟨n, h⟩)
    ((hcond0_0 ⟨n, h⟩).mpr hm) (iblk0 V c 0 ⟨n, h⟩) (iblk0 V c 1 ⟨n, h⟩)).trans ?_
  rw [pay8_eq, pay3_eq]

theorem sq_step (c : Dev nD) (n : ℕ) (h : n + 1 < cfg0.N) (hm : ¬(n + 1) % 64 = 0) :
    (outsAt0 V c (n + 1) h).2.1
      = k0_pay7 (F := Ideal) (x2blk V c ⟨n + 1, h⟩) (yblk V c ⟨n + 1, h⟩) (outsAt0 V c n (Nat.lt_of_succ_lt h)).2.1 := by
  rw [outsAt0_B V c ⟨n + 1, h⟩ hm]
  dsimp only
  refine (sqB (F := Ideal) c (grid0.coords ⟨n + 1, h⟩) (ms0_0 ⟨n + 1, h⟩) (hs0_0 ⟨n + 1, h⟩) (ms0_1 ⟨n + 1, h⟩) (hs0_1 ⟨n + 1, h⟩)
    (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩)
    (fun hc => hm ((hcond0_0 ⟨n + 1, h⟩).mp hc)) (iblk0 V c 0 ⟨n + 1, h⟩) (iblk0 V c 1 ⟨n + 1, h⟩)
    (outsAt0 V c n (Nat.lt_of_succ_lt h)).1 (outsAt0 V c n (Nat.lt_of_succ_lt h)).2.1 (outsAt0 V c n (Nat.lt_of_succ_lt h)).2.2).trans ?_
  rw [pay8_eq]

theorem sq_at (c : Dev nD) (t : Fin cfg0.N) (d : Fin 8) (f : Fin 512) :
    (outsAt0 V c t.val t.isLt).2.1 (ix3 (0 : Fin 1) d f)
      = ∑ s ∈ Finset.range (t.val % 64 + 1), addend (x2blk V c) (yblk V c) (64 * (t.val / 64) + s) (d, f) :=
  fold_eq (fun n h => (outsAt0 V c n h).2.1) (x2blk V c) (yblk V c) (sq_reset V c) (sq_step V c) t.val t.isLt d f

theorem sq_flushed (c : Dev nD) (t : Fin cfg0.N) (hf : (cfg0.win 3).flush t = true) :
    (dat0 V c).flushed 3 t
      = ((cfg0.win 3).blk t).view.read (Elt Ideal) (Cert.KSpec.partSumSq (V c main_arg0) (V c main_v0)) := by
  have h63 : t.val % 64 = 63 := (flush0_3 t).mp hf
  obtain ⟨-, -, -, -, -, -, -, e0, e1, e2⟩ := idx_facts t
  show (cfg0.win 3).cut (grid0.coords t) ((dat0 V c).after 3 t) = _
  rw [after0_3]
  refine funext fun (j : S1x8x512.Idx) => ?_
  obtain ⟨u, d, f, rfl⟩ : ∃ (u : Fin 1) (d : Fin 8) (f : Fin 512), j = ix3 u d f := ⟨j 0, j 1, j 2, eq_ix3 j⟩
  obtain rfl : u = 0 := Subsingleton.elim _ _
  have hi : ((cfg0.win 3).blk t).view.emb (ix3 (0 : Fin 1) d f) = ix3 (⟨t.val / 64, half_lt t⟩ : Fin 2) d f := by
    funext a; refine Fin.ext ?_
    match a with
    | ⟨0, _⟩ => show win0_3.index t (0 : Fin 3) * 1 + 1 * 0 = t.val / 64; rw [e0]; omega
    | ⟨1, _⟩ => show win0_3.index t (1 : Fin 3) * 8 + 1 * d.val = d.val; rw [e1]; omega
    | ⟨2, _⟩ => show win0_3.index t (2 : Fin 3) * 512 + 1 * f.val = f.val; rw [e2]; omega
  show (outsAt0 V c t.val t.isLt).2.1 (ix3 (0 : Fin 1) d f)
    = Cert.KSpec.partSumSq (V c main_arg0) (V c main_v0) (((cfg0.win 3).blk t).view.emb (ix3 (0 : Fin 1) d f))
  rw [hi, sq_at, h63, Finset.sum_range]
  show _ = ∑ s : Fin 64, ∑ r : Fin 2048,
      Cert.KSpec.hot (yarr V c (ix2 (Cert.KSpec.rowOf ⟨t.val / 64, half_lt t⟩ s r) (0 : Fin 1))) d
        * (xarr V c (ix2 (Cert.KSpec.rowOf ⟨t.val / 64, half_lt t⟩ s r) f)
            * xarr V c (ix2 (Cert.KSpec.rowOf ⟨t.val / 64, half_lt t⟩ s r) f))
  exact Finset.sum_congr rfl fun s _ =>
    addend_rows V c (x2blk V c) (fun v => v * v) (fun _ _ _ => rfl) ⟨t.val / 64, half_lt t⟩ s d f

theorem sq_mem_blk (t : Fin cfg0.N) (i : S2x8x512.Idx) :
    i ∈ ((cfg0.win 3).blk t).view.set
      ↔ ∀ a : Fin 3, win0_3.index t a * S1x8x512.size a ≤ (i a).val ∧ (i a).val < win0_3.index t a * S1x8x512.size a + S1x8x512.size a := by
  show i ∈ ((View.whole main_v1_1).slice (win0_3.rect t)).set ↔ _
  rw [View.set_slice_whole, Rect.mem_set_unit]
  exact Iff.rfl

theorem sq_cover (i : S2x8x512.Idx) :
    ∃ t : Fin cfg0.N, (cfg0.win 3).flush t = true ∧ i ∈ ((cfg0.win 3).blk t).view.set := by
  have h0 : (i 0).val < 2 := (i 0).isLt
  have h1 : (i 1).val < 8 := (i 1).isLt
  have h2 : (i 2).val < 512 := (i 2).isLt
  refine ⟨⟨64 * (i 0).val + 63, last_lt ⟨(i 0).val, h0⟩⟩, (flush0_3 _).mpr (by show (64 * (i 0).val + 63) % 64 = 63; omega), ?_⟩
  obtain ⟨-, -, -, -, -, -, -, e0, e1, e2⟩ := idx_facts ⟨64 * (i 0).val + 63, last_lt ⟨(i 0).val, h0⟩⟩
  rw [sq_mem_blk]
  intro a
  match a with
  | ⟨0, _⟩ =>
    show win0_3.index _ (0 : Fin 3) * 1 ≤ (i 0).val ∧ (i 0).val < win0_3.index _ (0 : Fin 3) * 1 + 1
    rw [e0]; show (64 * (i 0).val + 63) / 64 * 1 ≤ (i 0).val ∧ (i 0).val < (64 * (i 0).val + 63) / 64 * 1 + 1; omega
  | ⟨1, _⟩ =>
    show win0_3.index _ (1 : Fin 3) * 8 ≤ (i 1).val ∧ (i 1).val < win0_3.index _ (1 : Fin 3) * 8 + 8
    rw [e1]; omega
  | ⟨2, _⟩ =>
    show win0_3.index _ (2 : Fin 3) * 512 ≤ (i 2).val ∧ (i 2).val < win0_3.index _ (2 : Fin 3) * 512 + 512
    rw [e2]; omega

end SumBlocks

/-! ## The two result arrays after the region -/

theorem sums_final (c : Dev nD) :
    (dat0 (F := Ideal) V c).arrAt 2 cfg0.N = Cert.KSpec.partSum (V c main_arg0) (V c main_v0) :=
  (dat0 (F := Ideal) V c).arrAt_eq_of_cover 2 (Cert.KSpec.partSum (V c main_arg0) (V c main_v0))
    (SumBlocks.sums_flushed V c) (fun i => SumBlocks.sums_cover i)

theorem sumsq_final (c : Dev nD) :
    (dat0 (F := Ideal) V c).arrAt 3 cfg0.N = Cert.KSpec.partSumSq (V c main_arg0) (V c main_v0) :=
  (dat0 (F := Ideal) V c).arrAt_eq_of_cover 3 (Cert.KSpec.partSumSq (V c main_arg0) (V c main_v0))
    (SumBlocks.sq_flushed V c) (fun i => SumBlocks.sq_cover i)

end Cert.KernelIdeal.Stats

end
-- ==== Proof.StatsCount.lean ====
/-
  The count output of the statistics region.

  The region runs on 2 × 64 points; point t = 64·c + s reads rows t·2048 … t·2048 + 2047 of the label column. From
  the 2048 labels it forms the one-hot matrix [2048, 8] (entry (r, d) is 1 where row r's label word is d, else 0),
  sums it over the rows, and broadcasts the 8 column sums along 128 lanes. The count block [1, 8, 128] of half c is set
  to zero at the first point of the half's run of 64 and receives each point's broadcast sums by addition; it is written
  back to the [2, 8, 128] array at the last point of the run.

  So entry (c, d, lane) of the array ends as 0 + Σ_{s < 64} Σ_{r < 2048} [label(row (64·c + s)·2048 + r) = d]: the sum
  over a run is unrolled once for all runs, a tile's rows are re-indexed to rows of the whole column, and the block of the
  closing point 64·c + 63 is the slice c of the array.
-/
import proofs.«403173_j9320079033284_2_alg».proof.Proof.Gen.KernelIdeal.Frame
import proofs.«403173_j9320079033284_2_alg».proof.Proof.KSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.StatsCount

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## What each case of the body leaves in the count block -/

theorem hz3 : (![0, 0, 0] : Fin 3 → Nat) = fun _ => 0 := funext fun a => by fin_cases a <;> rfl
theorem hz2 : (![0, 0] : Fin 2 → Nat) = fun _ => 0 := funext fun a => by fin_cases a <;> rfl

/-- At a point that does not open a run of 64 the body adds the tile's broadcast column sums of the one-hot matrix
    to what the block held. -/
theorem cnt_B (c : Dev nD) (i : grid0.Coords) (a2 : Memref sig .tc .vmem S2048x512 .f32) (h2 : a2.IsWhole)
    (a3 : Memref sig .tc .vmem S2048x1 .i32) (h3 : a3.IsWhole) (a4 : Memref sig .tc .vmem S1x8x512 .f32) (h4 : a4.IsWhole)
    (a5 : Memref sig .tc .vmem S1x8x512 .f32) (h5 : a5.IsWhole) (a6 : Memref sig .tc .vmem S1x8x128 .f32) (h6 : a6.IsWhole)
    (hc : ¬cond0_0 i) (x0 : Vec Ideal S2048x512 .f32) (x1 : Vec Ideal S2048x1 .i32)
    (xo2 xo3 : Vec Ideal S1x8x512 .f32) (xo4 : Vec Ideal S1x8x128 .f32) :
    out0_B_4 c i a2 h2 a3 h3 a4 h4 a5 h5 a6 h6 hc x0 x1 xo2 xo3 xo4 = k0_pay1 (k0_pay6 x1) xo4 := by
  unfold out0_B_4
  rw [View.read_writes_eq_canon _ _ _ (cover0_B_4 c i a2 h2 a3 h3 a4 h4 a5 h5 a6 h6 hc x0 x1 xo2 xo3 xo4)]
  unfold kernelRun0_B
  dsimp only
  sl_unfold_words
  rw [View.canon_unit_zero hz3]
  simp only [View.readAt_eq_ld, h3.read_unread, h6.read_unread, View.ld_unit_zero (S := S2048x1) hz2,
    View.ld_unit_zero (S := S1x8x128) hz3]

/-- At a point that opens a run the block is first set to zero, read back, and the same sums added to it. -/
theorem cnt_A (c : Dev nD) (i : grid0.Coords) (a2 : Memref sig .tc .vmem S2048x512 .f32) (h2 : a2.IsWhole)
    (a3 : Memref sig .tc .vmem S2048x1 .i32) (h3 : a3.IsWhole) (a4 : Memref sig .tc .vmem S1x8x512 .f32) (h4 : a4.IsWhole)
    (a5 : Memref sig .tc .vmem S1x8x512 .f32) (h5 : a5.IsWhole) (a6 : Memref sig .tc .vmem S1x8x128 .f32) (h6 : a6.IsWhole)
    (hc : cond0_0 i) (x0 : Vec Ideal S2048x512 .f32) (x1 : Vec Ideal S2048x1 .i32) :
    out0_A_4 c i a2 h2 a3 h3 a4 h4 a5 h5 a6 h6 hc x0 x1 = k0_pay1 (k0_pay6 x1) (k0_pay4 (F := Ideal)) := by
  unfold out0_A_4
  rw [View.read_writes_eq_canon _ _ _ (cover0_A_4 c i a2 h2 a3 h3 a4 h4 a5 h5 a6 h6 hc x0 x1)]
  unfold kernelRun0_A
  dsimp only
  sl_unfold_words
  rw [View.canon_cons_unit_zero (S := S1x8x128) hz3, View.readCov_unit_zero (S := S1x8x128) _ hz3]
  simp only [View.readAt_eq_ld, h3.read_unread, View.ld_unit_zero (S := S2048x1) hz2]

/-! ## The arithmetic, entry by entry -/

/-- The compare bit of two words, widened and converted, is 1 where they are equal and 0 elsewhere. -/
theorem onehot_scalar (a b : BitVec 32) :
    FloatOps.sitofp (F := Ideal) .f32 ((IntOp.cmpi .eq a b).setWidth 32) = if a = b then (1 : EReal) else 0 := by
  unfold IntOp.cmpi
  show ((((BitVec.ofBool (a == b)).setWidth 32).toInt : ℝ) : EReal) = _
  by_cases h : a = b
  · have hb : (a == b) = true := by simpa using h
    rw [if_pos h, hb]
    have e : ((BitVec.ofBool true).setWidth 32).toInt = 1 := by decide
    rw [e]; simp
  · have hb : (a == b) = false := by simpa using h
    rw [if_neg h, hb]
    have e : ((BitVec.ofBool false).setWidth 32).toInt = 0 := by decide
    rw [e]; simp

/-- A column vector broadcast along 8 lanes reads its one column. -/
theorem bcast_col8 (v : IVec S2048x1 32) (h : S2048x1.Broadcasts S2048x8) (r : Fin 2048) (d : Fin 8) :
    broadcastTo S2048x8 v h (ix2 r d) = v (ix2 r (0 : Fin 1)) := by
  refine broadcastTo_apply v h (ix2 r d) (ix2 r (0 : Fin 1)) fun ax => ?_
  match ax with
  | ⟨0, _⟩ => rfl
  | ⟨1, _⟩ => rfl

/-- The lane counter of the [2048, 8] tile reads the lane. -/
theorem iota_col8 (h : S2048x8.Iotas .tc 32 [1]) (r : Fin 2048) (d : Fin 8) :
    iota .tc S2048x8 32 [1] h (ix2 r d) = BitVec.ofNat 32 d.val :=
  iota_single_apply .tc S2048x8 32 1 h (ix2 r d)

/-- The one-hot matrix of a label column: entry (r, d) is 1 where row r's label word is d. -/
theorem pay5_apply (y : Vec Ideal S2048x1 .i32) (r : Fin 2048) (d : Fin 8) :
    k0_pay5 (F := Ideal) y (ix2 r d) = Cert.KSpec.hot (y (ix2 r (0 : Fin 1))) d := by
  unfold k0_pay5
  refine (onehot_scalar _ _).trans ?_
  unfold Cert.KSpec.hot
  refine if_congr ?_ rfl rfl
  have e1 : broadcastTo S2048x8 (shapeCast S2048x1 y shapeCasts_S2048x1_S2048x1) broadcasts_S2048x1_S2048x8 (ix2 r d)
      = y (ix2 r (0 : Fin 1)) :=
    (bcast_col8 _ _ r d).trans (congrFun (shapeCast_self y _) _)
  have e2 : iota .tc S2048x8 32 [1] iota_S2048x8_d1_w32 (ix2 r d) = BitVec.ofNat 32 d.val := iota_col8 _ r d
  rw [e1, e2]

/-- A [8, 1] column broadcast along 128 lanes reads its one column. -/
theorem bcast_lane (v : FVec Ideal S8x1 .f32) (h : S8x1.Broadcasts S8x128) (d : Fin 8) (l : Fin 128) :
    broadcastTo S8x128 v h (ix2 d l) = v (ix2 d (0 : Fin 1)) := by
  refine broadcastTo_apply v h (ix2 d l) (ix2 d (0 : Fin 1)) fun ax => ?_
  match ax with
  | ⟨0, _⟩ => rfl
  | ⟨1, _⟩ => rfl

/-- A vector of 8 viewed as an [8, 1] column reads entry d at (d, 0). -/
theorem col_of_vec (v : FVec Ideal S8 .f32) (h : S8.ShapeCasts S8x1) (d : Fin 8) :
    shapeCast S8x1 v h (ix2 d (0 : Fin 1)) = v (ix1 d) :=
  shapeCast_apply v h _ _ (by
    rw [Shape.rowMajor_val_two, Shape.rowMajor_val_one]
    show d.val = d.val * 1 + 0
    omega)

/-- The sum over the tile's 2048 rows of a [2048, 8] matrix, at lane d. -/
theorem rowsum8 (A : FVec Ideal S2048x8 .f32) (h : S2048x8.Reduces [0] S8) (hφ : FKind.Formats .f32)
    (hacc : (0x00000000#32 : BitVec 32) = FKind.add.neutral .f32 hφ) (d : Fin 8) :
    multiReduction (F := Ideal) .add [0] S8 A 0x00000000#32 h hφ hacc (ix1 d) = ∑ r : Fin 2048, A (ix2 r d) := by
  refine (Ideal.multiReduction_add_single A _ h hφ hacc (ix1 d)).trans ?_
  refine Finset.sum_congr rfl fun r _ => congrArg A ?_
  funext a
  match a with
  | ⟨0, _⟩ => rfl
  | ⟨1, _⟩ => rfl

/-- The broadcast column sums of the one-hot matrix: at (d, lane), the number of the tile's rows labelled d. -/
theorem pay6_apply (y : Vec Ideal S2048x1 .i32) (d : Fin 8) (l : Fin 128) :
    k0_pay6 (F := Ideal) y (ix2 d l) = ∑ r : Fin 2048, Cert.KSpec.hot (y (ix2 r (0 : Fin 1))) d := by
  unfold k0_pay6
  refine (bcast_lane _ _ d l).trans ?_
  refine (congrFun (shapeCast_self _ _) _).trans ?_
  refine (col_of_vec _ _ d).trans ?_
  refine (rowsum8 _ _ _ _ d).trans ?_
  exact Finset.sum_congr rfl fun r _ => pay5_apply y r d

/-- The reset block is zero everywhere. -/
theorem pay4_apply (i : S1x8x128.Idx) : k0_pay4 (F := Ideal) i = 0 := by
  unfold k0_pay4
  exact Ideal.ofBits_zero_f32

/-- The update: the block as it was plus the broadcast sums, entry by entry. -/
theorem pay1_apply (v17 : FVec Ideal S8x128 .f32) (acc : Vec Ideal S1x8x128 .f32) (z : Fin 1) (d : Fin 8) (l : Fin 128) :
    k0_pay1 v17 acc (ix3 z d l) = acc (ix3 z d l) + v17 (ix2 d l) := by
  obtain rfl : z = 0 := Subsingleton.elim _ _
  unfold k0_pay1
  refine (shapeCast_ab_1ab_apply _ _ (0 : Fin 1) d l).trans ?_
  refine (addf_apply _ _ _).trans ?_
  exact congrArg (· + v17 (ix2 d l)) (shapeCast_1ab_ab_apply acc _ d l)

/-! ## The blocks a point reads, and the run of 64 points as one sum -/

/-- The label column as the region finds it. -/
abbrev lab (c : Dev nD) : S262144x1.Idx → BitVec 32 := V c main_v0

/-- The label block that point `n` reads. -/
abbrev lblk (c : Dev nD) (n : Nat) (h : n < cfg0.N) : Vec Ideal S2048x1 .i32 := iblk0 V c 1 ⟨n, h⟩

/-- The index maps, decided over the grid: point t reads label block t, and writes count block t / 64. -/
theorem idx_facts : ∀ t : Fin cfg0.N, win0_1.index t (0 : Fin 2) = t.val ∧ win0_1.index t (1 : Fin 2) = 0
    ∧ win0_4.index t (0 : Fin 3) = t.val / 64 ∧ win0_4.index t (1 : Fin 3) = 0 ∧ win0_4.index t (2 : Fin 3) = 0 :=
  (by decide +kernel : ∀ t : Fin grid0.N, _)

/-- Point n's label block at row r is the label column at row n · 2048 + r. -/
theorem lblk_apply (c : Dev nD) (n : Nat) (h : n < cfg0.N) (r : Fin 2048) (row : Fin 262144)
    (hrow : row.val = n * 2048 + r.val) :
    lblk V c n h (ix2 r (0 : Fin 1)) = lab V c (ix2 row (0 : Fin 1)) := by
  obtain ⟨e0, e1, -, -, -⟩ := idx_facts ⟨n, h⟩
  unfold lblk iblk0
  rw [View.read_apply]
  show V c main_v0 _ = V c main_v0 _
  refine congrArg (V c main_v0) (funext fun a => Fin.ext ?_)
  match a with
  | ⟨0, _⟩ => show win0_1.index ⟨n, h⟩ (0 : Fin 2) * 2048 + 1 * r.val = row.val; rw [show win0_1.index ⟨n, h⟩ (0 : Fin 2) = n from e0, hrow]; omega
  | ⟨1, _⟩ => show win0_1.index ⟨n, h⟩ (1 : Fin 2) * 1 + 1 * 0 = 0; rw [e1]

/-- How many of the 2048 rows point `n` reads carry label `d` (0 past the grid: those values are never used). -/
def tileCnt (c : Dev nD) (n : Nat) (i : S1x8x128.Idx) : EReal :=
  if h : n < cfg0.N then ∑ r : Fin 2048, Cert.KSpec.hot (lblk V c n h (ix2 r (0 : Fin 1))) (i 1) else 0

/-- The count block after point `t` is the fold over the run of points from 64 · (t / 64): the reset point leaves
    0 plus its tile's counts, every later point adds its own. -/
theorem cnt_run (c : Dev nD) (t : Nat) (ht : t < cfg0.N) (h' : 64 * (t / 64) + t % 64 < cfg0.N) :
    (outsAt0 V c t ht).2.2
      = Pipeline.accAt (N := cfg0.N) (fun n h => k0_pay1 (k0_pay6 (lblk V c n h)) (k0_pay4 (F := Ideal)))
          (fun n h acc => k0_pay1 (k0_pay6 (lblk V c n h)) acc) (64 * (t / 64)) (t % 64) h' := by
  refine Pipeline.eq_accAt_of_mod (fun n h => (outsAt0 V c n h).2.2) 64 _ _ (fun n h hm => ?_) (fun n h hne => ?_)
    (by decide) t ht h'
  · show (outsAt0 V c n h).2.2 = k0_pay1 (k0_pay6 (lblk V c n h)) (k0_pay4 (F := Ideal))
    rw [outsAt0_A V c ⟨n, h⟩ hm]
    dsimp only
    exact cnt_A c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩)
      (ms0_3 ⟨n, h⟩) (hs0_3 ⟨n, h⟩) (ms0_4 ⟨n, h⟩) (hs0_4 ⟨n, h⟩) ((hcond0_0 ⟨n, h⟩).mpr hm) (iblk0 V c 0 ⟨n, h⟩) (iblk0 V c 1 ⟨n, h⟩)
  · show (outsAt0 V c (n + 1) h).2.2 = k0_pay1 (k0_pay6 (lblk V c (n + 1) h)) (outsAt0 V c n (Nat.lt_of_succ_lt h)).2.2
    rw [outsAt0_B V c ⟨n + 1, h⟩ hne]
    dsimp only
    exact cnt_B c (grid0.coords ⟨n + 1, h⟩) (ms0_0 ⟨n + 1, h⟩) (hs0_0 ⟨n + 1, h⟩) (ms0_1 ⟨n + 1, h⟩) (hs0_1 ⟨n + 1, h⟩)
      (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩)
      (fun hh => hne ((hcond0_0 ⟨n + 1, h⟩).mp hh)) (iblk0 V c 0 ⟨n + 1, h⟩) (iblk0 V c 1 ⟨n + 1, h⟩)
      (outsAt0 V c n (Nat.lt_of_succ_lt h)).1 (outsAt0 V c n (Nat.lt_of_succ_lt h)).2.1 (outsAt0 V c n (Nat.lt_of_succ_lt h)).2.2

/-- The fold, entry by entry: after the `j`-th point of a run (j ≤ 63) the block holds the sum of the tile counts of
    the run's points so far, added to the zero the first point stored. -/
theorem cnt_fold (c : Dev nD) (b j : Nat) (hj : j ≤ 63) (h : b + j < cfg0.N) (i : S1x8x128.Idx) :
    Pipeline.accAt (N := cfg0.N) (fun n h => k0_pay1 (k0_pay6 (lblk V c n h)) (k0_pay4 (F := Ideal)))
        (fun n h acc => k0_pay1 (k0_pay6 (lblk V c n h)) acc) b j h i
      = 0 + ∑ s ∈ Finset.range (j + 1), tileCnt V c (b + s) i := by
  refine Pipeline.accAt_add_apply (N := cfg0.N) _ _ (fun _ => (0 : EReal)) (tileCnt V c) b 63 (fun hb i => ?_)
    (fun n hn acc i _ _ => ?_) j hj h i
  · obtain ⟨z, d, l, rfl⟩ : ∃ (z : Fin 1) (d : Fin 8) (l : Fin 128), i = ix3 z d l := ⟨i 0, i 1, i 2, eq_ix3 i⟩
    refine (pay1_apply _ _ z d l).trans ?_
    rw [pay4_apply, pay6_apply]
    unfold tileCnt
    rw [dif_pos hb]
  · obtain ⟨z, d, l, rfl⟩ : ∃ (z : Fin 1) (d : Fin 8) (l : Fin 128), i = ix3 z d l := ⟨i 0, i 1, i 2, eq_ix3 i⟩
    refine (pay1_apply _ _ z d l).trans ?_
    rw [pay6_apply]
    unfold tileCnt
    rw [dif_pos hn]

/-- At a point that closes a run (t ≡ 63 mod 64) the block holds, at (·, d, lane), the number of rows labelled `d`
    among the 64 · 2048 rows of half t / 64. -/
theorem cnt_at_flush (c : Dev nD) (t : Fin cfg0.N) (h63 : t.val % 64 = 63) (q : Fin 2) (hq : q.val = t.val / 64)
    (z : Fin 1) (d : Fin 8) (l : Fin 128) :
    (outsAt0 V c t.val t.isLt).2.2 (ix3 z d l)
      = ∑ s : Fin 64, ∑ r : Fin 2048, Cert.KSpec.hot (lab V c (ix2 (Cert.KSpec.rowOf q s r) (0 : Fin 1))) d := by
  have hN : cfg0.N = 128 := N_0
  have htN : t.val < 128 := lt_of_lt_of_eq t.isLt hN
  have h' : 64 * (t.val / 64) + t.val % 64 < cfg0.N := by rw [Nat.div_add_mod]; exact t.isLt
  rw [cnt_run V c t.val t.isLt h', cnt_fold V c _ _ (by omega) h', zero_add, h63, Finset.sum_range]
  refine Finset.sum_congr rfl fun s _ => ?_
  have hs : s.val < 64 := s.isLt
  have hlt : 64 * (t.val / 64) + s.val < cfg0.N := lt_of_lt_of_eq (by omega : 64 * (t.val / 64) + s.val < 128) hN.symm
  unfold tileCnt
  rw [dif_pos hlt]
  refine Finset.sum_congr rfl fun r _ => ?_
  have hr : r.val < 2048 := r.isLt
  rw [lblk_apply V c _ hlt r (Cert.KSpec.rowOf q s r) (by show (q.val * 64 + s.val) * 2048 + r.val = _; rw [hq]; ring)]

/-! ## From the blocks to the array -/

/-- What a closing point writes back is its block of the per-half counts: block index (z, d, lane) of point `t` is
    array index (t / 64, d, lane). -/
theorem flushed_cnt (c : Dev nD) (t : Fin cfg0.N) (hf : (cfg0.win 4).flush t = true) :
    (dat0 (F := Ideal) V c).flushed 4 t
      = ((cfg0.win 4).blk t).view.read (Elt Ideal) (Cert.KSpec.partCnt (V c main_v0)) := by
  have h63 : t.val % 64 = 63 := (flush0_4 t).mp hf
  have hN : cfg0.N = 128 := N_0
  have htN : t.val < 128 := lt_of_lt_of_eq t.isLt hN
  obtain ⟨-, -, e0, e1, e2⟩ := idx_facts t
  show (cfg0.win 4).cut (grid0.coords t) ((dat0 V c).after 4 t) = _
  rw [after0_4]
  refine funext fun (y : S1x8x128.Idx) => ?_
  show (outsAt0 V c t.val t.isLt).2.2 y = Cert.KSpec.partCnt (V c main_v0) (((cfg0.win 4).blk t).view.emb y)
  have hy0 : (y 0).val = 0 := by have : (y 0).val < 1 := (y 0).isLt; omega
  have hemb : ((cfg0.win 4).blk t).view.emb y = (ix3 (⟨t.val / 64, by omega⟩ : Fin 2) (y 1) (y 2) : S2x8x128.Idx) := by
    funext a; apply Fin.ext
    match a with
    | ⟨0, _⟩ => show win0_4.index t (0 : Fin 3) * 1 + 1 * (y 0).val = t.val / 64; rw [e0, hy0]; omega
    | ⟨1, _⟩ => show win0_4.index t (1 : Fin 3) * 8 + 1 * (y 1).val = (y 1).val; rw [e1]; omega
    | ⟨2, _⟩ => show win0_4.index t (2 : Fin 3) * 128 + 1 * (y 2).val = (y 2).val; rw [e2]; omega
  have key := cnt_at_flush V c t h63 (⟨t.val / 64, by omega⟩ : Fin 2) rfl (y 0) (y 1) (y 2)
  have hy : y = ix3 (y 0) (y 1) (y 2) := eq_ix3 y
  exact (congrArg (outsAt0 V c t.val t.isLt).2.2 hy).trans
    (key.trans (congrArg (Cert.KSpec.partCnt (V c main_v0)) hemb).symm)

/-- An index of the count array is in point `t`'s block iff each coordinate is in the block's range on its axis. -/
theorem mem_blk_cnt (t : Fin cfg0.N) (i : S2x8x128.Idx) :
    i ∈ ((cfg0.win 4).blk t).view.set ↔ ∀ a : Fin 3, win0_4.index t a * S1x8x128.size a ≤ (i a).val
      ∧ (i a).val < win0_4.index t a * S1x8x128.size a + S1x8x128.size a := by
  show i ∈ ((View.whole main_v1_2).slice (win0_4.rect t)).set ↔ _
  rw [View.set_slice_whole, Rect.mem_set_unit]
  exact Iff.rfl

/-- The count array after the statistics region: entry (c', d, lane) lies in the block the closing point
    64 · c' + 63 writes back, so the array is the per-half counts everywhere. -/
theorem counts_final (c : Dev nD) :
    (dat0 (F := Ideal) V c).arrAt 4 cfg0.N = Cert.KSpec.partCnt (V c main_v0) :=
  (dat0 (F := Ideal) V c).arrAt_eq_of_cover 4 (Cert.KSpec.partCnt (V c main_v0)) (flushed_cnt V c) fun i => by
    have hN : cfg0.N = 128 := N_0
    have h0 : (i 0 : Nat) < 2 := (i 0).isLt
    have h1 : (i 1 : Nat) < 8 := (i 1).isLt
    have h2 : (i 2 : Nat) < 128 := (i 2).isLt
    obtain ⟨t, ht⟩ : ∃ t : Fin cfg0.N, t.val = 64 * (i 0 : Nat) + 63 :=
      ⟨⟨64 * (i 0 : Nat) + 63, lt_of_lt_of_eq (by omega : 64 * (i 0 : Nat) + 63 < 128) hN.symm⟩, rfl⟩
    obtain ⟨-, -, e0, e1, e2⟩ := idx_facts t
    refine ⟨t, (flush0_4 t).mpr (by omega), ?_⟩
    rw [mem_blk_cnt]
    intro a
    match a with
    | ⟨0, _⟩ => show win0_4.index t (0 : Fin 3) * 1 ≤ (i 0 : Nat) ∧ (i 0 : Nat) < win0_4.index t (0 : Fin 3) * 1 + 1; rw [e0]; omega
    | ⟨1, _⟩ => show win0_4.index t (1 : Fin 3) * 8 ≤ (i 1 : Nat) ∧ (i 1 : Nat) < win0_4.index t (1 : Fin 3) * 8 + 8; rw [e1]; omega
    | ⟨2, _⟩ => show win0_4.index t (2 : Fin 3) * 128 ≤ (i 2 : Nat) ∧ (i 2 : Nat) < win0_4.index t (2 : Fin 3) * 128 + 128; rw [e2]; omega

end Cert.KernelIdeal.StatsCount

end
-- ==== Proof.NormValue.lean ====
import proofs.«403173_j9320079033284_2_alg».proof.Proof.Gen.KernelIdeal.Frame
import proofs.«403173_j9320079033284_2_alg».proof.Proof.KSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Norm

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! # The normalising region's result array

Grid point `t` of the 128 reads rows 2048·t … 2048·t + 2047 of the data and of the label column and the whole scale and
bias tables, and stores one [2048, 512] block. At row `p`, feature `q` of that block the body computes
`x · (Σ_d hot(label p, d) · scale[d, q]) + Σ_d hot(label p, d) · bias[d, q]`: the one-hot row is a compare of the label
with the lane number, and each pick is a matrix product over the 8 domains into a zero accumulator. The 128 blocks tile the
rows, so the array ends holding that function of the four arrays the region reads, index by index. -/

/-- The zero offsets of a whole-block access, spelt as the constant function. -/
theorem zeroOff : (![0, 0] : Fin 2 → Nat) = fun _ => 0 := funext fun a => by fin_cases a <;> rfl

set_option maxHeartbeats 400000 in
/-- The one-hot matrix's entry at row `p`, domain `d`: the label word of row `p`, spread along the 8 lanes, compared with the
    lane's number, widened and converted, is 1 where the label is `d` and 0 elsewhere. -/
theorem onehot_entry (x1 : Vec Ideal S2048x1 .i32) (p : Fin 2048) (d : Fin 8) :
    (sitofp .f32 (extui 32 (cmpi .eq (broadcastTo S2048x8 (shapeCast S2048x1 x1 shapeCasts_S2048x1_S2048x1) broadcasts_S2048x1_S2048x8)
        (iota .tc S2048x8 32 [1] iota_S2048x8_d1_w32)) natLt_1_32) : FVec Ideal S2048x8 .f32) (ix2 p d)
      = Cert.KSpec.hot (x1 (ix2 p (0 : Fin 1))) d := by
  rw [sitofp_apply, extui_apply]
  show FloatOps.sitofp .f32 ((IntOp.cmpi .eq _ _).setWidth 32) = _
  rw [iota_single_apply, shapeCast_self,
    broadcastTo_apply x1 broadcasts_S2048x1_S2048x8 (ix2 p d) (ix2 p (0 : Fin 1)) (fun a => by
      match a with
      | ⟨0, _⟩ => rfl
      | ⟨1, _⟩ => rfl)]
  show FloatOps.sitofp FTy.f32 (BitVec.setWidth 32 (IntOp.cmpi .eq (x1 (ix2 p (0 : Fin 1))) (BitVec.ofNat 32 d.val))) = _
  unfold Cert.KSpec.hot
  by_cases h : x1 (ix2 p (0 : Fin 1)) = BitVec.ofNat 32 d.val
  · rw [if_pos h, IntOp.cmpi_eq.mpr h]
    show (((BitVec.setWidth 32 1#1).toInt : ℝ) : EReal) = 1
    rw [show (BitVec.setWidth 32 1#1).toInt = 1 from by decide]
    simp
  · rw [if_neg h, eq_zero_of_ne_one (fun e => h (IntOp.cmpi_eq.mp e))]
    show (((BitVec.setWidth 32 0#1).toInt : ℝ) : EReal) = 0
    rw [show (BitVec.setWidth 32 0#1).toInt = 0 from by decide]
    simp

/-! The product's operand indices, axis by axis: at output index `i` and contraction index `q` the left operand is read at
    (row of `i`, `q`) and the right operand at (`q`, column of `i`). -/

theorem lhs_axis0 (i : S2048x512.Idx) (q : dot_S2048x8_S8x512_S2048x512_1_0_0_1_n_n.contr.Idx) :
    (dot_S2048x8_S8x512_S2048x512_1_0_0_1_n_n.lhsIdx i q 0).val = (i 0).val := by
  unfold DotDims.lhsIdx
  rw [dif_neg (show ¬(0 : Fin S2048x8.rank) ∈ dot_S2048x8_S8x512_S2048x512_1_0_0_1_n_n.lhsBatch by decide),
    dif_pos (show (0 : Fin S2048x8.rank) ∈ dot_S2048x8_S8x512_S2048x512_1_0_0_1_n_n.lhsNonContracting by decide)]
  rfl

theorem lhs_axis1 (i : S2048x512.Idx) (q : dot_S2048x8_S8x512_S2048x512_1_0_0_1_n_n.contr.Idx) :
    (dot_S2048x8_S8x512_S2048x512_1_0_0_1_n_n.lhsIdx i q 1).val = (q ⟨0, by decide⟩).val :=
  dot_S2048x8_S8x512_S2048x512_1_0_0_1_n_n.lhsIdx_val_of_single rfl i q

theorem rhs_axis0 (i : S2048x512.Idx) (q : dot_S2048x8_S8x512_S2048x512_1_0_0_1_n_n.contr.Idx) :
    (dot_S2048x8_S8x512_S2048x512_1_0_0_1_n_n.rhsIdx i q 0).val = (q ⟨0, by decide⟩).val :=
  dot_S2048x8_S8x512_S2048x512_1_0_0_1_n_n.rhsIdx_val_of_single rfl i q

theorem rhs_axis1 (i : S2048x512.Idx) (q : dot_S2048x8_S8x512_S2048x512_1_0_0_1_n_n.contr.Idx) :
    (dot_S2048x8_S8x512_S2048x512_1_0_0_1_n_n.rhsIdx i q 1).val = (i 1).val := by
  unfold DotDims.rhsIdx
  rw [dif_neg (show ¬(1 : Fin S8x512.rank) ∈ dot_S2048x8_S8x512_S2048x512_1_0_0_1_n_n.rhsBatch by decide),
    dif_pos (show (1 : Fin S8x512.rank) ∈ dot_S2048x8_S8x512_S2048x512_1_0_0_1_n_n.rhsNonContracting by decide)]
  rfl

set_option maxHeartbeats 400000 in
/-- A [2048, 8] by [8, 512] product into the zero accumulator, read at (p, q): the sum over the 8 domains of the
    products of the entries. -/
theorem matmul_entry (L : FVec Ideal S2048x8 .f32) (R : FVec Ideal S8x512 .f32) (p : Fin 2048) (q : Fin 512) :
    matmul dot_S2048x8_S8x512_S2048x512_1_0_0_1_n_n (some .fp32) L R (constant (F := Ideal) S2048x512 .f32 0x00000000#32) (ix2 p q)
      = ∑ d : Fin 8, L (ix2 p d) * R (ix2 d q) := by
  show FloatOps.matmul _ _ _ _ _ _ = _
  rw [Ideal.matmul_constant_zero_apply,
    ← Equiv.sum_comp (contrEquiv1 dot_S2048x8_S8x512_S2048x512_1_0_0_1_n_n 8 rfl rfl).symm]
  refine Finset.sum_congr rfl fun k _ => ?_
  have hk := contrEquiv1_symm_val dot_S2048x8_S8x512_S2048x512_1_0_0_1_n_n 8 rfl rfl k
  have el : dot_S2048x8_S8x512_S2048x512_1_0_0_1_n_n.lhsIdx (ix2 p q)
      ((contrEquiv1 dot_S2048x8_S8x512_S2048x512_1_0_0_1_n_n 8 rfl rfl).symm k) = ix2 p k := funext fun a => Fin.ext (by
    match a with
    | ⟨0, _⟩ => exact lhs_axis0 _ _
    | ⟨1, _⟩ => exact (lhs_axis1 _ _).trans hk)
  have er : dot_S2048x8_S8x512_S2048x512_1_0_0_1_n_n.rhsIdx (ix2 p q)
      ((contrEquiv1 dot_S2048x8_S8x512_S2048x512_1_0_0_1_n_n 8 rfl rfl).symm k) = ix2 k q := funext fun a => Fin.ext (by
    match a with
    | ⟨0, _⟩ => exact (rhs_axis0 _ _).trans hk
    | ⟨1, _⟩ => exact rhs_axis1 _ _)
  rw [el, er]

set_option maxHeartbeats 400000 in
/-- The body's result at row `p`, feature `q` of the block: the entry times the scale picked by the row's label, plus the
    bias picked by it, each pick a sum over the 8 domains against the one-hot row. -/
theorem payload_entry (x0 : Vec Ideal S2048x512 .f32) (x1 : Vec Ideal S2048x1 .i32) (x2 x3 : Vec Ideal S8x512 .f32)
    (p : Fin 2048) (q : Fin 512) :
    k1_pay1 (F := Ideal) x0 x1 x2 x3 (ix2 p q)
      = x0 (ix2 p q) * (∑ d : Fin 8, Cert.KSpec.hot (x1 (ix2 p (0 : Fin 1))) d * x2 (ix2 d q))
        + ∑ d : Fin 8, Cert.KSpec.hot (x1 (ix2 p (0 : Fin 1))) d * x3 (ix2 d q) := by
  unfold k1_pay1
  refine (addf_apply _ _ _).trans ?_
  refine congrArg₂ (· + ·) ?_ ?_
  · refine (mulf_apply _ _ _).trans ?_
    refine congrArg (x0 (ix2 p q) * ·) ?_
    refine (matmul_entry _ _ p q).trans ?_
    refine Finset.sum_congr rfl fun d _ => ?_
    exact congrArg₂ (· * ·) (onehot_entry x1 p d) (congrFun (shapeCast_self x2 shapeCasts_S8x512_S8x512) (ix2 d q))
  · refine (matmul_entry _ _ p q).trans ?_
    refine Finset.sum_congr rfl fun d _ => ?_
    exact congrArg₂ (· * ·) (onehot_entry x1 p d) (congrFun (shapeCast_self x3 shapeCasts_S8x512_S8x512) (ix2 d q))

/-- A block entry against the array entry it stands for: if the four blocks the body reads hold, at row `p` and feature `q`,
    what the four arrays hold at row `n` and feature `f`, the body's result there is the normalised value of the arrays at (n, f). -/
theorem block_entry (X : S262144x512.Idx → EReal) (Y : S262144x1.Idx → BitVec 32) (Sc Bi : S8x512.Idx → EReal)
    (x0 : Vec Ideal S2048x512 .f32) (x1 : Vec Ideal S2048x1 .i32) (x2 x3 : Vec Ideal S8x512 .f32)
    (p : Fin 2048) (q : Fin 512) (n : Fin 262144) (f : Fin 512)
    (h0 : x0 (ix2 p q) = X (ix2 n f)) (h1 : x1 (ix2 p (0 : Fin 1)) = Y (ix2 n (0 : Fin 1)))
    (h2 : ∀ d : Fin 8, x2 (ix2 d q) = Sc (ix2 d f)) (h3 : ∀ d : Fin 8, x3 (ix2 d q) = Bi (ix2 d f)) :
    k1_pay1 (F := Ideal) x0 x1 x2 x3 (ix2 p q) = Cert.KSpec.normOut X Y Sc Bi (ix2 n f) := by
  rw [payload_entry, h0, h1]
  simp only [h2, h3]
  rfl

/-- The index maps over the 128 grid points: the data, label and result blocks are block `t` along the rows,
    and the two tables' one block is the whole table. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

set_option maxHeartbeats 400000 in
/-- What grid point `t` writes back is block `t` of the normalised array: rows 2048·t … 2048·t + 2047, every feature. -/
theorem flushed_eq (c : Dev nD) (t : Fin cfg1.N) :
    (dat1 (F := Ideal) V c).flushed 4 t
      = ((cfg1.win 4).blk t).view.read (Elt Ideal)
          (Cert.KSpec.normOut (V c main_arg0) (V c main_v0) (V c main_v31) (V c main_v32)) := by
  show (cfg1.win 4).cut (grid1.coords t) ((dat1 V c).after 4 t) = _
  rw [after1_4]
  unfold out1_4
  rw [View.canon_unit_zero zeroOff]
  simp only [View.ld_unit_zero (S := S2048x512) zeroOff, View.ld_unit_zero (S := S2048x1) zeroOff,
    View.ld_unit_zero (S := S8x512) zeroOff]
  obtain ⟨e00, e01, e10, e11, e20, e21, e30, e31, e40, e41⟩ := index_facts t
  have ht : t.val < 128 := lt_of_lt_of_eq t.isLt N_1
  funext j
  obtain ⟨p, q, rfl⟩ : ∃ (p : Fin 2048) (q : Fin 512), j = ix2 p q := ⟨j 0, j 1, eq_ix2 j⟩
  have hp : p.val < 2048 := p.isLt
  have hq : q.val < 512 := q.isLt
  show k1_pay1 (F := Ideal) (iblk1 V c 0 t) (iblk1 V c 1 t) (iblk1 V c 2 t) (iblk1 V c 3 t) (ix2 p q)
    = Cert.KSpec.normOut (V c main_arg0) (V c main_v0) (V c main_v31) (V c main_v32) (((cfg1.win 4).blk t).view.emb (ix2 p q))
  have hemb : ((cfg1.win 4).blk t).view.emb (ix2 p q) = ix2 (⟨t.val * 2048 + p.val, by omega⟩ : Fin 262144) q := by
    funext a; apply Fin.ext
    match a with
    | ⟨0, _⟩ => show win1_4.index t (0 : Fin 2) * 2048 + 1 * p.val = t.val * 2048 + p.val; rw [e40]; omega
    | ⟨1, _⟩ => show win1_4.index t (1 : Fin 2) * 512 + 1 * q.val = q.val; rw [e41]; omega
  rw [hemb]
  refine block_entry (V c main_arg0) (V c main_v0) (V c main_v31) (V c main_v32)
    (iblk1 V c 0 t) (iblk1 V c 1 t) (iblk1 V c 2 t) (iblk1 V c 3 t) p q ⟨t.val * 2048 + p.val, by omega⟩ q ?_ ?_ ?_ ?_
  · show V c main_arg0 (((cfg1.win 0).blk t).view.emb (ix2 p q)) = V c main_arg0 _
    refine congrArg (V c main_arg0) ?_
    funext a; apply Fin.ext
    match a with
    | ⟨0, _⟩ => show win1_0.index t (0 : Fin 2) * 2048 + 1 * p.val = t.val * 2048 + p.val; rw [e00]; omega
    | ⟨1, _⟩ => show win1_0.index t (1 : Fin 2) * 512 + 1 * q.val = q.val; rw [e01]; omega
  · show V c main_v0 (((cfg1.win 1).blk t).view.emb (ix2 p (0 : Fin 1))) = V c main_v0 _
    refine congrArg (V c main_v0) ?_
    funext a; apply Fin.ext
    match a with
    | ⟨0, _⟩ => show win1_1.index t (0 : Fin 2) * 2048 + 1 * p.val = t.val * 2048 + p.val; rw [e10]; omega
    | ⟨1, _⟩ => show win1_1.index t (1 : Fin 2) * 1 + 1 * 0 = 0; rw [e11]
  · intro d
    show V c main_v31 (((cfg1.win 2).blk t).view.emb (ix2 d q)) = V c main_v31 _
    refine congrArg (V c main_v31) ?_
    funext a; apply Fin.ext
    match a with
    | ⟨0, _⟩ => show win1_2.index t (0 : Fin 2) * 8 + 1 * d.val = d.val; rw [e20]; omega
    | ⟨1, _⟩ => show win1_2.index t (1 : Fin 2) * 512 + 1 * q.val = q.val; rw [e21]; omega
  · intro d
    show V c main_v32 (((cfg1.win 3).blk t).view.emb (ix2 d q)) = V c main_v32 _
    refine congrArg (V c main_v32) ?_
    funext a; apply Fin.ext
    match a with
    | ⟨0, _⟩ => show win1_3.index t (0 : Fin 2) * 8 + 1 * d.val = d.val; rw [e30]; omega
    | ⟨1, _⟩ => show win1_3.index t (1 : Fin 2) * 512 + 1 * q.val = q.val; rw [e31]; omega

/-- An index of the result array lies in point `t`'s block exactly when each coordinate lies in the block's range on its axis. -/
theorem mem_block (t : Fin cfg1.N) (i : S262144x512.Idx) :
    i ∈ ((cfg1.win 4).blk t).view.set ↔ ∀ a : Fin 2, win1_4.index t a * S2048x512.size a ≤ (i a).val
      ∧ (i a).val < win1_4.index t a * S2048x512.size a + S2048x512.size a := by
  show i ∈ ((View.whole main_v33).slice (win1_4.rect t)).set ↔ _
  rw [View.set_slice_whole, Rect.mem_set_unit]
  exact Iff.rfl

set_option maxHeartbeats 400000 in
/-- Every index of the result array is in some point's block: row `n` is in the block of point `n / 2048`. -/
theorem covered (i : S262144x512.Idx) :
    ∃ t : Fin cfg1.N, (cfg1.win 4).flush t = true ∧ i ∈ ((cfg1.win 4).blk t).view.set := by
  have hi0 : (i 0).val < 262144 := (i 0).isLt
  have hi1 : (i 1).val < 512 := (i 1).isLt
  have hN : cfg1.N = 128 := N_1
  obtain ⟨t, htv⟩ : ∃ t : Fin cfg1.N, t.val = (i 0).val / 2048 := ⟨⟨(i 0).val / 2048, by omega⟩, rfl⟩
  obtain ⟨-, -, -, -, -, -, -, -, e40, e41⟩ := index_facts t
  refine ⟨t, flush1_4 t, ?_⟩
  rw [mem_block]
  intro a
  match a with
  | ⟨0, _⟩ =>
    show win1_4.index t (0 : Fin 2) * 2048 ≤ (i 0).val ∧ (i 0).val < win1_4.index t (0 : Fin 2) * 2048 + 2048
    rw [e40, htv]; omega
  | ⟨1, _⟩ =>
    show win1_4.index t (1 : Fin 2) * 512 ≤ (i 1).val ∧ (i 1).val < win1_4.index t (1 : Fin 2) * 512 + 512
    rw [e41]; omega

/-- The result array after the region: every point writes back its block of the one function, and the blocks cover the array. -/
theorem norm_final (c : Dev nD) :
    (dat1 (F := Ideal) V c).arrAt 4 cfg1.N
      = Cert.KSpec.normOut (V c main_arg0) (V c main_v0) (V c main_v31) (V c main_v32) :=
  (dat1 (F := Ideal) V c).arrAt_eq_of_cover 4
    (Cert.KSpec.normOut (V c main_arg0) (V c main_v0) (V c main_v31) (V c main_v32))
    (fun t _ => flushed_eq V c t) covered

end Cert.KernelIdeal.Norm

end
-- ==== Proof.Spec.lean ====
/-
  The mathematics of the claim, stated once over plain index types and the extended reals.

  Rows `n : Fin 262144`, features `f : Fin 512`, domains `d : Fin 8`; `lab n` is row `n`'s domain.

  THE PER-DOMAIN CHAIN takes three statistics — per domain the count `cnt d` of its rows, and per domain and
  feature the sum `s1 d f` and the sum of squares `s2 d f` of its rows' entries — to the mean, the (biased)
  variance, and, only where the domain has more than one row, the pair (mean, variance) that the
  normalisation uses, otherwise (0, 1); `inv` is the reciprocal square root of that variance plus `ε`;
  `scale = γ · inv` and `bias = β − γ · mean · inv`, both 0 for an empty domain.

  THE STATISTICS OF THE DATA are `cntOf`, `s1Of`, `s2Of`.

  `kOut` is the form the kernel computes: scale and bias picked for row `n` by a sum over the domains
  against the indicator of `lab n`, then `x · scale + bias`.
  `rOut` is the form the reference computes: `γ · (x − mean) · inv + β` with every per-domain quantity read
  at `lab n`, and 0 where that domain is empty.
-/
import Idealize.ShloMosaic.PureOps.Ideal

noncomputable section

open scoped BigOperators

namespace Cert.Spec

open Idealize.ShloMosaic

/-! ## The per-domain chain, from the three statistics -/

section Chain

variable (cnt : Fin 8 → EReal) (s1 s2 : Fin 8 → Fin 512 → EReal) (γ β : Fin 8 → Fin 512 → EReal) (ε : EReal)

/-- The divisor: the count, but at least one. -/
def safe (d : Fin 8) : EReal := max (cnt d) 1
def mean (d : Fin 8) (f : Fin 512) : EReal := Ideal.div (s1 d f) (safe cnt d)
def var (d : Fin 8) (f : Fin 512) : EReal := Ideal.div (s2 d f) (safe cnt d) - mean cnt s1 d f * mean cnt s1 d f
/-- The mean used: the batch mean for a domain of more than one row, else 0. -/
def meanE (d : Fin 8) (f : Fin 512) : EReal := if 1 < cnt d then mean cnt s1 d f else 0
/-- The variance used: the batch variance for a domain of more than one row, else 1. -/
def varE (d : Fin 8) (f : Fin 512) : EReal := if 1 < cnt d then var cnt s1 s2 d f else 1
def inv (d : Fin 8) (f : Fin 512) : EReal := Ideal.rsqrt (varE cnt s1 s2 d f + ε)
def scale (d : Fin 8) (f : Fin 512) : EReal := if 0 < cnt d then γ d f * inv cnt s1 s2 ε d f else 0
def bias (d : Fin 8) (f : Fin 512) : EReal :=
  if 0 < cnt d then β d f - γ d f * meanE cnt s1 d f * inv cnt s1 s2 ε d f else 0

end Chain

/-! ## The statistics of the data, and the two forms of the result -/

variable (x : Fin 262144 → Fin 512 → EReal) (lab : Fin 262144 → Fin 8) (γ β : Fin 8 → Fin 512 → EReal) (ε : EReal)

/-- The indicator of "row `n` belongs to domain `d`". -/
def ind (n : Fin 262144) (d : Fin 8) : EReal := if lab n = d then 1 else 0
/-- How many rows belong to domain `d`. -/
def cntOf (d : Fin 8) : EReal := ∑ n : Fin 262144, ind lab n d
/-- The sum over domain `d`'s rows of feature `f`. -/
def s1Of (d : Fin 8) (f : Fin 512) : EReal := ∑ n : Fin 262144, ind lab n d * x n f
/-- The sum over domain `d`'s rows of the square of feature `f`. -/
def s2Of (d : Fin 8) (f : Fin 512) : EReal := ∑ n : Fin 262144, ind lab n d * (x n f * x n f)

/-- The kernel's form of the result. -/
def kOut (n : Fin 262144) (f : Fin 512) : EReal :=
  x n f * (∑ d : Fin 8, ind lab n d * scale (cntOf lab) (s1Of x lab) (s2Of x lab) γ ε d f)
    + ∑ d : Fin 8, ind lab n d * bias (cntOf lab) (s1Of x lab) (s2Of x lab) γ β ε d f

/-- The reference's form of the result. -/
def rOut (n : Fin 262144) (f : Fin 512) : EReal :=
  if 0 < cntOf lab (lab n) then
    γ (lab n) f * (x n f - meanE (cntOf lab) (s1Of x lab) (lab n) f) * inv (cntOf lab) (s1Of x lab) (s2Of x lab) ε (lab n) f
      + β (lab n) f
  else 0

end Cert.Spec

end
-- ==== Proof.Consts.lean ====
/-
  The three float constants both programs spell, as the extended reals their bit patterns denote:
  `0.0`, `1.0`, and the single-precision value nearest `1e-5`, which is a positive real.
-/
import Idealize.ShloMosaic.PureOps.Ideal

noncomputable section

namespace Cert.Consts

open Idealize.ShloMosaic

theorem ofBits_zero : Ideal.ofBits .f32 0x00000000#32 = 0 := by
  simp [Ideal.ofBits, Ideal.ieee]

theorem ofBits_one : Ideal.ofBits .f32 0x3F800000#32 = 1 := by
  simp [Ideal.ofBits, Ideal.ieee, -EReal.coe_mul]; norm_num

/-- The real that the pattern `0x3727C5AC` denotes: `(2^23 + 2606508) · 2^(110 − 127 − 23)`. -/
def epsR : ℝ := (10995116 : ℝ) * (2 : ℝ) ^ (-40 : Int)

theorem epsR_pos : 0 < epsR := by unfold epsR; positivity

theorem ofBits_eps : Ideal.ofBits .f32 0x3727C5AC#32 = ((epsR : ℝ) : EReal) := by
  unfold epsR
  simp [Ideal.ofBits, Ideal.ieee, -EReal.coe_mul]

end Cert.Consts

end
-- ==== Proof.HostGlue.lean ====
import proofs.«403173_j9320079033284_2_alg».proof.Proof.Gen.KernelIdeal.Frame
import proofs.«403173_j9320079033284_2_alg».proof.Proof.Spec
import proofs.«403173_j9320079033284_2_alg».proof.Proof.KSpec
import proofs.«403173_j9320079033284_2_alg».proof.Proof.Consts
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

open scoped BigOperators

namespace Cert.KernelIdeal.Glue

open Cert.KernelIdeal Cert.KernelIdeal.Gen Idealize.ShloMosaic Idealize.ShloMosaic.TcCoe Idealize.ShloMosaic.ValueIdx Idealize.SL.Sem
open Idealize.ShloMosaic.StableHlo

variable (m : (ℓ : Loc nD τ sig) → Buf (Elt Ideal) ℓ) (ρ : Dev nD → PrngReg)

/-! # The host's operations around the two regions

  Between the launch and the statistics region the host reshapes the label array to a column; between the two
  regions it sums the statistics region's three result arrays over their two halves and runs the per-domain chain
  (count, divisor, mean, variance, the two guards, reciprocal square root) to the scale table and the bias table.
  No host operation writes the data array or, after the reshape, the label column; an input of the statistics
  region leaves it as it entered. Each fact below reads one buffer through that sequence. -/

/-! ## The data array and the label column -/

/-- A column read row by row: the reshape of a length-n array to an n × 1 column holds at row r the array's entry r
    (the row-major position of (r, 0) in the column is r). -/
theorem col_read {α : Type} (Y : S262144.Idx → α) (i : S262144x1.Idx) :
    shapeCast S262144x1 Y shapeCasts_S262144_S262144x1 i = Y (ix1 (i 0)) := by
  refine shapeCast_apply _ _ i (ix1 (i 0)) ?_
  rw [Shape.rowMajor_val_one, Shape.rowMajor_val_two]
  have h : (i 1).val < 1 := (i 1).isLt
  show (i 0).val = (i 0).val * 1 + (i 1).val
  omega

/-- The statistics region is entered with the data array as launched. -/
theorem V1_arg0 (c : Dev nD) : V1 m ρ c main_arg0 = m ((c.tc : Thread nD τ).loc main_arg0) := by
  show StableHlo.after hostOps0 (W0 m ρ c) (Proc.devRef .tc main_arg0) = _
  after_results_simp

/-- The statistics region is entered with the label column holding the label array, row by row. -/
theorem V1_v0 (c : Dev nD) :
    (V1 m ρ c main_v0 : S262144x1.Idx → BitVec 32) = fun i => m ((c.tc : Thread nD τ).loc main_arg1) (ix1 (i 0)) := by
  show StableHlo.after hostOps0 (W0 m ρ c) (Proc.devRef .tc main_v0) = _
  after_results_simp
  funext i
  exact col_read _ i

/-- From the normalising region's entry back to the statistics region's exit: none of the host operations between
    the two regions writes the data array. -/
theorem W10_arg0 (c : Dev nD) : W10 m ρ c (Proc.devRef .tc main_arg0) = W2 m ρ c (Proc.devRef .tc main_arg0) := by
  show StableHlo.after hostOps1_7 (StableHlo.after hostOps1_6 (StableHlo.after hostOps1_5 (StableHlo.after hostOps1_4
    (StableHlo.after hostOps1_3 (StableHlo.after hostOps1_2 (StableHlo.after hostOps1_1 (StableHlo.after hostOps1 (W2 m ρ c))))))))
    (Proc.devRef .tc main_arg0) = _
  after_results_simp

/-- Nor does any of them write the label column. -/
theorem W10_v0 (c : Dev nD) : W10 m ρ c (Proc.devRef .tc main_v0) = W2 m ρ c (Proc.devRef .tc main_v0) := by
  show StableHlo.after hostOps1_7 (StableHlo.after hostOps1_6 (StableHlo.after hostOps1_5 (StableHlo.after hostOps1_4
    (StableHlo.after hostOps1_3 (StableHlo.after hostOps1_2 (StableHlo.after hostOps1_1 (StableHlo.after hostOps1 (W2 m ρ c))))))))
    (Proc.devRef .tc main_v0) = _
  after_results_simp

/-- The data array is an input of the statistics region: the region leaves it as it entered. -/
theorem W2_arg0 (c : Dev nD) : W2 m ρ c (Proc.devRef .tc main_arg0) = W1 m ρ c (Proc.devRef .tc main_arg0) :=
  (W2_arr m ρ c 0).trans (((dat0 (V1 m ρ) c).arrAt_in 0 rfl _).trans (A_eq0 (V1 m ρ) c 0))

/-- So is the label column. -/
theorem W2_v0 (c : Dev nD) : W2 m ρ c (Proc.devRef .tc main_v0) = W1 m ρ c (Proc.devRef .tc main_v0) :=
  (W2_arr m ρ c 1).trans (((dat0 (V1 m ρ) c).arrAt_in 1 rfl _).trans (A_eq0 (V1 m ρ) c 1))

/-- The normalising region is entered with the data array as launched. -/
theorem V10_arg0 (c : Dev nD) : V10 m ρ c main_arg0 = m ((c.tc : Thread nD τ).loc main_arg0) :=
  (W10_arg0 m ρ c).trans ((W2_arg0 m ρ c).trans (V1_arg0 m ρ c))

/-- The normalising region is entered with the label column holding the label array, row by row. -/
theorem V10_v0 (c : Dev nD) :
    (V10 m ρ c main_v0 : S262144x1.Idx → BitVec 32) = fun i => m ((c.tc : Thread nD τ).loc main_arg1) (ix1 (i 0)) :=
  (W10_v0 m ρ c).trans ((W2_v0 m ρ c).trans (V1_v0 m ρ c))

/-! ## The host's arithmetic between the two regions, as terms over the three statistics arrays and the two
    parameter tables

  From the count array C [2, 8, 128] and the two sum arrays A, B [2, 8, 512] the host forms, per domain:
  the count (the sum of the two halves, read on lane 0), the divisor max(count, 1), the mean A / divisor, the
  variance B / divisor − mean², the two guards count > 1 and count > 0, and with them the reciprocal square
  root, the scale table and the bias table. -/

section Terms

variable (C : FVec Ideal S2x8x128 .f32) (A B : FVec Ideal S2x8x512 .f32) (G Bt : FVec Ideal S8x512 .f32)

/-- The count per domain: the two halves summed, lane 0 kept. -/
def cntV : FVec Ideal S8 .f32 :=
  shapeCast S8 (extractStridedSlice S8x1 ![0, 0]
    (Host.reduceAdd C (constant (F := Ideal) S_ .f32 0x00000000#32) reducesTo_S2x8x128_S8x128_d0 h_S_)
    slices_S8x128_S8x1_0_0) shapeCasts_S8x1_S8

/-- The divisor per domain, as a column: the count, but at least one. -/
def safeV : FVec Ideal S8x1 .f32 :=
  broadcastInDim S8x1 ![0] bcast_S8_S8x1_0
    (maximumf (cntV C) (broadcastInDim S8 ![] bcast_S_S8 (constant (F := Ideal) S_ .f32 0x3F800000#32)))

/-- A sum array's two halves added, divided by the divisor. -/
def avgV (P : FVec Ideal S2x8x512 .f32) : FVec Ideal S8x512 .f32 :=
  Host.divf (F := Ideal) (Host.reduceAdd P (constant (F := Ideal) S_ .f32 0x00000000#32) reducesTo_S2x8x512_S8x512_d0 h_S_)
    (broadcastInDim S8x512 ![0, 1] bcast_S8x1_S8x512_0_1 (safeV C))

/-- The variance: the mean of the squares less the square of the mean. -/
def varV : FVec Ideal S8x512 .f32 := subf (avgV C B) (mulf (avgV C A) (avgV C A))

/-- The guard "count greater than the constant", as a column of bits. -/
def gtV (k : BitVec 32) : IVec S8x1 1 :=
  broadcastInDim S8x1 ![0] bcast_S8_S8x1_0
    (cmpf .ogt (cntV C) (broadcastInDim S8 ![] bcast_S_S8 (constant (F := Ideal) S_ .f32 k)))

/-- The choice, per domain, between a table's row and a constant. -/
def whereV (g : IVec S8x1 1) (T : FVec Ideal S8x512 .f32) (z : FVec Ideal S_ .f32) : FVec Ideal S8x512 .f32 :=
  select (broadcastInDim S8x512 ![0, 1] bcast_S8x1_S8x512_0_1 g) T (broadcastInDim S8x512 ![] bcast_S_S8x512 (id z))

/-- The reciprocal square root of the variance used plus the small constant. -/
def invV : FVec Ideal S8x512 .f32 :=
  Host.rsqrt (F := Ideal) (addf (whereV (gtV C 0x3F800000#32) (varV C A B) (constant (F := Ideal) S_ .f32 0x3F800000#32))
    (broadcastInDim S8x512 ![] bcast_S_S8x512 (constant (F := Ideal) S_ .f32 0x3727C5AC#32)))

/-- The scale table. -/
def scaleV : FVec Ideal S8x512 .f32 :=
  whereV (gtV C 0x00000000#32) (mulf G (invV C A B)) (constant (F := Ideal) S_ .f32 0x00000000#32)

/-- The bias table. -/
def biasV : FVec Ideal S8x512 .f32 :=
  whereV (gtV C 0x00000000#32)
    (subf Bt (mulf (mulf G (whereV (gtV C 0x3F800000#32) (avgV C A) (constant (F := Ideal) S_ .f32 0x00000000#32))) (invV C A B)))
    (constant (F := Ideal) S_ .f32 0x00000000#32)

end Terms

/-! ## The terms read at an index -/

section Reads

variable (C : FVec Ideal S2x8x128 .f32) (A B : FVec Ideal S2x8x512 .f32) (G Bt : FVec Ideal S8x512 .f32)

/-- A scalar spread over a shape reads the scalar everywhere. -/
theorem scalar_bcast_apply {α : Type} {T : Shape} (h : S_.BroadcastsInDim T ![]) (z : S_.Idx → α) (j : T.Idx) :
    broadcastInDim T ![] h z j = z ix0 := by
  unfold broadcastInDim
  exact congrArg z (funext fun a => a.elim0)

/-- The host's sum over the leading axis of a [2, 8, 128] array, from the zero word: the two halves added. -/
theorem halves_sum128 (P : FVec Ideal S2x8x128 .f32) (d : Fin 8) (l : Fin 128) :
    Host.reduceAdd P (constant (F := Ideal) S_ .f32 0x00000000#32) reducesTo_S2x8x128_S8x128_d0 h_S_ (ix2 d l)
      = P (ix3 (0 : Fin 2) d l) + P (ix3 (1 : Fin 2) d l) := by
  have h : S2x8x128.Reduces [0] S8x128 := by decide
  show Ideal.hostReduceAdd reducesTo_S2x8x128_S8x128_d0 P (Ideal.ofBits .f32 0x00000000#32) (ix2 d l) = _
  rw [Ideal.hostReduceAdd_single reducesTo_S2x8x128_S8x128_d0 h, Cert.Consts.ofBits_zero, zero_add]
  show ∑ k : Fin 2, P (h.lift (ix2 d l) k) = _
  rw [Fin.sum_univ_two]
  refine congrArg₂ (· + ·) (congrArg P ?_) (congrArg P ?_) <;>
    (funext a; apply Fin.ext; fin_cases a <;> rfl)

/-- The same over a [2, 8, 512] array. -/
theorem halves_sum512 (P : FVec Ideal S2x8x512 .f32) (d : Fin 8) (f : Fin 512) :
    Host.reduceAdd P (constant (F := Ideal) S_ .f32 0x00000000#32) reducesTo_S2x8x512_S8x512_d0 h_S_ (ix2 d f)
      = Cert.KSpec.hSum P d f := by
  have h : S2x8x512.Reduces [0] S8x512 := by decide
  show Ideal.hostReduceAdd reducesTo_S2x8x512_S8x512_d0 P (Ideal.ofBits .f32 0x00000000#32) (ix2 d f) = _
  rw [Ideal.hostReduceAdd_single reducesTo_S2x8x512_S8x512_d0 h, Cert.Consts.ofBits_zero, zero_add]
  show ∑ k : Fin 2, P (h.lift (ix2 d f) k) = _
  rw [Fin.sum_univ_two]
  unfold Cert.KSpec.hSum
  refine congrArg₂ (· + ·) (congrArg P ?_) (congrArg P ?_) <;>
    (funext a; apply Fin.ext; fin_cases a <;> rfl)

/-- The count at domain d: the two halves' counts on lane 0, added. -/
theorem cntV_apply (d : Fin 8) : cntV C (ix1 d) = Cert.KSpec.hCnt C d := by
  unfold cntV Cert.KSpec.hCnt
  refine (shapeCast_apply _ shapeCasts_S8x1_S8 (ix1 d) (ix2 d (0 : Fin 1)) ?_).trans ?_
  · rw [Shape.rowMajor_val_one, Shape.rowMajor_val_two]
    show d.val * 1 + 0 = d.val
    omega
  refine (extractStridedSlice_apply ![0, 0] _ slices_S8x128_S8x1_0_0 (ix2 d (0 : Fin 1)) (ix2 d (0 : Fin 128)) ?_).trans ?_
  · intro a; fin_cases a
    · show d.val = 0 + d.val; omega
    · rfl
  exact halves_sum128 C d 0

/-- The divisor at domain d. -/
theorem safeV_apply (d : Fin 8) (j : Fin 1) : safeV C (ix2 d j) = Cert.Spec.safe (Cert.KSpec.hCnt C) d := by
  unfold safeV Cert.Spec.safe
  refine (broadcastInDim_apply ![0] bcast_S8_S8x1_0 _ (ix2 d j) (ix1 d) ?_).trans ?_
  · intro a; fin_cases a; rfl
  refine (maximumf_apply _ _ _).trans ?_
  refine congrArg₂ max (cntV_apply C d) ?_
  exact (scalar_bcast_apply bcast_S_S8 _ (ix1 d)).trans Cert.Consts.ofBits_one

end Reads

section Reads2

variable (C : FVec Ideal S2x8x128 .f32) (A B : FVec Ideal S2x8x512 .f32) (G Bt : FVec Ideal S8x512 .f32)

/-- A column spread along the features reads the column's entry of the row. -/
theorem col_bcast_apply {α : Type} (g : S8x1.Idx → α) (d : Fin 8) (f : Fin 512) :
    broadcastInDim S8x512 ![0, 1] bcast_S8x1_S8x512_0_1 g (ix2 d f) = g (ix2 d (0 : Fin 1)) := by
  refine broadcastInDim_apply ![0, 1] bcast_S8x1_S8x512_0_1 g (ix2 d f) (ix2 d (0 : Fin 1)) ?_
  intro a; fin_cases a <;> rfl

/-- A sum array's average at (d, f): the two halves added, over the divisor. -/
theorem avgV_apply (P : FVec Ideal S2x8x512 .f32) (d : Fin 8) (f : Fin 512) :
    avgV C P (ix2 d f) = Ideal.div (Cert.KSpec.hSum P d f) (Cert.Spec.safe (Cert.KSpec.hCnt C) d) := by
  unfold avgV
  show Ideal.div _ _ = _
  exact congrArg₂ Ideal.div (halves_sum512 P d f) ((col_bcast_apply _ d f).trans (safeV_apply C d 0))

/-- The variance at (d, f). -/
theorem varV_apply (d : Fin 8) (f : Fin 512) :
    varV C A B (ix2 d f)
      = Cert.Spec.var (Cert.KSpec.hCnt C) (Cert.KSpec.hSum A) (Cert.KSpec.hSum B) d f := by
  unfold varV Cert.Spec.var Cert.Spec.mean
  refine (subf_apply _ _ _).trans ?_
  refine congrArg₂ (· - ·) (avgV_apply C B d f) ?_
  refine (mulf_apply _ _ _).trans ?_
  exact congrArg₂ (· * ·) (avgV_apply C A d f) (avgV_apply C A d f)

/-- The guard at domain d: the comparison of the count with the constant. -/
theorem gtV_apply (k : BitVec 32) (d : Fin 8) (j : Fin 1) :
    gtV C k (ix2 d j) = Ideal.cmp .ogt (Cert.KSpec.hCnt C d) (Ideal.ofBits .f32 k) := by
  unfold gtV
  refine (broadcastInDim_apply ![0] bcast_S8_S8x1_0 _ (ix2 d j) (ix1 d) ?_).trans ?_
  · intro a; fin_cases a; rfl
  show Ideal.cmp .ogt _ _ = _
  exact congrArg₂ (Ideal.cmp .ogt) (cntV_apply C d) (scalar_bcast_apply bcast_S_S8 _ (ix1 d))

/-- A choice on the bit of "b < a" is the choice on the proposition. -/
theorem select_gt {α : Type} (a b : EReal) (x y : α) :
    Scalar.select (Ideal.cmp .ogt a b) x y = if b < a then x else y := by
  unfold Scalar.select Ideal.cmp
  by_cases h : b < a
  · simp [h]
  · simp [h]

/-- The choice at (d, f): on the guard's bit at d, the table's entry or the constant. -/
theorem whereV_apply (g : IVec S8x1 1) (T : FVec Ideal S8x512 .f32) (z : FVec Ideal S_ .f32) (d : Fin 8) (f : Fin 512) :
    whereV g T z (ix2 d f) = Scalar.select (g (ix2 d (0 : Fin 1))) (T (ix2 d f)) (z ix0) := by
  unfold whereV
  refine (select_apply _ _ _ _).trans ?_
  exact congrArg₂ (fun b w => Scalar.select b (T (ix2 d f)) w) (col_bcast_apply g d f) (scalar_bcast_apply bcast_S_S8x512 _ (ix2 d f))

/-- The reciprocal square root at (d, f). -/
theorem invV_apply (d : Fin 8) (f : Fin 512) :
    invV C A B (ix2 d f)
      = Cert.Spec.inv (Cert.KSpec.hCnt C) (Cert.KSpec.hSum A) (Cert.KSpec.hSum B) ((Cert.Consts.epsR : ℝ) : EReal) d f := by
  unfold invV Cert.Spec.inv Cert.Spec.varE
  show Ideal.rsqrt _ = _
  refine congrArg Ideal.rsqrt ?_
  refine (addf_apply _ _ _).trans ?_
  refine congrArg₂ (· + ·) ?_ ((scalar_bcast_apply bcast_S_S8x512 _ (ix2 d f)).trans Cert.Consts.ofBits_eps)
  refine (whereV_apply _ _ _ d f).trans ?_
  rw [gtV_apply, Cert.Consts.ofBits_one, select_gt, varV_apply]
  exact congrArg (fun w => if 1 < Cert.KSpec.hCnt C d then _ else w) Cert.Consts.ofBits_one

/-- The scale table at (d, f). -/
theorem scaleV_apply (d : Fin 8) (f : Fin 512) :
    scaleV C A B G (ix2 d f)
      = Cert.Spec.scale (Cert.KSpec.hCnt C) (Cert.KSpec.hSum A) (Cert.KSpec.hSum B) (fun d f => G (ix2 d f))
          ((Cert.Consts.epsR : ℝ) : EReal) d f := by
  unfold scaleV Cert.Spec.scale
  refine (whereV_apply _ _ _ d f).trans ?_
  rw [gtV_apply, Cert.Consts.ofBits_zero, select_gt, mulf_apply, invV_apply]
  exact congrArg (fun w => if 0 < Cert.KSpec.hCnt C d then _ else w) Cert.Consts.ofBits_zero

/-- The bias table at (d, f). -/
theorem biasV_apply (d : Fin 8) (f : Fin 512) :
    biasV C A B G Bt (ix2 d f)
      = Cert.Spec.bias (Cert.KSpec.hCnt C) (Cert.KSpec.hSum A) (Cert.KSpec.hSum B) (fun d f => G (ix2 d f))
          (fun d f => Bt (ix2 d f)) ((Cert.Consts.epsR : ℝ) : EReal) d f := by
  unfold biasV Cert.Spec.bias Cert.Spec.meanE Cert.Spec.mean
  refine (whereV_apply _ _ _ d f).trans ?_
  rw [gtV_apply, Cert.Consts.ofBits_zero, select_gt, subf_apply, mulf_apply, mulf_apply, invV_apply, whereV_apply,
    gtV_apply, Cert.Consts.ofBits_one, select_gt, avgV_apply]
  have e0 : constant (F := Ideal) S_ .f32 0x00000000#32 ix0 = (0 : EReal) := Cert.Consts.ofBits_zero
  rw [e0]

end Reads2

/-! ## The two tables at the normalising region's entry, as those terms over the statistics region's exit -/

/-- The scale table's buffer holds the scale term of the three result arrays and the first parameter table as the
    statistics region's exit has them. -/
theorem W10_scale_term (c : Dev nD) :
    W10 m ρ c (Proc.devRef .tc main_v31)
      = scaleV (W2 m ρ c (Proc.devRef .tc main_v1_2)) (W2 m ρ c (Proc.devRef .tc main_v1_0)) (W2 m ρ c (Proc.devRef .tc main_v1_1))
          (W2 m ρ c (Proc.devRef .tc main_arg2)) := by
  show StableHlo.after hostOps1_7 (StableHlo.after hostOps1_6 (StableHlo.after hostOps1_5 (StableHlo.after hostOps1_4
    (StableHlo.after hostOps1_3 (StableHlo.after hostOps1_2 (StableHlo.after hostOps1_1 (StableHlo.after hostOps1 (W2 m ρ c))))))))
    (Proc.devRef .tc main_v31) = _
  after_results_simp
  rfl

/-- The bias table's buffer likewise, with both parameter tables. -/
theorem W10_bias_term (c : Dev nD) :
    W10 m ρ c (Proc.devRef .tc main_v32)
      = biasV (W2 m ρ c (Proc.devRef .tc main_v1_2)) (W2 m ρ c (Proc.devRef .tc main_v1_0)) (W2 m ρ c (Proc.devRef .tc main_v1_1))
          (W2 m ρ c (Proc.devRef .tc main_arg2)) (W2 m ρ c (Proc.devRef .tc main_arg3)) := by
  show StableHlo.after hostOps1_7 (StableHlo.after hostOps1_6 (StableHlo.after hostOps1_5 (StableHlo.after hostOps1_4
    (StableHlo.after hostOps1_3 (StableHlo.after hostOps1_2 (StableHlo.after hostOps1_1 (StableHlo.after hostOps1 (W2 m ρ c))))))))
    (Proc.devRef .tc main_v32) = _
  after_results_simp
  rfl

/-! ## The two parameter tables are as launched at the statistics region's exit -/

theorem W1_arg2 (c : Dev nD) : W1 m ρ c (Proc.devRef .tc main_arg2) = m ((c.tc : Thread nD τ).loc main_arg2) := by
  show StableHlo.after hostOps0 (W0 m ρ c) (Proc.devRef .tc main_arg2) = _
  after_results_simp

theorem W1_arg3 (c : Dev nD) : W1 m ρ c (Proc.devRef .tc main_arg3) = m ((c.tc : Thread nD τ).loc main_arg3) := by
  show StableHlo.after hostOps0 (W0 m ρ c) (Proc.devRef .tc main_arg3) = _
  after_results_simp

theorem W2_arg2 (c : Dev nD) : W2 m ρ c (Proc.devRef .tc main_arg2) = m ((c.tc : Thread nD τ).loc main_arg2) :=
  (W2_of_ne m ρ c main_arg2 (by decide)).trans (W1_arg2 m ρ c)

theorem W2_arg3 (c : Dev nD) : W2 m ρ c (Proc.devRef .tc main_arg3) = m ((c.tc : Thread nD τ).loc main_arg3) :=
  (W2_of_ne m ρ c main_arg3 (by decide)).trans (W1_arg3 m ρ c)

/-! ## The two tables the normalising region is entered with -/

/-- The scale table the normalising region is entered with: the per-domain chain over the host's sums of what the
    statistics region left. -/
theorem V10_scale (c : Dev nD) :
    (V10 m ρ c main_v31 : S8x512.Idx → EReal) = fun i =>
      Cert.Spec.scale (Cert.KSpec.hCnt (V2 m ρ c main_v1_2)) (Cert.KSpec.hSum (V2 m ρ c main_v1_0))
        (Cert.KSpec.hSum (V2 m ρ c main_v1_1)) (fun d f => m ((c.tc : Thread nD τ).loc main_arg2) (ix2 d f))
        ((Cert.Consts.epsR : ℝ) : EReal) (i 0) (i 1) := by
  funext i
  obtain ⟨d, f, rfl⟩ : ∃ d f, i = ix2 d f := ⟨i 0, i 1, eq_ix2 i⟩
  have e := W10_scale_term m ρ c
  rw [W2_arg2] at e
  exact (congrFun e (ix2 d f)).trans (scaleV_apply _ _ _ _ d f)

/-- The bias table the normalising region is entered with. -/
theorem V10_bias (c : Dev nD) :
    (V10 m ρ c main_v32 : S8x512.Idx → EReal) = fun i =>
      Cert.Spec.bias (Cert.KSpec.hCnt (V2 m ρ c main_v1_2)) (Cert.KSpec.hSum (V2 m ρ c main_v1_0))
        (Cert.KSpec.hSum (V2 m ρ c main_v1_1)) (fun d f => m ((c.tc : Thread nD τ).loc main_arg2) (ix2 d f))
        (fun d f => m ((c.tc : Thread nD τ).loc main_arg3) (ix2 d f))
        ((Cert.Consts.epsR : ℝ) : EReal) (i 0) (i 1) := by
  funext i
  obtain ⟨d, f, rfl⟩ : ∃ d f, i = ix2 d f := ⟨i 0, i 1, eq_ix2 i⟩
  have e := W10_bias_term m ρ c
  rw [W2_arg2, W2_arg3] at e
  exact (congrFun e (ix2 d f)).trans (biasV_apply _ _ _ _ _ d f)

end Cert.KernelIdeal.Glue

end
-- ==== Proof.Reindex.lean ====
import proofs.«403173_j9320079033284_2_alg».proof.Proof.Spec
import proofs.«403173_j9320079033284_2_alg».proof.Proof.KSpec
import Idealize.ShloMosaic.Lib.ValueIdx
import Mathlib.Algebra.BigOperators.Fin

noncomputable section

open scoped BigOperators

namespace Cert.Reindex

open Idealize.ShloMosaic Idealize.ShloMosaic.ValueIdx

/-! ## The rows, cut into halves, tiles and offsets

  Row `n` of the 262144 is `(c · 64 + s) · 2048 + r` for exactly one half `c < 2`, tile `s < 64` and
  offset `r < 2048`: `c = n / 131072`, `s = n / 2048 mod 64`, `r = n mod 2048`. So a sum over the rows is the
  triple sum over halves, tiles and offsets. -/

/-- (half, tile, offset) ↦ row is a bijection; its inverse is division with remainder. -/
def rowEquiv : Fin 2 × Fin 64 × Fin 2048 ≃ Fin 262144 where
  toFun p := Cert.KSpec.rowOf p.1 p.2.1 p.2.2
  invFun n :=
    (⟨n.val / 131072, by have := n.isLt; omega⟩, ⟨n.val / 2048 % 64, by omega⟩, ⟨n.val % 2048, by omega⟩)
  left_inv := by
    rintro ⟨c, s, r⟩
    have hc := c.isLt; have hs := s.isLt; have hr := r.isLt
    refine Prod.ext (Fin.ext ?_) (Prod.ext (Fin.ext ?_) (Fin.ext ?_))
    · show ((c.val * 64 + s.val) * 2048 + r.val) / 131072 = c.val
      omega
    · show ((c.val * 64 + s.val) * 2048 + r.val) / 2048 % 64 = s.val
      omega
    · show ((c.val * 64 + s.val) * 2048 + r.val) % 2048 = r.val
      omega
  right_inv := by
    intro n
    have hn := n.isLt
    refine Fin.ext ?_
    show (n.val / 131072 * 64 + n.val / 2048 % 64) * 2048 + n.val % 2048 = n.val
    omega

/-- A sum over all rows, taken half by half, tile by tile, offset by offset. -/
theorem sum_rows {M : Type*} [AddCommMonoid M] (g : Fin 262144 → M) :
    (∑ s : Fin 64, ∑ r : Fin 2048, g (Cert.KSpec.rowOf 0 s r))
      + (∑ s : Fin 64, ∑ r : Fin 2048, g (Cert.KSpec.rowOf 1 s r)) = ∑ n : Fin 262144, g n := by
  rw [← Equiv.sum_comp rowEquiv g, Fintype.sum_prod_type, Fin.sum_univ_two]
  refine congrArg₂ (· + ·) ?_ ?_
  · exact (Fintype.sum_prod_type (fun p : Fin 64 × Fin 2048 => g (rowEquiv ((0 : Fin 2), p)))).symm
  · exact (Fintype.sum_prod_type (fun p : Fin 64 × Fin 2048 => g (rowEquiv ((1 : Fin 2), p)))).symm

/-- Two numbers below 8 are the same 32-bit word only if they are the same number. -/
theorem ofNat_inj (a b : Fin 8) : BitVec.ofNat 32 a.val = BitVec.ofNat 32 b.val ↔ a = b := by
  constructor
  · intro h
    have h' := congrArg BitVec.toNat h
    rw [BitVec.toNat_ofNat, BitVec.toNat_ofNat] at h'
    have ha := a.isLt; have hb := b.isLt
    exact Fin.ext (by omega)
  · intro h; rw [h]

variable (X : (⟨2, ![262144, 512]⟩ : Shape).Idx → EReal) (Yw : (⟨1, ![262144]⟩ : Shape).Idx → BitVec 32)
  (lab : Fin 262144 → Fin 8) (hlab : ∀ n : Fin 262144, Yw (ix1 n) = BitVec.ofNat 32 (lab n).val)

include hlab

/-- The kernel's one-hot entry (label word compared with the domain's number) is the indicator of
    "row `n` belongs to domain `d`". -/
theorem hot_eq_ind (n : Fin 262144) (d : Fin 8) :
    Cert.KSpec.hot (Yw (ix1 n)) d = Cert.Spec.ind lab n d := by
  unfold Cert.KSpec.hot Cert.Spec.ind
  rw [hlab n]
  by_cases h : lab n = d
  · rw [if_pos h, if_pos ((ofNat_inj (lab n) d).mpr h)]
  · rw [if_neg h, if_neg (fun e => h ((ofNat_inj (lab n) d).mp e))]

theorem hSum_partSum :
    Cert.KSpec.hSum (Cert.KSpec.partSum X (fun i => Yw (ix1 (i 0)))) = Cert.Spec.s1Of (fun n f => X (ix2 n f)) lab := by
  funext d f
  -- each half's block is the half's rows' sum of indicator times entry; the two halves together are all rows
  refine Eq.trans ?_ (sum_rows (fun n => Cert.Spec.ind lab n d * X (ix2 n f)))
  refine congrArg₂ (· + ·) ?_ ?_
  · refine Finset.sum_congr rfl fun s _ => Finset.sum_congr rfl fun r _ => ?_
    exact congrArg (· * X (ix2 (Cert.KSpec.rowOf 0 s r) f)) (hot_eq_ind Yw lab hlab (Cert.KSpec.rowOf 0 s r) d)
  · refine Finset.sum_congr rfl fun s _ => Finset.sum_congr rfl fun r _ => ?_
    exact congrArg (· * X (ix2 (Cert.KSpec.rowOf 1 s r) f)) (hot_eq_ind Yw lab hlab (Cert.KSpec.rowOf 1 s r) d)

theorem hSum_partSumSq :
    Cert.KSpec.hSum (Cert.KSpec.partSumSq X (fun i => Yw (ix1 (i 0)))) = Cert.Spec.s2Of (fun n f => X (ix2 n f)) lab := by
  funext d f
  -- the same with the square of the entry in place of the entry
  refine Eq.trans ?_ (sum_rows (fun n => Cert.Spec.ind lab n d * (X (ix2 n f) * X (ix2 n f))))
  refine congrArg₂ (· + ·) ?_ ?_
  · refine Finset.sum_congr rfl fun s _ => Finset.sum_congr rfl fun r _ => ?_
    exact congrArg (· * (X (ix2 (Cert.KSpec.rowOf 0 s r) f) * X (ix2 (Cert.KSpec.rowOf 0 s r) f)))
      (hot_eq_ind Yw lab hlab (Cert.KSpec.rowOf 0 s r) d)
  · refine Finset.sum_congr rfl fun s _ => Finset.sum_congr rfl fun r _ => ?_
    exact congrArg (· * (X (ix2 (Cert.KSpec.rowOf 1 s r) f) * X (ix2 (Cert.KSpec.rowOf 1 s r) f)))
      (hot_eq_ind Yw lab hlab (Cert.KSpec.rowOf 1 s r) d)

theorem hCnt_partCnt :
    Cert.KSpec.hCnt (Cert.KSpec.partCnt (fun i => Yw (ix1 (i 0)))) = Cert.Spec.cntOf lab := by
  funext d
  -- the same with 1 in place of the entry: the count of the domain's rows
  refine Eq.trans ?_ (sum_rows (fun n => Cert.Spec.ind lab n d))
  refine congrArg₂ (· + ·) ?_ ?_
  · refine Finset.sum_congr rfl fun s _ => Finset.sum_congr rfl fun r _ => ?_
    exact hot_eq_ind Yw lab hlab (Cert.KSpec.rowOf 0 s r) d
  · refine Finset.sum_congr rfl fun s _ => Finset.sum_congr rfl fun r _ => ?_
    exact hot_eq_ind Yw lab hlab (Cert.KSpec.rowOf 1 s r) d

theorem normOut_eq (Sc Bi : Fin 8 → Fin 512 → EReal) (i : (⟨2, ![262144, 512]⟩ : Shape).Idx) :
    Cert.KSpec.normOut X (fun i => Yw (ix1 (i 0))) (fun j => Sc (j 0) (j 1)) (fun j => Bi (j 0) (j 1)) i
      = X i * (∑ d : Fin 8, Cert.Spec.ind lab (i 0) d * Sc d (i 1)) + ∑ d : Fin 8, Cert.Spec.ind lab (i 0) d * Bi d (i 1) := by
  -- only the one-hot entries change their name, domain by domain
  refine congrArg₂ (· + ·) (congrArg (X i * ·) ?_) ?_
  · refine Finset.sum_congr rfl fun d _ => ?_
    exact congrArg (· * Sc d (i 1)) (hot_eq_ind Yw lab hlab (i 0) d)
  · refine Finset.sum_congr rfl fun d _ => ?_
    exact congrArg (· * Bi d (i 1)) (hot_eq_ind Yw lab hlab (i 0) d)

end Cert.Reindex

end
-- ==== Proof.KernelValue.lean ====
/-
  The idealized kernel's result array, as the kernel's form of the mathematics (`Cert.Spec.kOut`).

  The result buffer ends at what the normalising region's write-backs leave: x · (Σ_d [label = d] · scale[d, f])
  + Σ_d [label = d] · bias[d, f] over the arrays that region is entered with. Those are the data and the label
  column as launched, and the scale and bias tables, which are the per-domain chain over the host's sums of the
  statistics region's three result arrays. Those three arrays are, per half of the rows, the sums over the half
  of the one-hot indicator times the entry, times its square, and alone; summed over the two halves and
  re-indexed by row they are the statistics of the data.
-/
import proofs.«403173_j9320079033284_2_alg».proof.Proof.StatsValue
import proofs.«403173_j9320079033284_2_alg».proof.Proof.StatsCount
import proofs.«403173_j9320079033284_2_alg».proof.Proof.NormValue
import proofs.«403173_j9320079033284_2_alg».proof.Proof.HostGlue
import proofs.«403173_j9320079033284_2_alg».proof.Proof.Reindex

set_option maxRecDepth 16384

noncomputable section

open scoped BigOperators

namespace Cert.KernelIdeal.KValue

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (ρ : Dev nD → PrngReg)

/-- What the statistics region leaves in its first result array: the per-half sums of the entries. -/
theorem stats_sums (c : Dev nD) :
    V2 m ρ c main_v1_0 = Cert.KSpec.partSum (m ((c.tc : Thread nD τ).loc main_arg0)) (fun i => m ((c.tc : Thread nD τ).loc main_arg1) (ix1 (i 0))) := by
  rw [show V2 m ρ c main_v1_0 = (dat0 (V1 m ρ) c).arrAt 2 cfg0.N from W2_arr m ρ c 2,
    Cert.KernelIdeal.Stats.sums_final, Cert.KernelIdeal.Glue.V1_arg0, Cert.KernelIdeal.Glue.V1_v0]
  rfl

/-- … in its second: the per-half sums of the squares. -/
theorem stats_sumsq (c : Dev nD) :
    V2 m ρ c main_v1_1 = Cert.KSpec.partSumSq (m ((c.tc : Thread nD τ).loc main_arg0)) (fun i => m ((c.tc : Thread nD τ).loc main_arg1) (ix1 (i 0))) := by
  rw [show V2 m ρ c main_v1_1 = (dat0 (V1 m ρ) c).arrAt 3 cfg0.N from W2_arr m ρ c 3,
    Cert.KernelIdeal.Stats.sumsq_final, Cert.KernelIdeal.Glue.V1_arg0, Cert.KernelIdeal.Glue.V1_v0]
  rfl

/-- … in its third: the per-half counts. -/
theorem stats_counts (c : Dev nD) :
    V2 m ρ c main_v1_2 = Cert.KSpec.partCnt (fun i => m ((c.tc : Thread nD τ).loc main_arg1) (ix1 (i 0))) := by
  rw [show V2 m ρ c main_v1_2 = (dat0 (V1 m ρ) c).arrAt 4 cfg0.N from W2_arr m ρ c 4,
    Cert.KernelIdeal.StatsCount.counts_final, Cert.KernelIdeal.Glue.V1_v0]
  rfl

/-- The result array of the idealized kernel, where the labels are the words of `lab`. -/
theorem kernel_value (lab : Fin 262144 → Fin 8) (c : Dev nD)
    (hlab : ∀ n : Fin 262144, m ((c.tc : Thread nD τ).loc main_arg1) (ix1 n) = BitVec.ofNat 32 (lab n).val) :
    (W11 m ρ c (Proc.devRef .tc main_v33) : S262144x512.Idx → EReal) = fun i =>
      Cert.Spec.kOut (fun n f => m ((c.tc : Thread nD τ).loc main_arg0) (ix2 n f)) lab
        (fun d f => m ((c.tc : Thread nD τ).loc main_arg2) (ix2 d f))
        (fun d f => m ((c.tc : Thread nD τ).loc main_arg3) (ix2 d f))
        ((Cert.Consts.epsR : ℝ) : EReal) (i 0) (i 1) := by
  rw [show W11 m ρ c (Proc.devRef .tc main_v33) = (dat1 (V10 m ρ) c).arrAt 4 cfg1.N from W11_arr m ρ c 4,
    Cert.KernelIdeal.Norm.norm_final, Cert.KernelIdeal.Glue.V10_arg0, Cert.KernelIdeal.Glue.V10_v0,
    Cert.KernelIdeal.Glue.V10_scale, Cert.KernelIdeal.Glue.V10_bias, stats_sums, stats_sumsq, stats_counts]
  have hs1 := Cert.Reindex.hSum_partSum (m ((c.tc : Thread nD τ).loc main_arg0)) (m ((c.tc : Thread nD τ).loc main_arg1)) lab hlab
  have hs2 := Cert.Reindex.hSum_partSumSq (m ((c.tc : Thread nD τ).loc main_arg0)) (m ((c.tc : Thread nD τ).loc main_arg1)) lab hlab
  have hc := Cert.Reindex.hCnt_partCnt (m ((c.tc : Thread nD τ).loc main_arg1)) lab hlab
  rw [hs1, hs2, hc]
  funext i
  obtain ⟨n, f, rfl⟩ : ∃ (n : Fin 262144) (f : Fin 512), i = ix2 n f := ⟨i 0, i 1, eq_ix2 i⟩
  exact Cert.Reindex.normOut_eq (m ((c.tc : Thread nD τ).loc main_arg0)) (m ((c.tc : Thread nD τ).loc main_arg1)) lab hlab
    (Cert.Spec.scale (Cert.Spec.cntOf lab) (Cert.Spec.s1Of (fun n f => m ((c.tc : Thread nD τ).loc main_arg0) (ix2 n f)) lab)
      (Cert.Spec.s2Of (fun n f => m ((c.tc : Thread nD τ).loc main_arg0) (ix2 n f)) lab)
      (fun d f => m ((c.tc : Thread nD τ).loc main_arg2) (ix2 d f)) ((Cert.Consts.epsR : ℝ) : EReal))
    (Cert.Spec.bias (Cert.Spec.cntOf lab) (Cert.Spec.s1Of (fun n f => m ((c.tc : Thread nD τ).loc main_arg0) (ix2 n f)) lab)
      (Cert.Spec.s2Of (fun n f => m ((c.tc : Thread nD τ).loc main_arg0) (ix2 n f)) lab)
      (fun d f => m ((c.tc : Thread nD τ).loc main_arg2) (ix2 d f)) (fun d f => m ((c.tc : Thread nD τ).loc main_arg3) (ix2 d f))
      ((Cert.Consts.epsR : ℝ) : EReal)) (ix2 n f)

end Cert.KernelIdeal.KValue

end
-- ==== Proof.RefValue.lean ====
/-
  The reference program's result, read stage by stage, is `Cert.Spec.rOut`, index by index.

  Under `hlab` the label word of row `n` is the number `lab n < 8`. Then:
  * the update of a scatter-add indexed (n, f) (for the counts: n) lands at (lab n, f) (at lab n): its start index is the
    label read as a signed integer, which is in range, so no update is dropped. Entry (d, f) of a scattered table is
    therefore the zero it started from plus the sum over the rows n of [lab n = d] · update(n, f): the count, the sum and
    the sum of squares of `Cert.Spec`;
  * the elementwise stages at (d, f) are `safe`, `mean`, `var`, `meanE`, `varE`, `inv` of `Cert.Spec`; a compare
    "greater than" under a select is the `if` on the order of the extended reals;
  * the start index a gather reads is `select (y < 0) (y + 8) y`, which is the label's word because the label is not
    negative; read signed and clamped into [0, 7] it is `lab n`, so the gathered row is the table's row `lab n`;
  * the last select, on "the count of row n's domain is positive", is `rOut`'s `if`.
-/
import proofs.«403173_j9320079033284_2_alg».proof.Proof.RefRead
import proofs.«403173_j9320079033284_2_alg».proof.Proof.Spec
import proofs.«403173_j9320079033284_2_alg».proof.Proof.Consts
import Idealize.ShloMosaic.Lib.Pipeline.Value
import Idealize.ShloMosaic.Lib.ValueIdx
import Idealize.ShloMosaic.Lib.ValueLayout
import Idealize.ShloMosaic.Lib.StableHlo.Predicate
import Idealize.ShloMosaic.PureOps.Ideal.Laws

set_option maxRecDepth 16384

noncomputable section

open scoped BigOperators

namespace Cert.ReferenceIdeal.RefValue

open Cert.ReferenceIdeal Cert.ReferenceIdeal.Gen Idealize.ShloMosaic Idealize.ShloMosaic.TcCoe Idealize.ShloMosaic.ValueIdx Idealize.SL.Sem

/-! ## The label's word: not negative, unchanged by the wrap of negative indices, and its own clamp into [0, 7] -/

/-- A number below 8, as a 32-bit word, reads the same signed. -/
theorem lab_toInt (k : Fin 8) : (BitVec.ofNat 32 k.val).toInt = (k.val : Int) :=
  StableHlo.Predicate.toInt_ofNat_small k.val (by have := k.isLt; omega)

/-- Such a word is not below zero in the signed order. -/
theorem lab_not_neg (k : Fin 8) : IntOp.cmpi .slt (BitVec.ofNat 32 k.val) 0#32 = 0#1 := by
  refine eq_zero_of_ne_one ?_
  intro h
  have := (StableHlo.Predicate.slt_iff_toNat (a := BitVec.ofNat 32 k.val) (b := 0#32) (by simp [BitVec.toNat_ofNat]; have := k.isLt; omega) (by decide)).mp h
  simp at this

/-- So the wrap of a negative index, `select (y < 0) (y + 8) y`, leaves it. -/
theorem wrap_lab (k : Fin 8) :
    Scalar.select (IntOp.cmpi .slt (BitVec.ofNat 32 k.val) 0#32) (IntOp.addi (BitVec.ofNat 32 k.val) 8#32) (BitVec.ofNat 32 k.val)
      = BitVec.ofNat 32 k.val := by
  rw [lab_not_neg, select_zero]

/-- And the clamp of its signed value into [0, 7] is the number. -/
theorem clamp_lab (k : Fin 8) : min (BitVec.ofNat 32 k.val).toInt.toNat 7 = k.val := by
  rw [lab_toInt]; have := k.isLt; simp; omega

/-! ## The row gather of an [8, 512] table at a column of start indices -/

abbrev gd2 := gather_S8x512_S262144x1_S262144x512_1_0_n_n_0_1_1512

/-- Result element (n, f) is the table at (start, f): on the collapsed axis 0 the start index `idx[n, 0]` read signed and
    clamped into [0, 8 − 1]; on the offset axis 1 the start is 0 and the offset coordinate is `f`. -/
theorem gather2_apply {α : Type} (x : S8x512.Idx → α) (idx : IVec S262144x1 32) (n : Fin 262144) (f : Fin 512) :
    Host.gather gd2 x idx (ix2 n f)
      = x (ix2 (⟨min (idx (ix2 n (0 : Fin 1))).toInt.toNat 7, by omega⟩ : Fin 8) f) := by
  unfold Host.gather
  refine congrArg x ?_
  funext a
  refine Fin.ext ?_
  match a with
  | ⟨0, _⟩ =>
    show gd2.start (ix2 n f) idx 0 + gd2.batchCoord (ix2 n f) 0 + gd2.offCoord (ix2 n f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gd2.startIndexMap from List.mem_singleton.mpr rfl)]
    have hsi : gd2.siIdx (ix2 n f) ⟨List.idxOf (0 : Fin 2) gd2.startIndexMap,
        List.idxOf_lt_length_iff.2 (List.mem_singleton.mpr rfl)⟩ = ix2 n (0 : Fin 1) := by
      funext b; refine Fin.ext ?_
      match b with
      | ⟨0, _⟩ => rfl
      | ⟨1, _⟩ => rfl
    rw [hsi]
    rfl
  | ⟨1, _⟩ =>
    show gd2.start (ix2 n f) idx 1 + gd2.batchCoord (ix2 n f) 1 + gd2.offCoord (ix2 n f) 1 = _
    rw [GatherDims.batchCoord_eq_zero _ _ _ List.not_mem_nil]
    unfold GatherDims.start
    rw [dif_neg (show ¬ (1 : Fin 2) ∈ gd2.startIndexMap from by decide)]
    unfold GatherDims.offCoord
    rw [dif_pos (show (1 : Fin 2) ∈ gd2.sKept from by decide)]
    simp only [Nat.zero_add]
    rfl

abbrev gd1 := gather_S8_S262144x1_S262144_n_0_n_n_0_1_1
abbrev sd1 := scatter_S8_S262144x1_S262144_n_0_0_1
abbrev sd2 := scatter_S8x512_S262144x1_S262144x512_1_0_0_1

/-- The same for a table [8] with no offset axis: result element n is the table at the clamped start index `idx[n, 0]`. -/
theorem gather1_apply {α : Type} (x : S8.Idx → α) (idx : IVec S262144x1 32) (n : Fin 262144) :
    Host.gather gd1 x idx (ix1 n)
      = x (ix1 (⟨min (idx (ix2 n (0 : Fin 1))).toInt.toNat 7, by omega⟩ : Fin 8)) := by
  unfold Host.gather
  refine congrArg x ?_
  funext a
  refine Fin.ext ?_
  match a with
  | ⟨0, _⟩ =>
    show gd1.start (ix1 n) idx 0 + gd1.batchCoord (ix1 n) 0 + gd1.offCoord (ix1 n) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ gd1.startIndexMap from List.mem_singleton.mpr rfl)]
    have hsi : gd1.siIdx (ix1 n) ⟨List.idxOf (0 : Fin 1) gd1.startIndexMap,
        List.idxOf_lt_length_iff.2 (List.mem_singleton.mpr rfl)⟩ = ix2 n (0 : Fin 1) := by
      funext b; refine Fin.ext ?_
      match b with
      | ⟨0, _⟩ => rfl
      | ⟨1, _⟩ => rfl
    rw [hsi]
    rfl

/-! ## Where an update lands -/

/-- The window of update (n, f) starts, on axis 0, at the signed value of `idx[n, 0]` (not clamped) … -/
theorem sd2_start0 (idx : IVec S262144x1 32) (n : Fin 262144) (f : Fin 512) :
    sd2.start (ix2 n f) idx 0 = (idx (ix2 n (0 : Fin 1))).toInt := by
  unfold ScatterDims.start
  rw [dif_pos (show (0 : Fin 2) ∈ sd2.scatterDimsToOperandDims from List.mem_singleton.mpr rfl)]
  have hsi : sd2.siIdx (ix2 n f) ⟨List.idxOf (0 : Fin 2) sd2.scatterDimsToOperandDims,
      List.idxOf_lt_length_iff.2 (List.mem_singleton.mpr rfl)⟩ = ix2 n (0 : Fin 1) := by
    funext b; refine Fin.ext ?_
    match b with
    | ⟨0, _⟩ => rfl
    | ⟨1, _⟩ => rfl
  rw [hsi]

/-- … and at 0 on axis 1, which the scatter indices do not name; -/
theorem sd2_start1 (idx : IVec S262144x1 32) (n : Fin 262144) (f : Fin 512) :
    sd2.start (ix2 n f) idx 1 = 0 := by
  unfold ScatterDims.start
  rw [dif_neg (show ¬ (1 : Fin 2) ∈ sd2.scatterDimsToOperandDims from by decide)]

/-- its window coordinate is 0 on the inserted axis 0 … -/
theorem sd2_window0 (n : Fin 262144) (f : Fin 512) : sd2.window (ix2 n f) 0 = 0 := by
  unfold ScatterDims.window
  rw [dif_neg (show ¬ (0 : Fin 2) ∈ sd2.sKept from by decide)]

/-- … and `f` on axis 1. -/
theorem sd2_window1 (n : Fin 262144) (f : Fin 512) : sd2.window (ix2 n f) 1 = f.val := by
  unfold ScatterDims.window
  rw [dif_pos (show (1 : Fin 2) ∈ sd2.sKept from by decide)]
  rfl

/-- So when `idx[n, 0]` is a number `k < 8`, update (n, f) lands at (k, f): both coordinates are in range. -/
theorem sd2_lands (idx : IVec S262144x1 32) (n : Fin 262144) (f : Fin 512) (k : Fin 8)
    (hk : (idx (ix2 n (0 : Fin 1))).toInt = (k.val : Int)) :
    sd2.resultIdx? (ix2 n f) idx = some (ix2 k f) := by
  unfold ScatterDims.resultIdx?
  have h : ∀ a : Fin S8x512.rank, 0 ≤ sd2.start (ix2 n f) idx a + sd2.window (ix2 n f) a ∧
      sd2.start (ix2 n f) idx a + sd2.window (ix2 n f) a < S8x512.size a := by
    intro a
    match a with
    | ⟨0, _⟩ =>
      show 0 ≤ sd2.start (ix2 n f) idx 0 + sd2.window (ix2 n f) 0 ∧ sd2.start (ix2 n f) idx 0 + sd2.window (ix2 n f) 0 < (8 : Nat)
      rw [sd2_start0, sd2_window0, hk]; have := k.isLt; omega
    | ⟨1, _⟩ =>
      show 0 ≤ sd2.start (ix2 n f) idx 1 + sd2.window (ix2 n f) 1 ∧ sd2.start (ix2 n f) idx 1 + sd2.window (ix2 n f) 1 < (512 : Nat)
      rw [sd2_start1, sd2_window1]; have := f.isLt; omega
  rw [dif_pos h]
  refine congrArg some ?_
  funext a
  refine Fin.ext ?_
  match a with
  | ⟨0, _⟩ =>
    show (sd2.start (ix2 n f) idx 0 + sd2.window (ix2 n f) 0).toNat = k.val
    rw [sd2_start0, sd2_window0, hk]; omega
  | ⟨1, _⟩ =>
    show (sd2.start (ix2 n f) idx 1 + sd2.window (ix2 n f) 1).toNat = f.val
    rw [sd2_start1, sd2_window1]; omega

theorem sd1_start0 (idx : IVec S262144x1 32) (n : Fin 262144) :
    sd1.start (ix1 n) idx 0 = (idx (ix2 n (0 : Fin 1))).toInt := by
  unfold ScatterDims.start
  rw [dif_pos (show (0 : Fin 1) ∈ sd1.scatterDimsToOperandDims from List.mem_singleton.mpr rfl)]
  have hsi : sd1.siIdx (ix1 n) ⟨List.idxOf (0 : Fin 1) sd1.scatterDimsToOperandDims,
      List.idxOf_lt_length_iff.2 (List.mem_singleton.mpr rfl)⟩ = ix2 n (0 : Fin 1) := by
    funext b; refine Fin.ext ?_
    match b with
    | ⟨0, _⟩ => rfl
    | ⟨1, _⟩ => rfl
  rw [hsi]

theorem sd1_window0 (n : Fin 262144) : sd1.window (ix1 n) 0 = 0 := by
  unfold ScatterDims.window
  rw [dif_neg (show ¬ (0 : Fin 1) ∈ sd1.sKept from by decide)]

/-- For the rank-1 table: when `idx[n, 0]` is a number `k < 8`, update n lands at k. -/
theorem sd1_lands (idx : IVec S262144x1 32) (n : Fin 262144) (k : Fin 8)
    (hk : (idx (ix2 n (0 : Fin 1))).toInt = (k.val : Int)) :
    sd1.resultIdx? (ix1 n) idx = some (ix1 k) := by
  unfold ScatterDims.resultIdx?
  have h : ∀ a : Fin S8.rank, 0 ≤ sd1.start (ix1 n) idx a + sd1.window (ix1 n) a ∧
      sd1.start (ix1 n) idx a + sd1.window (ix1 n) a < S8.size a := by
    intro a
    match a with
    | ⟨0, _⟩ =>
      show 0 ≤ sd1.start (ix1 n) idx 0 + sd1.window (ix1 n) 0 ∧ sd1.start (ix1 n) idx 0 + sd1.window (ix1 n) 0 < (8 : Nat)
      rw [sd1_start0, sd1_window0, hk]; have := k.isLt; omega
  rw [dif_pos h]
  refine congrArg some ?_
  funext a
  refine Fin.ext ?_
  match a with
  | ⟨0, _⟩ =>
    show (sd1.start (ix1 n) idx 0 + sd1.window (ix1 n) 0).toNat = k.val
    rw [sd1_start0, sd1_window0, hk]; omega

/-! ## Sums over index sets by coordinates, and equality of indices by coordinates -/

def idxEquiv1 {n : Nat} : (⟨1, ![n]⟩ : Shape).Idx ≃ Fin n where
  toFun i := i 0
  invFun a := ix1 a
  left_inv i := (eq_ix1 i).symm
  right_inv _ := rfl

theorem sum_idx1 {M : Type*} [AddCommMonoid M] {n : Nat} (g : (⟨1, ![n]⟩ : Shape).Idx → M) :
    ∑ i, g i = ∑ a : Fin n, g (ix1 a) := by
  rw [← Equiv.sum_comp (idxEquiv1 (n := n)).symm g]
  rfl

theorem ix2_inj {n0 n1 : Nat} (a a' : Fin n0) (b b' : Fin n1) : ix2 a b = ix2 a' b' ↔ a = a' ∧ b = b' :=
  ⟨fun h => ⟨congrFun h 0, congrFun h 1⟩, fun h => by rw [h.1, h.2]⟩

theorem ix1_inj {n0 : Nat} (a a' : Fin n0) : ix1 a = ix1 a' ↔ a = a' :=
  ⟨fun h => congrFun h 0, fun h => by rw [h]⟩

/-! ## The scatter-adds: each table entry gathers the updates of the rows labelled with its domain -/

/-- Entry (d, f) is the operand's plus the sum of the updates that land there. Update (n, f') lands at (lab n, f'), so the
    filtered sum over all (n, f') is, row by row, the one term f' = f when lab n = d and nothing otherwise:
    Σ_n [lab n = d] · upd(n, f). -/
theorem scatter2_apply (x : (⟨S8x512, .f32⟩ : BufTy).Contents (Elt Ideal)) (idx : IVec S262144x1 32)
    (upd : (⟨S262144x512, .f32⟩ : BufTy).Contents (Elt Ideal)) (lab : Fin 262144 → Fin 8)
    (hidx : ∀ n, (idx (ix2 n (0 : Fin 1))).toInt = ((lab n).val : Int)) (d : Fin 8) (f : Fin 512) :
    Host.scatterAdd (F := Ideal) (φ := .f32) sd2 x idx upd (ix2 d f)
      = x (ix2 d f) + ∑ n : Fin 262144, Cert.Spec.ind lab n d * upd (ix2 n f) := by
  show x (ix2 d f) + ∑ j ∈ Finset.univ.filter (fun j => sd2.resultIdx? j idx = some (ix2 d f)), upd j = _
  refine congrArg (fun s => x (ix2 d f) + s) ?_
  rw [Finset.sum_filter, sum_idx2]
  refine Finset.sum_congr rfl fun n _ => ?_
  have e : ∀ f' : Fin 512, (if sd2.resultIdx? (ix2 n f') idx = some (ix2 d f) then upd (ix2 n f') else 0)
      = if f' = f then (if lab n = d then upd (ix2 n f') else 0) else 0 := by
    intro f'
    rw [sd2_lands idx n f' (lab n) (hidx n)]
    by_cases h1 : lab n = d
    · by_cases h2 : f' = f
      · rw [if_pos (by rw [h1, h2]), if_pos h2, if_pos h1]
      · rw [if_neg (fun h => h2 ((ix2_inj _ _ _ _).mp (Option.some.inj h)).2), if_neg h2]
    · rw [if_neg (fun h => h1 ((ix2_inj _ _ _ _).mp (Option.some.inj h)).1)]
      by_cases h2 : f' = f
      · rw [if_pos h2, if_neg h1]
      · rw [if_neg h2]
  rw [Finset.sum_congr rfl (fun f' _ => e f'), Finset.sum_ite_eq' Finset.univ f, if_pos (Finset.mem_univ f)]
  unfold Cert.Spec.ind
  by_cases h1 : lab n = d
  · rw [if_pos h1, if_pos h1, one_mul]
  · rw [if_neg h1, if_neg h1, zero_mul]

/-- Entry d of the rank-1 table: the operand's plus Σ_n [lab n = d] · upd(n). -/
theorem scatter1_apply (x : (⟨S8, .f32⟩ : BufTy).Contents (Elt Ideal)) (idx : IVec S262144x1 32)
    (upd : (⟨S262144, .f32⟩ : BufTy).Contents (Elt Ideal)) (lab : Fin 262144 → Fin 8)
    (hidx : ∀ n, (idx (ix2 n (0 : Fin 1))).toInt = ((lab n).val : Int)) (d : Fin 8) :
    Host.scatterAdd (F := Ideal) (φ := .f32) sd1 x idx upd (ix1 d)
      = x (ix1 d) + ∑ n : Fin 262144, Cert.Spec.ind lab n d * upd (ix1 n) := by
  show x (ix1 d) + ∑ j ∈ Finset.univ.filter (fun j => sd1.resultIdx? j idx = some (ix1 d)), upd j = _
  refine congrArg (fun s => x (ix1 d) + s) ?_
  rw [Finset.sum_filter, sum_idx1]
  refine Finset.sum_congr rfl fun n _ => ?_
  rw [sd1_lands idx n (lab n) (hidx n)]
  unfold Cert.Spec.ind
  by_cases h1 : lab n = d
  · rw [if_pos (by rw [h1]), if_pos h1, one_mul]
  · rw [if_neg (fun h => h1 ((ix1_inj _ _).mp (Option.some.inj h))), if_neg h1, zero_mul]

/-! ## The label column the scatters and gathers read -/

abbrev TX := (⟨S262144x512, .f32⟩ : BufTy).Contents (Elt Ideal)
abbrev TY := (⟨S262144, .i32⟩ : BufTy).Contents (Elt Ideal)
abbrev TG := (⟨S8x512, .f32⟩ : BufTy).Contents (Elt Ideal)

theorem col_idx_v2 (n : Fin 262144) : ReadP.idx_main_v2 (ix2 n (0 : Fin 1)) = ix1 n :=
  funext fun a => Fin.ext (by match a with | ⟨0, _⟩ => rfl)
theorem col_idx_v5 (n : Fin 262144) : ReadP.idx_main_v5 (ix2 n (0 : Fin 1)) = ix1 n :=
  funext fun a => Fin.ext (by match a with | ⟨0, _⟩ => rfl)
theorem col_idx_v9 (n : Fin 262144) : ReadP.idx_main_v9 (ix2 n (0 : Fin 1)) = ix1 n :=
  funext fun a => Fin.ext (by match a with | ⟨0, _⟩ => rfl)

/-! ## The three statistics -/

/-- The counts: a zero table, updates all 1. -/
theorem cnt_at (x1 : TY) (lab : Fin 262144 → Fin 8)
    (hlab : ∀ n : Fin 262144, x1 (ix1 n) = BitVec.ofNat 32 (lab n).val) (d : Fin 8) :
    ReadP.val_main_v3 (F := Ideal) x1 (ix1 d) = Cert.Spec.cntOf lab d := by
  unfold ReadP.val_main_v3
  rw [scatter1_apply _ _ _ lab (fun n => by rw [ReadP.val_main_v2_apply, col_idx_v2, hlab n, lab_toInt]) d]
  rw [ReadP.val_main_v1_apply, ReadP.val_main_cst_0_apply, Ideal.ofBits_def, Cert.Consts.ofBits_zero, zero_add]
  unfold Cert.Spec.cntOf
  refine Finset.sum_congr rfl fun n _ => ?_
  rw [ReadP.val_main_v0_apply, ReadP.val_main_cst_apply, Ideal.ofBits_def, Cert.Consts.ofBits_one, mul_one]

/-- The sums: a zero table, updates the data. -/
theorem s1_at (x0 : TX) (x1 : TY) (lab : Fin 262144 → Fin 8)
    (hlab : ∀ n : Fin 262144, x1 (ix1 n) = BitVec.ofNat 32 (lab n).val) (d : Fin 8) (f : Fin 512) :
    ReadP.val_main_v6 (F := Ideal) x0 x1 (ix2 d f) = Cert.Spec.s1Of (fun n f => x0 (ix2 n f)) lab d f := by
  unfold ReadP.val_main_v6
  rw [scatter2_apply _ _ _ lab (fun n => by rw [ReadP.val_main_v5_apply, col_idx_v5, hlab n, lab_toInt]) d f]
  rw [ReadP.val_main_v4_apply, ReadP.val_main_cst_1_apply, Ideal.ofBits_def, Cert.Consts.ofBits_zero, zero_add]
  rfl

/-- The sums of squares: a zero table, updates the squares of the data. -/
theorem s2_at (x0 : TX) (x1 : TY) (lab : Fin 262144 → Fin 8)
    (hlab : ∀ n : Fin 262144, x1 (ix1 n) = BitVec.ofNat 32 (lab n).val) (d : Fin 8) (f : Fin 512) :
    ReadP.val_main_v10 (F := Ideal) x0 x1 (ix2 d f) = Cert.Spec.s2Of (fun n f => x0 (ix2 n f)) lab d f := by
  unfold ReadP.val_main_v10
  rw [scatter2_apply _ _ _ lab (fun n => by rw [ReadP.val_main_v9_apply, col_idx_v9, hlab n, lab_toInt]) d f]
  rw [ReadP.val_main_v8_apply, ReadP.val_main_cst_2_apply, Ideal.ofBits_def, Cert.Consts.ofBits_zero, zero_add]
  rfl

/-! ## The per-domain chain at (d, f) -/

/-- A select on the bit of the comparison "greater than" is the `if` on the order of the extended reals. -/
theorem select_ogt {α : Type} (a b : EReal) (u v : α) :
    Scalar.select (Ideal.cmp .ogt a b) u v = if b < a then u else v := by
  by_cases h : b < a
  · have e : Ideal.cmp .ogt a b = 1#1 := by
      unfold Ideal.cmp
      simp only [decide_eq_true h]
      rfl
    rw [e, if_pos h]; exact select_one u v
  · have e : Ideal.cmp .ogt a b = 0#1 := by
      unfold Ideal.cmp
      simp only [decide_eq_false h]
      rfl
    rw [e, if_neg h]; exact select_zero u v

theorem row_idx_v14 (d : Fin 8) (f : Fin 512) : ReadP.idx_main_v13 (ReadP.idx_main_v14 (ix2 d f)) = ix1 d :=
  funext fun a => Fin.ext (by match a with | ⟨0, _⟩ => rfl)
theorem row_idx_v16 (d : Fin 8) (f : Fin 512) : ReadP.idx_main_v13 (ReadP.idx_main_v16 (ix2 d f)) = ix1 d :=
  funext fun a => Fin.ext (by match a with | ⟨0, _⟩ => rfl)
theorem row_idx_call0 (d : Fin 8) (f : Fin 512) : ReadP.idx_main_v22 (ReadP.idx_main_call0_v1 (ix2 d f)) = ix1 d :=
  funext fun a => Fin.ext (by match a with | ⟨0, _⟩ => rfl)
theorem row_idx_call1 (d : Fin 8) (f : Fin 512) : ReadP.idx_main_v22 (ReadP.idx_main_call1_v1 (ix2 d f)) = ix1 d :=
  funext fun a => Fin.ext (by match a with | ⟨0, _⟩ => rfl)

/-- The divisor max(count, 1). -/
theorem safe_at (x1 : TY) (lab : Fin 262144 → Fin 8)
    (hlab : ∀ n : Fin 262144, x1 (ix1 n) = BitVec.ofNat 32 (lab n).val) (d : Fin 8) :
    ReadP.val_main_v12 (F := Ideal) x1 (ix1 d) = Cert.Spec.safe (Cert.Spec.cntOf lab) d := by
  rw [ReadP.val_main_v12_apply, cnt_at x1 lab hlab d, ReadP.val_main_v11_apply, ReadP.val_main_cst_3_apply,
    Ideal.ofBits_def, Cert.Consts.ofBits_one]
  rfl

theorem mean_at (x0 : TX) (x1 : TY) (lab : Fin 262144 → Fin 8)
    (hlab : ∀ n : Fin 262144, x1 (ix1 n) = BitVec.ofNat 32 (lab n).val) (d : Fin 8) (f : Fin 512) :
    ReadP.val_main_v15 (F := Ideal) x0 x1 (ix2 d f)
      = Cert.Spec.mean (Cert.Spec.cntOf lab) (Cert.Spec.s1Of (fun n f => x0 (ix2 n f)) lab) d f := by
  rw [ReadP.val_main_v15_apply, s1_at x0 x1 lab hlab d f, ReadP.val_main_v14_apply, ReadP.val_main_v13_apply,
    row_idx_v14, safe_at x1 lab hlab d]
  rfl

theorem var_at (x0 : TX) (x1 : TY) (lab : Fin 262144 → Fin 8)
    (hlab : ∀ n : Fin 262144, x1 (ix1 n) = BitVec.ofNat 32 (lab n).val) (d : Fin 8) (f : Fin 512) :
    ReadP.val_main_v19 (F := Ideal) x0 x1 (ix2 d f)
      = Cert.Spec.var (Cert.Spec.cntOf lab) (Cert.Spec.s1Of (fun n f => x0 (ix2 n f)) lab)
          (Cert.Spec.s2Of (fun n f => x0 (ix2 n f)) lab) d f := by
  rw [ReadP.val_main_v19_apply, ReadP.val_main_v17_apply, ReadP.val_main_v18_apply, mean_at x0 x1 lab hlab d f,
    s2_at x0 x1 lab hlab d f, ReadP.val_main_v16_apply, ReadP.val_main_v13_apply, row_idx_v16, safe_at x1 lab hlab d]
  rfl

/-- The bit "the domain has more than one row". -/
theorem many_at (x1 : TY) (lab : Fin 262144 → Fin 8)
    (hlab : ∀ n : Fin 262144, x1 (ix1 n) = BitVec.ofNat 32 (lab n).val) (d : Fin 8) :
    ReadP.val_main_v21 (F := Ideal) x1 (ix1 d) = Ideal.cmp .ogt (Cert.Spec.cntOf lab d) 1 := by
  rw [ReadP.val_main_v21_apply, cnt_at x1 lab hlab d, ReadP.val_main_v20_apply, ReadP.val_main_cst_4_apply,
    Ideal.ofBits_def, Cert.Consts.ofBits_one]
  rfl

theorem meanE_at (x0 : TX) (x1 : TY) (lab : Fin 262144 → Fin 8)
    (hlab : ∀ n : Fin 262144, x1 (ix1 n) = BitVec.ofNat 32 (lab n).val) (d : Fin 8) (f : Fin 512) :
    ReadP.val_main_v23 (F := Ideal) x0 x1 (ix2 d f)
      = Cert.Spec.meanE (Cert.Spec.cntOf lab) (Cert.Spec.s1Of (fun n f => x0 (ix2 n f)) lab) d f := by
  rw [ReadP.val_main_v23_apply, ReadP.val_main_call0_v1_apply, ReadP.val_main_v22_apply, row_idx_call0,
    many_at x1 lab hlab d, mean_at x0 x1 lab hlab d f, ReadP.val_main_call0_v2_apply, ReadP.val_main_call0_v0_apply,
    ReadP.val_main_cst_5_apply, Ideal.ofBits_def, Cert.Consts.ofBits_zero, select_ogt]
  rfl

theorem varE_at (x0 : TX) (x1 : TY) (lab : Fin 262144 → Fin 8)
    (hlab : ∀ n : Fin 262144, x1 (ix1 n) = BitVec.ofNat 32 (lab n).val) (d : Fin 8) (f : Fin 512) :
    ReadP.val_main_v24 (F := Ideal) x0 x1 (ix2 d f)
      = Cert.Spec.varE (Cert.Spec.cntOf lab) (Cert.Spec.s1Of (fun n f => x0 (ix2 n f)) lab)
          (Cert.Spec.s2Of (fun n f => x0 (ix2 n f)) lab) d f := by
  rw [ReadP.val_main_v24_apply, ReadP.val_main_call1_v1_apply, ReadP.val_main_v22_apply, row_idx_call1,
    many_at x1 lab hlab d, var_at x0 x1 lab hlab d f, ReadP.val_main_call1_v2_apply, ReadP.val_main_call1_v0_apply,
    ReadP.val_main_cst_6_apply, Ideal.ofBits_def, Cert.Consts.ofBits_one, select_ogt]
  rfl

theorem inv_at (x0 : TX) (x1 : TY) (lab : Fin 262144 → Fin 8)
    (hlab : ∀ n : Fin 262144, x1 (ix1 n) = BitVec.ofNat 32 (lab n).val) (d : Fin 8) (f : Fin 512) :
    ReadP.val_main_v27 (F := Ideal) x0 x1 (ix2 d f)
      = Cert.Spec.inv (Cert.Spec.cntOf lab) (Cert.Spec.s1Of (fun n f => x0 (ix2 n f)) lab)
          (Cert.Spec.s2Of (fun n f => x0 (ix2 n f)) lab) ((Cert.Consts.epsR : ℝ) : EReal) d f := by
  rw [ReadP.val_main_v27_apply, ReadP.val_main_v26_apply, varE_at x0 x1 lab hlab d f, ReadP.val_main_v25_apply,
    ReadP.val_main_cst_7_apply, Ideal.ofBits_def, Cert.Consts.ofBits_eps]
  rw [Ideal.hostUnary_rsqrt_def, Ideal.addf_def]
  unfold Cert.Spec.inv
  rfl

/-! ## The gathers at (n, f): each reads the table's row `lab n` -/

theorem gather2_lab {α : Type} (x : S8x512.Idx → α) (idx : IVec S262144x1 32) (n : Fin 262144) (f : Fin 512) (k : Fin 8)
    (hk : idx (ix2 n (0 : Fin 1)) = BitVec.ofNat 32 k.val) :
    Host.gather gd2 x idx (ix2 n f) = x (ix2 k f) := by
  rw [gather2_apply]
  refine congrArg (fun r => x (ix2 r f)) (Fin.ext ?_)
  show min (idx (ix2 n (0 : Fin 1))).toInt.toNat 7 = k.val
  rw [hk]; exact clamp_lab k

theorem gather1_lab {α : Type} (x : S8.Idx → α) (idx : IVec S262144x1 32) (n : Fin 262144) (k : Fin 8)
    (hk : idx (ix2 n (0 : Fin 1)) = BitVec.ofNat 32 k.val) :
    Host.gather gd1 x idx (ix1 n) = x (ix1 k) := by
  rw [gather1_apply]
  refine congrArg (fun r => x (ix1 r)) (Fin.ext ?_)
  show min (idx (ix2 n (0 : Fin 1))).toInt.toNat 7 = k.val
  rw [hk]; exact clamp_lab k

theorem col_idx_v33 (n : Fin 262144) : ReadP.idx_main_v33 (ix2 n (0 : Fin 1)) = ix1 n :=
  funext fun a => Fin.ext (by match a with | ⟨0, _⟩ => rfl)
theorem col_idx_v40 (n : Fin 262144) : ReadP.idx_main_v40 (ix2 n (0 : Fin 1)) = ix1 n :=
  funext fun a => Fin.ext (by match a with | ⟨0, _⟩ => rfl)
theorem col_idx_v49 (n : Fin 262144) : ReadP.idx_main_v49 (ix2 n (0 : Fin 1)) = ix1 n :=
  funext fun a => Fin.ext (by match a with | ⟨0, _⟩ => rfl)
theorem col_idx_v57 (n : Fin 262144) : ReadP.idx_main_v57 (ix2 n (0 : Fin 1)) = ix1 n :=
  funext fun a => Fin.ext (by match a with | ⟨0, _⟩ => rfl)
theorem col_idx_v65 (n : Fin 262144) : ReadP.idx_main_v65 (ix2 n (0 : Fin 1)) = ix1 n :=
  funext fun a => Fin.ext (by match a with | ⟨0, _⟩ => rfl)

/-- The five start-index columns: the wrapped label `select (y < 0) (y + 8) y` is the label's word. -/
theorem start_v33 (x1 : TY) (lab : Fin 262144 → Fin 8)
    (hlab : ∀ n : Fin 262144, x1 (ix1 n) = BitVec.ofNat 32 (lab n).val) (n : Fin 262144) :
    ReadP.val_main_v33 (F := Ideal) x1 (ix2 n (0 : Fin 1)) = BitVec.ofNat 32 (lab n).val := by
  rw [ReadP.val_main_v33_apply, col_idx_v33, ReadP.val_main_v32_apply, ReadP.val_main_v29_apply, ReadP.val_main_v31_apply,
    ReadP.val_main_v28_apply, ReadP.val_main_c_apply, ReadP.val_main_v30_apply, ReadP.val_main_c_8_apply, hlab n]
  exact wrap_lab (lab n)
theorem start_v40 (x1 : TY) (lab : Fin 262144 → Fin 8)
    (hlab : ∀ n : Fin 262144, x1 (ix1 n) = BitVec.ofNat 32 (lab n).val) (n : Fin 262144) :
    ReadP.val_main_v40 (F := Ideal) x1 (ix2 n (0 : Fin 1)) = BitVec.ofNat 32 (lab n).val := by
  rw [ReadP.val_main_v40_apply, col_idx_v40, ReadP.val_main_v39_apply, ReadP.val_main_v36_apply, ReadP.val_main_v38_apply,
    ReadP.val_main_v35_apply, ReadP.val_main_c_9_apply, ReadP.val_main_v37_apply, ReadP.val_main_c_10_apply, hlab n]
  exact wrap_lab (lab n)
theorem start_v49 (x1 : TY) (lab : Fin 262144 → Fin 8)
    (hlab : ∀ n : Fin 262144, x1 (ix1 n) = BitVec.ofNat 32 (lab n).val) (n : Fin 262144) :
    ReadP.val_main_v49 (F := Ideal) x1 (ix2 n (0 : Fin 1)) = BitVec.ofNat 32 (lab n).val := by
  rw [ReadP.val_main_v49_apply, col_idx_v49, ReadP.val_main_v48_apply, ReadP.val_main_v45_apply, ReadP.val_main_v47_apply,
    ReadP.val_main_v44_apply, ReadP.val_main_c_11_apply, ReadP.val_main_v46_apply, ReadP.val_main_c_12_apply, hlab n]
  exact wrap_lab (lab n)
theorem start_v57 (x1 : TY) (lab : Fin 262144 → Fin 8)
    (hlab : ∀ n : Fin 262144, x1 (ix1 n) = BitVec.ofNat 32 (lab n).val) (n : Fin 262144) :
    ReadP.val_main_v57 (F := Ideal) x1 (ix2 n (0 : Fin 1)) = BitVec.ofNat 32 (lab n).val := by
  rw [ReadP.val_main_v57_apply, col_idx_v57, ReadP.val_main_v56_apply, ReadP.val_main_v53_apply, ReadP.val_main_v55_apply,
    ReadP.val_main_v52_apply, ReadP.val_main_c_13_apply, ReadP.val_main_v54_apply, ReadP.val_main_c_14_apply, hlab n]
  exact wrap_lab (lab n)
theorem start_v65 (x1 : TY) (lab : Fin 262144 → Fin 8)
    (hlab : ∀ n : Fin 262144, x1 (ix1 n) = BitVec.ofNat 32 (lab n).val) (n : Fin 262144) :
    ReadP.val_main_v65 (F := Ideal) x1 (ix2 n (0 : Fin 1)) = BitVec.ofNat 32 (lab n).val := by
  rw [ReadP.val_main_v65_apply, col_idx_v65, ReadP.val_main_v64_apply, ReadP.val_main_v61_apply, ReadP.val_main_v63_apply,
    ReadP.val_main_v60_apply, ReadP.val_main_c_15_apply, ReadP.val_main_v62_apply, ReadP.val_main_c_16_apply, hlab n]
  exact wrap_lab (lab n)

theorem gamma_at (x1 : TY) (x2 : TG) (lab : Fin 262144 → Fin 8)
    (hlab : ∀ n : Fin 262144, x1 (ix1 n) = BitVec.ofNat 32 (lab n).val) (n : Fin 262144) (f : Fin 512) :
    ReadP.val_main_v34 (F := Ideal) x1 x2 (ix2 n f) = x2 (ix2 (lab n) f) := by
  unfold ReadP.val_main_v34
  exact gather2_lab _ _ n f (lab n) (start_v33 x1 lab hlab n)

theorem meanE_row_at (x0 : TX) (x1 : TY) (lab : Fin 262144 → Fin 8)
    (hlab : ∀ n : Fin 262144, x1 (ix1 n) = BitVec.ofNat 32 (lab n).val) (n : Fin 262144) (f : Fin 512) :
    ReadP.val_main_v41 (F := Ideal) x0 x1 (ix2 n f)
      = Cert.Spec.meanE (Cert.Spec.cntOf lab) (Cert.Spec.s1Of (fun n f => x0 (ix2 n f)) lab) (lab n) f := by
  unfold ReadP.val_main_v41
  exact (gather2_lab _ _ n f (lab n) (start_v40 x1 lab hlab n)).trans (meanE_at x0 x1 lab hlab (lab n) f)

theorem inv_row_at (x0 : TX) (x1 : TY) (lab : Fin 262144 → Fin 8)
    (hlab : ∀ n : Fin 262144, x1 (ix1 n) = BitVec.ofNat 32 (lab n).val) (n : Fin 262144) (f : Fin 512) :
    ReadP.val_main_v50 (F := Ideal) x0 x1 (ix2 n f)
      = Cert.Spec.inv (Cert.Spec.cntOf lab) (Cert.Spec.s1Of (fun n f => x0 (ix2 n f)) lab)
          (Cert.Spec.s2Of (fun n f => x0 (ix2 n f)) lab) ((Cert.Consts.epsR : ℝ) : EReal) (lab n) f := by
  unfold ReadP.val_main_v50
  exact (gather2_lab _ _ n f (lab n) (start_v49 x1 lab hlab n)).trans (inv_at x0 x1 lab hlab (lab n) f)

theorem beta_at (x1 : TY) (x3 : TG) (lab : Fin 262144 → Fin 8)
    (hlab : ∀ n : Fin 262144, x1 (ix1 n) = BitVec.ofNat 32 (lab n).val) (n : Fin 262144) (f : Fin 512) :
    ReadP.val_main_v58 (F := Ideal) x1 x3 (ix2 n f) = x3 (ix2 (lab n) f) := by
  unfold ReadP.val_main_v58
  exact gather2_lab _ _ n f (lab n) (start_v57 x1 lab hlab n)

theorem cnt_row_at (x1 : TY) (lab : Fin 262144 → Fin 8)
    (hlab : ∀ n : Fin 262144, x1 (ix1 n) = BitVec.ofNat 32 (lab n).val) (n : Fin 262144) :
    ReadP.val_main_v66 (F := Ideal) x1 (ix1 n) = Cert.Spec.cntOf lab (lab n) := by
  unfold ReadP.val_main_v66
  exact (gather1_lab _ _ n (lab n) (start_v65 x1 lab hlab n)).trans (cnt_at x1 lab hlab (lab n))

/-! ## The result at (n, f) -/

theorem mask_idx (n : Fin 262144) (f : Fin 512) : ReadP.idx_main_v69 (ReadP.idx_main_call2_v1 (ix2 n f)) = ix1 n :=
  funext fun a => Fin.ext (by match a with | ⟨0, _⟩ => rfl)

/-- γ[lab n, f] · (x[n, f] − meanE[lab n, f]) · inv[lab n, f] + β[lab n, f] where the count of `lab n` is positive, else 0. -/
theorem out_at (x0 : TX) (x1 : TY) (x2 x3 : TG) (lab : Fin 262144 → Fin 8)
    (hlab : ∀ n : Fin 262144, x1 (ix1 n) = BitVec.ofNat 32 (lab n).val) (n : Fin 262144) (f : Fin 512) :
    ReadP.val_main_v70 (F := Ideal) x0 x1 x2 x3 (ix2 n f)
      = Cert.Spec.rOut (fun n f => x0 (ix2 n f)) lab (fun d f => x2 (ix2 d f)) (fun d f => x3 (ix2 d f))
          ((Cert.Consts.epsR : ℝ) : EReal) n f := by
  rw [ReadP.val_main_v70_apply, ReadP.val_main_call2_v1_apply, ReadP.val_main_v69_apply, mask_idx, ReadP.val_main_v68_apply,
    cnt_row_at x1 lab hlab n, ReadP.val_main_v67_apply, ReadP.val_main_cst_17_apply, Ideal.ofBits_def, Cert.Consts.ofBits_zero,
    Ideal.cmpf_def, select_ogt,
    ReadP.val_main_v59_apply, ReadP.val_main_v51_apply, ReadP.val_main_v43_apply, ReadP.val_main_v42_apply,
    gamma_at x1 x2 lab hlab n f, meanE_row_at x0 x1 lab hlab n f, inv_row_at x0 x1 lab hlab n f, beta_at x1 x3 lab hlab n f,
    ReadP.val_main_call2_v2_apply, ReadP.val_main_call2_v0_apply, ReadP.val_main_cst_18_apply, Ideal.ofBits_def,
    Cert.Consts.ofBits_zero]
  rfl

/-- The reference's result is `rOut`: every index is (n, f), where `out_at` reads it. -/
theorem ref_value (x0 : (⟨S262144x512, .f32⟩ : BufTy).Contents (Elt Ideal)) (x1 : (⟨S262144, .i32⟩ : BufTy).Contents (Elt Ideal))
    (x2 x3 : (⟨S8x512, .f32⟩ : BufTy).Contents (Elt Ideal)) (lab : Fin 262144 → Fin 8)
    (hlab : ∀ n : Fin 262144, x1 (ix1 n) = BitVec.ofNat 32 (lab n).val) :
    Cert.ReferenceIdeal.ReadP.val_main_v70 (F := Ideal) x0 x1 x2 x3 = fun i =>
      Cert.Spec.rOut (fun n f => x0 (ix2 n f)) lab (fun d f => x2 (ix2 d f)) (fun d f => x3 (ix2 d f))
        ((Cert.Consts.epsR : ℝ) : EReal) (i 0) (i 1) := by
  funext i
  exact (congrArg (ReadP.val_main_v70 (F := Ideal) x0 x1 x2 x3) (eq_ix2 i)).trans (out_at x0 x1 x2 x3 lab hlab (i 0) (i 1))

end Cert.ReferenceIdeal.RefValue

end
-- ==== Proof.Algebra.lean ====
import proofs.«403173_j9320079033284_2_alg».proof.Proof.Spec
import Mathlib.Algebra.Order.Chebyshev

noncomputable section

open scoped BigOperators

namespace Cert.Algebra

open Idealize.ShloMosaic

/-! ## Finite sums of reals inside the extended reals

Addition, subtraction and multiplication of extended reals distribute only away from the infinities, so
every quantity of the chain is first shown to be (the coercion of) a real; the laws of the reals then apply. -/

/-- The coercion of the reals into the extended reals commutes with a finite sum. -/
theorem coe_sum {ι : Type*} (s : Finset ι) (g : ι → ℝ) :
    ∑ i ∈ s, ((g i : ℝ) : EReal) = ((∑ i ∈ s, g i : ℝ) : EReal) := by
  classical
  induction s using Finset.induction_on with
  | empty => simp
  | insert a s ha ih => rw [Finset.sum_insert ha, Finset.sum_insert ha, ih, EReal.coe_add]

/-- A sum over all points against the indicator of one point `k` is the term at `k`: in the extended reals
    `0 * a = 0` and `1 * a = a` for every `a`, the infinities included. -/
theorem sum_ind_mul {κ : Type*} [Fintype κ] [DecidableEq κ] (k : κ) (g : κ → EReal) :
    ∑ d, (if k = d then (1 : EReal) else 0) * g d = g k := by
  rw [Finset.sum_eq_single k]
  · rw [if_pos rfl, one_mul]
  · intro d _ hd
    rw [if_neg (Ne.symm hd), zero_mul]
  · intro h
    exact absurd (Finset.mem_univ k) h

/-! ## The statistics of one domain are real sums over that domain's rows -/

section Stats

variable {ι κ : Type*} [Fintype ι] [DecidableEq κ] (lab : ι → κ) (d : κ)

/-- The sum of the indicator of domain `d` over all rows is the number of rows of `d`. -/
theorem sum_ind_eq_card :
    ∑ n : ι, (if lab n = d then (1 : EReal) else 0)
      = (((Finset.univ.filter (fun n => lab n = d)).card : ℝ) : EReal) := by
  have h : ∀ n : ι, (if lab n = d then (1 : EReal) else 0)
      = (((if lab n = d then (1 : ℝ) else 0) : ℝ) : EReal) := by
    intro n
    split_ifs
    · exact EReal.coe_one.symm
    · exact EReal.coe_zero.symm
  rw [Finset.sum_congr rfl (fun n _ => h n), coe_sum, Finset.sum_boole]

/-- The sum over all rows of indicator times a real entry is the real sum of the entries over `d`'s rows. -/
theorem sum_ind_mul_eq (x : ι → EReal) (xr : ι → ℝ) (hx : ∀ n, x n = (xr n : EReal)) :
    ∑ n : ι, (if lab n = d then (1 : EReal) else 0) * x n
      = ((∑ n ∈ Finset.univ.filter (fun n => lab n = d), xr n : ℝ) : EReal) := by
  rw [Finset.sum_filter, ← coe_sum]
  refine Finset.sum_congr rfl (fun n _ => ?_)
  rw [hx n]
  split_ifs
  · rw [one_mul]
  · rw [zero_mul, EReal.coe_zero]

end Stats

/-- The biased variance of finitely many reals is not negative: by the Cauchy–Schwarz inequality
    `(∑ g)² ≤ card · ∑ g²`, so `∑ g² / c − (∑ g / c)² = (c · ∑ g² − (∑ g)²) / c² ≥ 0`. -/
theorem var_nonneg {ι : Type*} (s : Finset ι) (g : ι → ℝ) (hs : 0 < s.card) :
    0 ≤ (∑ i ∈ s, g i * g i) * (1 / (s.card : ℝ))
          - ((∑ i ∈ s, g i) * (1 / (s.card : ℝ))) * ((∑ i ∈ s, g i) * (1 / (s.card : ℝ))) := by
  have hcs := sq_sum_le_card_mul_sum_sq (s := s) (f := g)
  have hc : (0 : ℝ) < (s.card : ℝ) := by exact_mod_cast hs
  have hsq : ∑ i ∈ s, g i * g i = ∑ i ∈ s, g i ^ 2 :=
    Finset.sum_congr rfl (fun i _ => (sq (g i)).symm)
  rw [hsq]
  have e : (∑ i ∈ s, g i ^ 2) * (1 / (s.card : ℝ))
          - ((∑ i ∈ s, g i) * (1 / (s.card : ℝ))) * ((∑ i ∈ s, g i) * (1 / (s.card : ℝ)))
        = ((s.card : ℝ) * ∑ i ∈ s, g i ^ 2 - (∑ i ∈ s, g i) ^ 2) / (s.card : ℝ) ^ 2 := by
    field_simp
  rw [e]
  exact div_nonneg (sub_nonneg.2 hcs) (sq_nonneg _)

/-- The reciprocal square root of a positive real is a real. -/
theorem rsqrt_pos {r : ℝ} (h : 0 < r) : Ideal.rsqrt (r : EReal) = (((Real.sqrt r)⁻¹ : ℝ) : EReal) := by
  rw [Ideal.rsqrt_coe, if_neg (not_lt.2 h.le), if_neg h.ne']

/-! ## The chain at a domain that is not empty, on real statistics -/

/-- With a real count `c ≥ 1`, real sums `a`, `b`, a variance that is not negative wherever `1 < c`, and
    `ε > 0`, the mean used and the reciprocal deviation are reals: the divisor is `c ≠ 0`, and the argument
    of the reciprocal square root is positive in both branches (`variance + ε`, or `1 + ε`). -/
theorem chain_real (cnt : Fin 8 → EReal) (s1 s2 : Fin 8 → Fin 512 → EReal) (e : ℝ) (he : 0 < e)
    (d : Fin 8) (f : Fin 512) (c a b : ℝ) (hc1 : 1 ≤ c)
    (hc : cnt d = (c : EReal)) (ha : s1 d f = (a : EReal)) (hb : s2 d f = (b : EReal))
    (hv : 1 < c → 0 ≤ b * (1 / c) - (a * (1 / c)) * (a * (1 / c))) :
    ∃ m i : ℝ, Cert.Spec.meanE cnt s1 d f = (m : EReal)
      ∧ Cert.Spec.inv cnt s1 s2 (e : EReal) d f = (i : EReal) := by
  have hc0 : c ≠ 0 := (lt_of_lt_of_le one_pos hc1).ne'
  have hsafe : Cert.Spec.safe cnt d = (c : EReal) := by
    rw [Cert.Spec.safe, hc]
    exact max_eq_left (by exact_mod_cast hc1)
  have hmean : Cert.Spec.mean cnt s1 d f = ((a * (1 / c) : ℝ) : EReal) := by
    rw [Cert.Spec.mean, hsafe, ha, Ideal.div_coe hc0, ← EReal.coe_mul]
  have hvar : Cert.Spec.var cnt s1 s2 d f
      = ((b * (1 / c) - (a * (1 / c)) * (a * (1 / c)) : ℝ) : EReal) := by
    rw [Cert.Spec.var, hmean, hsafe, hb, Ideal.div_coe hc0, ← EReal.coe_mul, ← EReal.coe_mul,
      ← EReal.coe_sub]
  by_cases h : (1 : EReal) < cnt d
  · have h1 : 1 < c := by rw [hc] at h; exact_mod_cast h
    have hpos : 0 < b * (1 / c) - (a * (1 / c)) * (a * (1 / c)) + e := add_pos_of_nonneg_of_pos (hv h1) he
    refine ⟨a * (1 / c), (Real.sqrt (b * (1 / c) - (a * (1 / c)) * (a * (1 / c)) + e))⁻¹, ?_, ?_⟩
    · rw [Cert.Spec.meanE, if_pos h, hmean]
    · rw [Cert.Spec.inv, Cert.Spec.varE, if_pos h, hvar, ← EReal.coe_add, rsqrt_pos hpos]
  · have hpos : 0 < 1 + e := add_pos one_pos he
    refine ⟨0, (Real.sqrt (1 + e))⁻¹, ?_, ?_⟩
    · rw [Cert.Spec.meanE, if_neg h, EReal.coe_zero]
    · rw [Cert.Spec.inv, Cert.Spec.varE, if_neg h, ← EReal.coe_one, ← EReal.coe_add, rsqrt_pos hpos]

/-! ## The two forms agree -/

theorem kOut_eq_rOut (x : Fin 262144 → Fin 512 → EReal) (lab : Fin 262144 → Fin 8) (γ β : Fin 8 → Fin 512 → EReal)
    (e : ℝ) (he : 0 < e)
    (hx : ∀ n f, ∃ r : ℝ, x n f = (r : EReal)) (hγ : ∀ d f, ∃ r : ℝ, γ d f = (r : EReal))
    (hβ : ∀ d f, ∃ r : ℝ, β d f = (r : EReal)) (n : Fin 262144) (f : Fin 512) :
    Cert.Spec.kOut x lab γ β (e : EReal) n f = Cert.Spec.rOut x lab γ β (e : EReal) n f := by
  classical
  -- real witnesses for every entry
  choose xr hxr using hx
  obtain ⟨g, hg⟩ := hγ (lab n) f
  obtain ⟨b0, hb0⟩ := hβ (lab n) f
  -- the rows of the row's own domain; row `n` is one of them, so the domain is not empty
  have hn : n ∈ Finset.univ.filter (fun k => lab k = lab n) :=
    Finset.mem_filter.2 ⟨Finset.mem_univ n, rfl⟩
  have hcard : 0 < (Finset.univ.filter (fun k => lab k = lab n)).card := Finset.card_pos.2 ⟨n, hn⟩
  have hc1 : (1 : ℝ) ≤ ((Finset.univ.filter (fun k => lab k = lab n)).card : ℝ) := by
    exact_mod_cast hcard
  -- the three statistics of that domain are reals
  have hcnt : Cert.Spec.cntOf lab (lab n)
      = (((Finset.univ.filter (fun k => lab k = lab n)).card : ℝ) : EReal) :=
    sum_ind_eq_card lab (lab n)
  have hs1 : Cert.Spec.s1Of x lab (lab n) f
      = ((∑ k ∈ Finset.univ.filter (fun k => lab k = lab n), xr k f : ℝ) : EReal) :=
    sum_ind_mul_eq lab (lab n) (fun k => x k f) (fun k => xr k f) (fun k => hxr k f)
  have hs2 : Cert.Spec.s2Of x lab (lab n) f
      = ((∑ k ∈ Finset.univ.filter (fun k => lab k = lab n), xr k f * xr k f : ℝ) : EReal) :=
    sum_ind_mul_eq lab (lab n) (fun k => x k f * x k f) (fun k => xr k f * xr k f)
      (fun k => by rw [hxr k f, EReal.coe_mul])
  -- so the mean used and the reciprocal deviation there are reals
  obtain ⟨m, i, hm, hi⟩ := chain_real (Cert.Spec.cntOf lab) (Cert.Spec.s1Of x lab) (Cert.Spec.s2Of x lab)
    e he (lab n) f _ _ _ hc1 hcnt hs1 hs2
    (fun _ => var_nonneg (Finset.univ.filter (fun k => lab k = lab n)) (fun k => xr k f) hcard)
  have hpos : (0 : EReal) < Cert.Spec.cntOf lab (lab n) := by
    rw [hcnt]
    exact_mod_cast hcard
  -- the two sums against the indicator pick the row's own domain
  have e1 : ∑ d : Fin 8, Cert.Spec.ind lab n d
        * Cert.Spec.scale (Cert.Spec.cntOf lab) (Cert.Spec.s1Of x lab) (Cert.Spec.s2Of x lab) γ (e : EReal) d f
      = Cert.Spec.scale (Cert.Spec.cntOf lab) (Cert.Spec.s1Of x lab) (Cert.Spec.s2Of x lab) γ (e : EReal) (lab n) f :=
    sum_ind_mul (lab n)
      (fun d => Cert.Spec.scale (Cert.Spec.cntOf lab) (Cert.Spec.s1Of x lab) (Cert.Spec.s2Of x lab) γ (e : EReal) d f)
  have e2 : ∑ d : Fin 8, Cert.Spec.ind lab n d
        * Cert.Spec.bias (Cert.Spec.cntOf lab) (Cert.Spec.s1Of x lab) (Cert.Spec.s2Of x lab) γ β (e : EReal) d f
      = Cert.Spec.bias (Cert.Spec.cntOf lab) (Cert.Spec.s1Of x lab) (Cert.Spec.s2Of x lab) γ β (e : EReal) (lab n) f :=
    sum_ind_mul (lab n)
      (fun d => Cert.Spec.bias (Cert.Spec.cntOf lab) (Cert.Spec.s1Of x lab) (Cert.Spec.s2Of x lab) γ β (e : EReal) d f)
  rw [Cert.Spec.kOut, Cert.Spec.rOut, if_pos hpos, e1, e2, Cert.Spec.scale, Cert.Spec.bias,
    if_pos hpos, if_pos hpos, hm, hi, hxr n f, hg, hb0]
  -- all reals now: `x·(γ·i) + (β − γ·m·i) = γ·(x − m)·i + β` is an identity of the real field
  have key : xr n f * (g * i) + (b0 - g * m * i) = g * (xr n f - m) * i + b0 := by ring
  exact_mod_cast congrArg (fun r : ℝ => (r : EReal)) key

end Cert.Algebra

end
-- ==== Proof.Pre.lean ====
/-
  The precondition, read back: where the printed predicate is all ones, every entry of the three float inputs
  is a real number (its absolute value is below +∞), and every label is a signed word in [0, 8), so it is the
  32-bit word of a number below 8.
-/
import proofs.«403173_j9320079033284_2_alg».proof.Pre_finite_inputs
import Idealize.ShloMosaic.Lib.ReduceAll
import Idealize.ShloMosaic.Lib.ValueIdx
import Idealize.ShloMosaic.Lib.Pipeline.Value
import Idealize.ShloMosaic.PureOps.Ideal

set_option maxRecDepth 16384

noncomputable section

namespace Cert.PreDecode

open Idealize.ShloMosaic Idealize.ShloMosaic.ValueIdx Cert.Pre_finite_inputs

variable [Cert.Pre_finite_inputs.Facts]

instance : Subsingleton S_.Idx := ⟨fun a b => funext fun d => d.elim0⟩

/-- The pattern of +∞. -/
theorem ofBits_inf : Ideal.ofBits .f32 0x7F800000#32 = ⊤ := by
  simp [Ideal.ofBits, Ideal.ieee]

/-- An extended real whose absolute value is below +∞ is a real. -/
theorem real_of_abs_lt (x : EReal) (h : max x (-x) < ⊤) : ∃ r : ℝ, x = (r : EReal) := by
  induction x using EReal.rec with
  | bot => simp at h
  | coe r => exact ⟨r, rfl⟩
  | top => simp at h

theorem eq_true_of_ofBool {b : Bool} (h : BitVec.ofBool b = 1#1) : b = true := by
  revert h; cases b <;> decide

/-- One entry of a float input passes the printed test "its absolute value is below the +∞ word": it is a real. -/
theorem real_of_test {s : Shape} (a : FVec Ideal s .f32) (hb : S_.BroadcastsInDim s (![] : Fin 0 → Fin s.rank)) (i : s.Idx)
    (e : cmpf .olt (Host.absf a) (broadcastInDim s ![] hb (constant (F := Ideal) S_ .f32 0x7F800000#32)) i = 1#1) :
    ∃ r : ℝ, a i = (r : EReal) := by
  rw [cmpf_apply, broadcastInDim_apply _ hb _ i ix0 (fun a => a.elim0), constant_apply, ofBits_inf] at e
  change BitVec.ofBool (decide (max (a i) (-(a i)) < (⊤ : EReal))) = 1#1 at e
  exact real_of_abs_lt _ (of_decide_eq_true (eq_true_of_ofBool e))

/-- One label passes the printed test "not below the word 0, signed". -/
theorem nonneg_of_test (a : IVec S262144 32) (hb : S_.BroadcastsInDim S262144 (![] : Fin 0 → Fin S262144.rank)) (i : S262144.Idx)
    (e : cmpi .sge a (broadcastInDim S262144 ![] hb (constantI S_ 32 0#32)) i = 1#1) : 0 ≤ (a i).toInt := by
  change IntOp.cmpi .sge (a i) (broadcastInDim S262144 ![] hb (constantI S_ 32 0#32) i) = 1#1 at e
  rw [broadcastInDim_apply _ hb _ i ix0 (fun a => a.elim0)] at e
  change IntOp.cmpi .sge (a i) 0#32 = 1#1 at e
  have := IntOp.cmpi_sge.mp e
  simpa using this

/-- One label passes the printed test "below the word 8, signed". -/
theorem lt8_of_test (a : IVec S262144 32) (hb : S_.BroadcastsInDim S262144 (![] : Fin 0 → Fin S262144.rank)) (i : S262144.Idx)
    (e : cmpi .slt a (broadcastInDim S262144 ![] hb (constantI S_ 32 8#32)) i = 1#1) : (a i).toInt < 8 := by
  change IntOp.cmpi .slt (a i) (broadcastInDim S262144 ![] hb (constantI S_ 32 8#32) i) = 1#1 at e
  rw [broadcastInDim_apply _ hb _ i ix0 (fun a => a.elim0)] at e
  change IntOp.cmpi .slt (a i) 8#32 = 1#1 at e
  have := IntOp.cmpi_slt.mp e
  have h8 : (8#32 : BitVec 32).toInt = 8 := by decide
  omega

/-- The printed precondition, all ones: the three float inputs hold reals, the labels are signed words in [0, 8). -/
theorem decode (a0 : FVec Ideal S262144x512 .f32) (a1 : IVec S262144 32) (a2 a3 : FVec Ideal S8x512 .f32)
    (h : Cert.Pre_finite_inputs.fn (F := Ideal) a0 a1 a2 a3 = fun _ => 1#1) :
    (∀ i, ∃ r : ℝ, a0 i = (r : EReal)) ∧ (∀ i, ∃ r : ℝ, a2 i = (r : EReal)) ∧ (∀ i, ∃ r : ℝ, a3 i = (r : EReal))
      ∧ (∀ i, 0 ≤ (a1 i).toInt ∧ (a1 i).toInt < 8) := by
  have h0 := congrFun h ix0
  dsimp only [Cert.Pre_finite_inputs.fn, Cert.Pre_finite_inputs.fn_part1] at h0
  have e1 : ∀ (p q : IVec S_ 1), andi p q ix0 = IntOp.andi (p ix0) (q ix0) := fun _ _ => rfl
  rw [e1, IntOp.andi_eq_one, e1, IntOp.andi_eq_one, e1, IntOp.andi_eq_one, e1, IntOp.andi_eq_one] at h0
  obtain ⟨⟨⟨⟨hx, hg⟩, hb⟩, hge⟩, hlt⟩ := h0
  exact ⟨fun i => real_of_test a0 _ i (Host.reduce_andi_all _ _ _ _ ix0 hx i),
    fun i => real_of_test a2 _ i (Host.reduce_andi_all _ _ _ _ ix0 hg i),
    fun i => real_of_test a3 _ i (Host.reduce_andi_all _ _ _ _ ix0 hb i),
    fun i => ⟨nonneg_of_test a1 _ i (Host.reduce_andi_all _ _ _ _ ix0 hge i),
      lt8_of_test a1 _ i (Host.reduce_andi_all _ _ _ _ ix0 hlt i)⟩⟩

/-- A signed word in [0, 8) is the 32-bit word of a number below 8. -/
theorem word_of_range (w : BitVec 32) (h0 : 0 ≤ w.toInt) (h8 : w.toInt < 8) :
    ∃ d : Fin 8, w = BitVec.ofNat 32 d.val := by
  have hn : w.toNat < 8 := by
    have := BitVec.toInt_eq_toNat_cond w
    split at this <;> omega
  exact ⟨⟨w.toNat, hn⟩, by simp⟩

/-- So the labels are a map into the eight domains. -/
theorem labels (a1 : IVec S262144 32) (h : ∀ i, 0 ≤ (a1 i).toInt ∧ (a1 i).toInt < 8) :
    ∃ lab : Fin 262144 → Fin 8, ∀ n : Fin 262144, a1 (ix1 n) = BitVec.ofNat 32 (lab n).val := by
  choose lab hlab using fun n : Fin 262144 => word_of_range (a1 (ix1 n)) (h (ix1 n)).1 (h (ix1 n)).2
  exact ⟨lab, hlab⟩

end Cert.PreDecode

end
-- ==== Proof.lean ====
/-
  The certificate: a per-domain batch normalisation computed by two Pallas regions (statistics, then
  normalisation) against the same computed with scatter-adds and gathers, under the precondition that the
  float inputs are finite and every label lies in [0, 8).

  Frames: the two kernel programs' are the generated frame certificates; the reference's is its run with the
  result dropped. The ideal pass rewrote nothing, so `preserves` is trivial.

  The algebraic claim. The idealized kernel's result array is the kernel's form of the mathematics
  (`Cert.Spec.kOut`: per-domain scale and bias tables picked by a sum against the label's indicator, then
  x · scale + bias), the reference's is the reference's form (`Cert.Spec.rOut`: γ · (x − mean) · inv + β read at
  the row's own domain). With every input entry a real and the labels words of numbers below 8, the two forms
  agree: the sums against the indicator collapse to the row's own domain, that domain is not empty, the
  variance is not negative (Cauchy–Schwarz), so the reciprocal square root is a real, and the identity is the
  distributive law over the reals.
-/
import proofs.«403173_j9320079033284_2_alg».proof.Defs
import proofs.«403173_j9320079033284_2_alg».proof.Proof.Gen.Kernel
import proofs.«403173_j9320079033284_2_alg».proof.Proof.Gen.Kernel.Skeleton
import proofs.«403173_j9320079033284_2_alg».proof.Proof.Gen.Kernel.Launch
import proofs.«403173_j9320079033284_2_alg».proof.Proof.Gen.Kernel.Points
import proofs.«403173_j9320079033284_2_alg».proof.Proof.Gen.Kernel.Frame
import proofs.«403173_j9320079033284_2_alg».proof.Proof.Gen.KernelIdeal
import proofs.«403173_j9320079033284_2_alg».proof.Proof.Gen.KernelIdeal.Skeleton
import proofs.«403173_j9320079033284_2_alg».proof.Proof.Gen.KernelIdeal.Launch
import proofs.«403173_j9320079033284_2_alg».proof.Proof.Gen.KernelIdeal.Points
import proofs.«403173_j9320079033284_2_alg».proof.Proof.Gen.KernelIdeal.Frame
import proofs.«403173_j9320079033284_2_alg».proof.Proof.Gen.ReferenceIdeal
import proofs.«403173_j9320079033284_2_alg».proof.Proof.Gen.Pre_finite_inputs
import proofs.«403173_j9320079033284_2_alg».proof.Proof.RefRun
import proofs.«403173_j9320079033284_2_alg».proof.Proof.RefRead
import proofs.«403173_j9320079033284_2_alg».proof.Proof.KernelRun
import proofs.«403173_j9320079033284_2_alg».proof.Proof.KernelValue
import proofs.«403173_j9320079033284_2_alg».proof.Proof.RefValue
import proofs.«403173_j9320079033284_2_alg».proof.Proof.Algebra
import proofs.«403173_j9320079033284_2_alg».proof.Proof.Pre
import Idealize.ShloMosaic.Adequacy
import Idealize.ShloMosaic.Init

set_option maxRecDepth 16384

noncomputable section

namespace Cert.Proof

open Idealize.ShloMosaic Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RunP.run (F := Ideal) m ρ)

theorem preserves : Cert.preserves_Kernel_KernelIdeal := trivial

/-- Both idealized programs end with the same result array: the kernel's at the kernel's form, the reference's at the
    reference's form, and the two forms agree on real entries and labels in range. -/
theorem algebraic : Cert.algebraic_KernelIdeal_ReferenceIdeal := by
  intro m ρ m' ρ' hpre hagree
  refine ⟨fun c => Cert.KernelIdeal.Gen.W11 m ρ c (Proc.devRef .tc Cert.KernelIdeal.main_v33),
    Cert.KernelIdeal.RunP.run_result (F := Ideal) m ρ, ?_⟩
  refine (θ_run Cert.ReferenceIdeal.defs _ _).mono (fun _ h c => ⟨(h c).1.trans ?_, (h c).2⟩)
    (Cert.ReferenceIdeal.RunP.run (F := Ideal) m' ρ')
  obtain ⟨hx, hg, hb, hy⟩ := Cert.PreDecode.decode _ _ _ _ (hpre c)
  obtain ⟨lab, hlab⟩ := Cert.PreDecode.labels _ hy
  rw [Cert.ReferenceIdeal.ReadP.val_main_v70_eq, (hagree c).1, (hagree c).2.1, (hagree c).2.2.1, (hagree c).2.2.2,
    Cert.ReferenceIdeal.RefValue.ref_value _ _ _ _ lab hlab]
  refine Eq.trans ?_ (Cert.KernelIdeal.KValue.kernel_value m ρ lab c hlab).symm
  funext i
  exact (Cert.Algebra.kOut_eq_rOut _ lab _ _ Cert.Consts.epsR Cert.Consts.epsR_pos (fun n f => hx _) (fun d f => hg _)
    (fun d f => hb _) (i 0) (i 1)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
